-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg2 : IVec S100000 32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg2 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v73 main_v76
  let main_c_30 : IVec S_ 32 := constantI S_ 32 64#32
  let main_v78 : IVec S100000 32 := broadcastInDim S100000 ![] bcast_S_S100000 main_c_30
  let main_v79 : IVec S100000 1 := cmpi .slt main_arg2 main_v78
  let main_c_31 : IVec S_ 1 := constantI S_ 1 1#1
  let main_v80 : IVec S_ 1 := (fun x v => Host.reduce IntOp.andi x v reducesTo_S100000_S_d0 h_S_) main_v79 main_c_31
  let main_v81 : IVec S_ 1 := andi main_v77 main_v80
  main_v81

def fn_part3 {F : FTy → Type} [FloatOps F] (main_arg2 : IVec S100000 32) (main_arg13 : FVec F S1 .f32) (main_arg14 : FVec F S128x1 .f32) (main_arg15 : FVec F S128x1 .f32) (main_arg16 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg2 main_arg16 main_v63 main_v67

def fn_part2 {F : FTy → Type} [FloatOps F] (main_arg2 : IVec S100000 32) (main_arg9 : FVec F S128x128 .f32) (main_arg10 : FVec F S128 .f32) (main_arg11 : FVec F S128x128 .f32) (main_arg12 : FVec F S128x1 .f32) (main_arg13 : FVec F S1 .f32) (main_arg14 : FVec F S128x1 .f32) (main_arg15 : FVec F S128x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg2 main_arg13 main_arg14 main_arg15 main_arg16 main_v48 main_v49 main_v50

def fn_part1 {F : FTy → Type} [FloatOps F] (main_arg2 : IVec S100000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x1 .f32) (main_arg13 : FVec F S1 .f32) (main_arg14 : FVec F S128x1 .f32) (main_arg15 : FVec F S128x1 .f32) (main_arg16 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_v33

def fn {F : FTy → Type} [FloatOps F] (main_arg0 : FVec F S100000x32 .f32) (main_arg1 : IVec S2x1600000 32) (main_arg2 : IVec S100000 32) (main_arg3 : FVec F S32x128 .f32) (main_arg4 : FVec F S128 .f32) (main_arg5 : FVec F S32x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x1 .f32) (main_arg13 : FVec F S1 .f32) (main_arg14 : FVec F S128x1 .f32) (main_arg15 : FVec F S128x1 .f32) (main_arg16 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg2 main_arg6 main_arg7 main_arg8 main_arg9 main_arg10 main_arg11 main_arg12 main_arg13 main_arg14 main_arg15 main_arg16 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x32 : Shape := ⟨2, ![1600000, 32]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S1600000x128 : Shape := ⟨2, ![1600000, 128]⟩
abbrev S1x1 : Shape := ⟨2, ![1, 1]⟩
abbrev S5000x1 : Shape := ⟨2, ![5000, 1]⟩
abbrev S64x128 : Shape := ⟨2, ![64, 128]⟩
abbrev S64x1 : Shape := ⟨2, ![64, 1]⟩
abbrev S5000x64 : Shape := ⟨2, ![5000, 64]⟩

abbrev nBuf : Space → Nat
  | .hbm => 124
  | .vmem => 53
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S100000, .i32⟩
  | .hbm, ⟨3, _⟩ => ⟨S32x128, .f32⟩
  | .hbm, ⟨4, _⟩ => ⟨S128, .f32⟩
  | .hbm, ⟨5, _⟩ => ⟨S32x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x1, .f32⟩
  | .hbm, ⟨13, _⟩ => ⟨S1, .f32⟩
  | .hbm, ⟨14, _⟩ => ⟨S128x1, .f32⟩
  | .hbm, ⟨15, _⟩ => ⟨S128x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000x1, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x32, .f32⟩
  | .hbm, ⟨51, _⟩ => ⟨S_, .f32⟩
  | .hbm, ⟨52, _⟩ => ⟨S100000x32, .f32⟩
  | .hbm, ⟨53, _⟩ => ⟨S1600000x1, .i32⟩
  | .hbm, ⟨54, _⟩ => ⟨S100000x32, .f32⟩
  | .hbm, ⟨55, _⟩ => ⟨S100000x32, .f32⟩
  | .hbm, ⟨56, _⟩ => ⟨S100000x32, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S1x1, .f32⟩
  | .hbm, ⟨109, _⟩ => ⟨S100000x1, .f32⟩
  | .hbm, ⟨110, _⟩ => ⟨S64x128, .f32⟩
  | .hbm, ⟨111, _⟩ => ⟨S64x1, .f32⟩
  | .hbm, ⟨112, _⟩ => ⟨S64x1, .f32⟩
  | .hbm, ⟨113, _⟩ => ⟨S64x1, .f32⟩
  | .hbm, ⟨114, _⟩ => ⟨S1x1, .f32⟩
  | .hbm, ⟨115, _⟩ => ⟨S64x1, .f32⟩
  | .hbm, ⟨116, _⟩ => ⟨S64x1, .f32⟩
  | .hbm, ⟨117, _⟩ => ⟨S64x1, .f32⟩
  | .hbm, ⟨118, _⟩ => ⟨S_, .f32⟩
  | .hbm, ⟨119, _⟩ => ⟨S64x1, .f32⟩
  | .hbm, ⟨120, _⟩ => ⟨S64x1, .f32⟩
  | .hbm, ⟨121, _⟩ => ⟨S64x1, .f32⟩
  | .hbm, ⟨122, _⟩ => ⟨S100000x1, .f32⟩
  | .hbm, ⟨123, _⟩ => ⟨S100000, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x128, .f32⟩
  | .local _ .vmem, ⟨5, _⟩ => ⟨S1x128, .f32⟩
  | .local _ .vmem, ⟨6, _⟩ => ⟨S32x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x1, .f32⟩
  | .local _ .vmem, ⟨32, _⟩ => ⟨S1x1, .f32⟩
  | .local _ .vmem, ⟨33, _⟩ => ⟨S128x1, .f32⟩
  | .local _ .vmem, ⟨34, _⟩ => ⟨S5000x1, .f32⟩
  | .local _ .vmem, ⟨35, _⟩ => ⟨S5000x1, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S5000x1, .i32⟩
  | .local _ .vmem, ⟨41, _⟩ => ⟨S5000x1, .i32⟩
  | .local _ .vmem, ⟨42, _⟩ => ⟨S64x128, .f32⟩
  | .local _ .vmem, ⟨43, _⟩ => ⟨S64x1, .f32⟩
  | .local _ .vmem, ⟨44, _⟩ => ⟨S64x1, .f32⟩
  | .local _ .vmem, ⟨45, _⟩ => ⟨S5000x1, .i32⟩
  | .local _ .vmem, ⟨46, _⟩ => ⟨S5000x1, .i32⟩
  | .local _ .vmem, ⟨47, _⟩ => ⟨S5000x1, .f32⟩
  | .local _ .vmem, ⟨48, _⟩ => ⟨S5000x1, .f32⟩
  | .local _ .vmem, ⟨49, _⟩ => ⟨S64x1, .f32⟩
  | .local _ .vmem, ⟨50, _⟩ => ⟨S64x1, .f32⟩
  | .local _ .vmem, ⟨51, _⟩ => ⟨S5000x1, .f32⟩
  | .local _ .vmem, ⟨52, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_6 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_10 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73_0 : Ref sig .tc := ⟨.hbm, 110, rfl⟩
abbrev main_v73_1 : Ref sig .tc := ⟨.hbm, 111, rfl⟩
abbrev main_v73_2 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg4_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem5_0 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem4_1 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  shapeCasts_S64x1_S64x1 : S64x1.ShapeCasts S64x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x1_S64x1_1_0_0_1_n_n_wf : DotDims.WF S64x128 S128x1 S64x1 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .i32 = 32 ∨ (Rect.block (s := S100000x1) S5000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .i32 = 32 ∨ (Rect.block (s := S100000x1) S5000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .f32 = 32 ∨ (Rect.block (s := S64x1) S64x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S100000x1.size a
  hwx5_4 : ∀ i : grid5.Coords, EltTy.bits .f32 = 32 ∨ (Rect.block (s := S100000x1) S5000x1.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v28) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73_0) S64x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73_1) S64x1.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73_2) S64x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v4) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩
abbrev S64x128 : Shape := ⟨2, ![64, 128]⟩
abbrev S64x1 : Shape := ⟨2, ![64, 1]⟩
abbrev S64 : Shape := ⟨1, ![64]⟩

abbrev nBuf : Space → Nat
  | .hbm => 184
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x128, .f32⟩
  | 4 => ⟨S128, .f32⟩
  | 5 => ⟨S32x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x1, .f32⟩
  | 13 => ⟨S1, .f32⟩
  | 14 => ⟨S128x1, .f32⟩
  | 15 => ⟨S128x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x32, .f32⟩
  | 49 => ⟨S_, .f32⟩
  | 50 => ⟨S100000x32, .f32⟩
  | 51 => ⟨S1600000x1, .i32⟩
  | 52 => ⟨S100000x32, .f32⟩
  | 53 => ⟨S100000x1, .f32⟩
  | 54 => ⟨S100000x32, .f32⟩
  | 55 => ⟨S100000x32, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x1, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x1, .f32⟩
  | 126 => ⟨S100000x128, .f32⟩
  | 127 => ⟨S100000x128, .f32⟩
  | _ => ⟨S100000x32, .f32⟩

abbrev hbmTy0_1 (i : Nat) : BufTy := match i % 128 with
  | 0 => ⟨S100000x1, .f32⟩
  | 1 => ⟨S1x1, .f32⟩
  | 2 => ⟨S100000x1, .f32⟩
  | 3 => ⟨S100000x1, .f32⟩
  | 4 => ⟨S100000x1, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S_, .f32⟩
  | 11 => ⟨S64x128, .f32⟩
  | 12 => ⟨S100000x1, .i32⟩
  | 13 => ⟨S64x128, .f32⟩
  | 14 => ⟨S64x1, .f32⟩
  | 15 => ⟨S1x1, .f32⟩
  | 16 => ⟨S64x1, .f32⟩
  | 17 => ⟨S64x1, .f32⟩
  | 18 => ⟨S64x1, .f32⟩
  | 19 => ⟨S_, .f32⟩
  | 20 => ⟨S100000, .f32⟩
  | 21 => ⟨S_, .f32⟩
  | 22 => ⟨S64, .f32⟩
  | 23 => ⟨S100000x1, .i32⟩
  | 24 => ⟨S64, .f32⟩
  | 25 => ⟨S_, .f32⟩
  | 26 => ⟨S64x1, .f32⟩
  | 27 => ⟨S100000x1, .i32⟩
  | 28 => ⟨S64x1, .f32⟩
  | 29 => ⟨S_, .f32⟩
  | 30 => ⟨S64, .f32⟩
  | 31 => ⟨S64, .f32⟩
  | 32 => ⟨S64x1, .f32⟩
  | 33 => ⟨S64x1, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x1, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x1, .f32⟩
  | 52 => ⟨S100000x1, .f32⟩
  | 53 => ⟨S100000x1, .f32⟩
  | 54 => ⟨S100000x1, .f32⟩
  | 55 => ⟨S100000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call1_cst : Ref sig .tc := ⟨.hbm, 62, rfl⟩
abbrev main_call1_v0 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call2_cst : Ref sig .tc := ⟨.hbm, 87, rfl⟩
abbrev main_call2_v0 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_c_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_13 : Ref sig .tc := ⟨.hbm, 112, rfl⟩
abbrev main_v74 : Ref sig .tc := ⟨.hbm, 113, rfl⟩
abbrev main_v75 : Ref sig .tc := ⟨.hbm, 114, rfl⟩
abbrev main_c_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_16 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_18 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_21 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_22 : Ref sig .tc := ⟨.hbm, 162, rfl⟩
abbrev main_v115 : Ref sig .tc := ⟨.hbm, 163, rfl⟩
abbrev main_v116 : Ref sig .tc := ⟨.hbm, 164, rfl⟩
abbrev main_c_23 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_24 : Ref sig .tc := ⟨.hbm, 171, rfl⟩
abbrev main_v122 : Ref sig .tc := ⟨.hbm, 172, rfl⟩
abbrev main_v123 : Ref sig .tc := ⟨.hbm, 173, rfl⟩
abbrev main_c_25 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S64x128 : S_.BroadcastsInDim S64x128 (![] : Fin 0 → Fin S64x128.rank)
  bcast_S1x1_S64x1_0_1 : S1x1.BroadcastsInDim S64x1 (![0, 1] : Fin 2 → Fin S64x1.rank)
  bcast_S_S64 : S_.BroadcastsInDim S64 (![] : Fin 0 → Fin S64.rank)
  bcast_S_S64x1 : S_.BroadcastsInDim S64x1 (![] : Fin 0 → Fin S64x1.rank)
  bcast_S64_S64x1_0 : S64.BroadcastsInDim S64x1 (![0] : Fin 1 → Fin S64x1.rank)
  shapeCasts_S100000x1_S100000 : S100000x1.ShapeCasts S100000
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S64x128_S100000x1_S100000x128_1_0_0_1_wf : ScatterDims.WF S64x128 S100000x1 S100000x128 [1] [0] [0] 1
  dot_S64x128_S128x1_S64x1_1_0_0_1_n_n_wf : DotDims.WF S64x128 S128x1 S64x1 [1] [0] [0] [1] [] []
  scatter_S64_S100000x1_S100000_n_0_0_1_wf : ScatterDims.WF S64 S100000x1 S100000 [] [0] [0] 1
  scatter_S64x1_S100000x1_S100000x1_1_0_0_1_wf : ScatterDims.WF S64x1 S100000x1 S100000x1 [1] [0] [0] 1
  gather_S64x1_S100000x1_S100000x1_1_0_n_n_0_1_11_wf : GatherDims.WF S64x1 S100000x1 S100000x1 [1] [0] [] [0] [] 1 ![1, 1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def gather_S64x1_S100000x1_S100000x1_1_0_n_n_0_1_11 : GatherDims S64x1 S100000x1 S100000x1 where
  offsetDims := [1]
  collapsedSliceDims := [0]
  operandBatchingDims := []
  startIndicesBatchingDims := []
  startIndexMap := [0]
  indexVectorDim := 1
  sliceSizes := ![1, 1]
  wf := gather_S64x1_S100000x1_S100000x1_1_0_n_n_0_1_11_wf

class Facts : Prop extends Facts₀ where

variable [Facts]
-- ==== Proof.Bridge.lean ====
/-
  Small facts about layouts read entry by entry: a vector reshaped to a column (or a row) is the same vector
  broadcast along the other axis, and a maximum with a constant commutes with laying a vector out as a column.
  They join the kernel program's spellings (reshapes) to the reference's (broadcasts) of the same arrays.
-/
import Idealize.ShloMosaic.Lib.Pipeline.Value
import Idealize.ShloMosaic.Lib.ValueIdx
import Idealize.ShloMosaic.PureOps.Ideal

noncomputable section

namespace Cert.Bridge

open Idealize.ShloMosaic Idealize.ShloMosaic.ValueIdx

variable {α : Type}

/-- A vector of 100000 entries reshaped to a column is the vector broadcast along axis 0: entry `(n, 0)` of
    either is entry `n`. -/
theorem col100000 (x : (⟨1, ![100000]⟩ : Shape).Idx → α)
    (h : (⟨1, ![100000]⟩ : Shape).ShapeCasts ⟨2, ![100000, 1]⟩)
    (h' : (⟨1, ![100000]⟩ : Shape).BroadcastsInDim ⟨2, ![100000, 1]⟩ ![0]) :
    shapeCast ⟨2, ![100000, 1]⟩ x h = broadcastInDim ⟨2, ![100000, 1]⟩ ![0] h' x := by
  funext j
  have h0 : (j 0).val < 100000 := (j 0).isLt
  have h1 : (j 1).val < 1 := (j 1).isLt
  rw [shapeCast_apply x h j (ix1 ⟨(j 0).val, h0⟩)
      (by rewrite [Shape.rowMajor_val_two, Shape.rowMajor_val_one]; show (j 0).val = (j 0).val * 1 + (j 1).val; omega),
    broadcastInDim_apply ![0] h' x j (ix1 ⟨(j 0).val, h0⟩)
      (fun a => match a with | ⟨0, _⟩ => by show (j 0).val = if (100000 : ℕ) = 1 then 0 else (j 0).val; rw [if_neg (by decide)])]

/-- A vector of 128 entries reshaped to a row is the vector broadcast along axis 1. -/
theorem row128 (x : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ x h = broadcastInDim ⟨2, ![1, 128]⟩ ![1] h' x := by
  funext j
  have h0 : (j 0).val < 1 := (j 0).isLt
  have h1 : (j 1).val < 128 := (j 1).isLt
  rw [shapeCast_apply x h j (ix1 ⟨(j 1).val, h1⟩)
      (by rewrite [Shape.rowMajor_val_two, Shape.rowMajor_val_one]; show (j 1).val = (j 0).val * 128 + (j 1).val; omega),
    broadcastInDim_apply ![1] h' x j (ix1 ⟨(j 1).val, h1⟩)
      (fun a => match a with | ⟨0, _⟩ => by show (j 1).val = if (128 : ℕ) = 1 then 0 else (j 1).val; rw [if_neg (by decide)])]

/-- A vector of one entry reshaped to a 1×1 array is that vector broadcast along axis 1. -/
theorem one11 (x : (⟨1, ![1]⟩ : Shape).Idx → α)
    (h : (⟨1, ![1]⟩ : Shape).ShapeCasts ⟨2, ![1, 1]⟩)
    (h' : (⟨1, ![1]⟩ : Shape).BroadcastsInDim ⟨2, ![1, 1]⟩ ![1]) :
    shapeCast ⟨2, ![1, 1]⟩ x h = broadcastInDim ⟨2, ![1, 1]⟩ ![1] h' x := by
  funext j
  have h0 : (j 0).val < 1 := (j 0).isLt
  have h1 : (j 1).val < 1 := (j 1).isLt
  rw [shapeCast_apply x h j (ix1 ⟨0, Nat.one_pos⟩)
      (by rewrite [Shape.rowMajor_val_two, Shape.rowMajor_val_one]; show 0 = (j 0).val * 1 + (j 1).val; omega),
    broadcastInDim_apply ![1] h' x j (ix1 ⟨0, Nat.one_pos⟩)
      (fun a => match a with | ⟨0, _⟩ => by show 0 = if (1 : ℕ) = 1 then 0 else (j 1).val; rw [if_pos rfl])]

/-- The maximum of a column laid out from a vector of 64 entries with the constant column `k` is the column laid
    out from the maximum of the vector with the constant vector `k`. -/
theorem max_col64 (x : FVec Ideal (⟨1, ![64]⟩ : Shape) .f32) (k : FVec Ideal (⟨0, ![]⟩ : Shape) .f32)
    (hc : (⟨1, ![64]⟩ : Shape).BroadcastsInDim ⟨2, ![64, 1]⟩ ![0])
    (h2 : (⟨0, ![]⟩ : Shape).BroadcastsInDim ⟨2, ![64, 1]⟩ ![])
    (h1 : (⟨0, ![]⟩ : Shape).BroadcastsInDim ⟨1, ![64]⟩ ![]) :
    maximumf (broadcastInDim ⟨2, ![64, 1]⟩ ![0] hc x) (broadcastInDim ⟨2, ![64, 1]⟩ ![] h2 k)
      = broadcastInDim ⟨2, ![64, 1]⟩ ![0] hc (maximumf x (broadcastInDim ⟨1, ![64]⟩ ![] h1 k)) := by
  funext j
  have h0 : (j 0).val < 64 := (j 0).isLt
  have e1 : ∀ y : FVec Ideal (⟨1, ![64]⟩ : Shape) .f32,
      broadcastInDim ⟨2, ![64, 1]⟩ ![0] hc y j = y (ix1 ⟨(j 0).val, h0⟩) := fun y =>
    broadcastInDim_apply ![0] hc y j (ix1 ⟨(j 0).val, h0⟩)
      (fun a => match a with | ⟨0, _⟩ => by show (j 0).val = if (64 : ℕ) = 1 then 0 else (j 0).val; rw [if_neg (by decide)])
  rw [maximumf_apply, e1, e1, maximumf_apply,
    broadcastInDim_apply ![] h2 k j ix0 (fun a => a.elim0),
    broadcastInDim_apply ![] h1 k (ix1 ⟨(j 0).val, h0⟩) ix0 (fun a => a.elim0)]

end Cert.Bridge

end
-- ==== Proof.Spec.lean ====
/-
  The dense pieces of the network as functions of whole arrays over the extended reals, written with the host
  operations of the reference program: one layer's linear part `agg · W_l + b_l + h · W_r`, the two
  activations, the per-graph sums as accumulating scatters, and the last combination
  `tanh (value[g] + (adv - mean[g]))`. The kernel's regions are shown to compute these, and the reference's
  stages are these by unfolding.

  Also here: the indicator `oh w g` ("the word `w` is the graph number `g`") and the indicator-weighted sum
  `ohSum`, the common index-level form of the kernel's one-hot products and of the reference's scatters.
-/
import proofs.«418596_j16673063043609_2_alg».proof.Proof.Gen.ReferenceIdeal
import Idealize.ShloMosaic.Lib.ValueIdx
import Idealize.ShloMosaic.PureOps.Ideal

noncomputable section

namespace Cert.Spec

open Cert.ReferenceIdeal Cert.ReferenceIdeal.Gen Idealize.ShloMosaic Idealize.ShloMosaic.ValueIdx

/-! ## One layer: the linear part and the activations -/

/-- `agg · W_l + b_l + h · W_r` for 32 input channels and 128 output channels; `bl` is the bias as a row. -/
def sage32 (agg h : FVec Ideal S100000x32 .f32) (wl : FVec Ideal S32x128 .f32) (bl : FVec Ideal S1x128 .f32)
    (wr : FVec Ideal S32x128 .f32) : FVec Ideal S100000x128 .f32 :=
  addf (addf (Host.dotGeneral dot_S100000x32_S32x128_S100000x128_1_0_0_1_n_n none agg wl)
      (broadcastInDim S100000x128 ![0, 1] bcast_S1x128_S100000x128_0_1 bl))
    (Host.dotGeneral dot_S100000x32_S32x128_S100000x128_1_0_0_1_n_n none h wr)

/-- The same for 128 input and 128 output channels. -/
def sage128 (agg h : FVec Ideal S100000x128 .f32) (wl : FVec Ideal S128x128 .f32) (bl : FVec Ideal S1x128 .f32)
    (wr : FVec Ideal S128x128 .f32) : FVec Ideal S100000x128 .f32 :=
  addf (addf (Host.dotGeneral dot_S100000x128_S128x128_S100000x128_1_0_0_1_n_n none agg wl)
      (broadcastInDim S100000x128 ![0, 1] bcast_S1x128_S100000x128_0_1 bl))
    (Host.dotGeneral dot_S100000x128_S128x128_S100000x128_1_0_0_1_n_n none h wr)

/-- The same for 128 input channels and one output channel. -/
def sage1 (agg h : FVec Ideal S100000x128 .f32) (wl : FVec Ideal S128x1 .f32) (bl : FVec Ideal S1x1 .f32)
    (wr : FVec Ideal S128x1 .f32) : FVec Ideal S100000x1 .f32 :=
  addf (addf (Host.dotGeneral dot_S100000x128_S128x1_S100000x1_1_0_0_1_n_n none agg wl)
      (broadcastInDim S100000x1 ![0, 1] bcast_S1x1_S100000x1_0_1 bl))
    (Host.dotGeneral dot_S100000x128_S128x1_S100000x1_1_0_0_1_n_n none h wr)

/-- `max x 0`, elementwise. -/
def relu128 (x : FVec Ideal S100000x128 .f32) : FVec Ideal S100000x128 .f32 :=
  maximumf x (broadcastInDim S100000x128 ![] bcast_S_S100000x128 (constant S_ .f32 0x00000000#32))

/-- `2 · tanh x`, elementwise. -/
def tanh2 (x : FVec Ideal S100000x1 .f32) : FVec Ideal S100000x1 .f32 :=
  mulf (broadcastInDim S100000x1 ![] bcast_S_S100000x1 (constant S_ .f32 0x40000000#32)) (Host.tanh x)

/-! ## The per-graph sums -/

/-- Row `g` is the sum of the rows `n` of `emb` whose graph number `gi n` is `g`. -/
def poolParts (gi : IVec S100000x1 32) (emb : FVec Ideal S100000x128 .f32) : FVec Ideal S64x128 .f32 :=
  Host.scatterAdd scatter_S64x128_S100000x1_S100000x128_1_0_0_1
    (broadcastInDim S64x128 ![] bcast_S_S64x128 (constant S_ .f32 0x00000000#32)) gi emb

/-- Entry `g` is the sum of the entries `n` of `adv` whose graph number is `g`. -/
def poolAdv (gi : IVec S100000x1 32) (adv : FVec Ideal S100000x1 .f32) : FVec Ideal S64x1 .f32 :=
  Host.scatterAdd scatter_S64x1_S100000x1_S100000x1_1_0_0_1
    (broadcastInDim S64x1 ![] bcast_S_S64x1 (constant S_ .f32 0x00000000#32)) gi adv

/-- Entry `g` is the number of nodes whose graph number is `g`. -/
def poolCnt (gi : IVec S100000x1 32) : FVec Ideal S64 .f32 :=
  Host.scatterAdd scatter_S64_S100000x1_S100000_n_0_0_1
    (broadcastInDim S64 ![] bcast_S_S64 (constant S_ .f32 0x00000000#32)) gi
    (broadcastInDim S100000 ![] bcast_S_S100000 (constant S_ .f32 0x3F800000#32))

/-- `oh w g` is one when the word `w` is the number `g`, else zero. -/
def oh (w : BitVec 32) (g : ℕ) : EReal := if w = BitVec.ofNat 32 g then 1 else 0

/-- Entry `(g, k)` is the sum over the nodes `n` of `oh (gi n) g · u (n, k)`. -/
def ohSum (C : ℕ) (gi : IVec (⟨2, ![100000, 1]⟩ : Shape) 32) (u : (⟨2, ![100000, C]⟩ : Shape).Idx → EReal) :
    (⟨2, ![64, C]⟩ : Shape).Idx → EReal :=
  fun j => ∑ n : Fin 100000, oh (gi (ix2 n 0)) (j 0).val * u (ix2 n (j 1))

/-! ## The last combination -/

/-- Graph numbers as gather indices: a negative one counted from the end, as a column. -/
def normIdx (gi : IVec S100000 32) : IVec S100000x1 32 :=
  broadcastInDim S100000x1 ![0] bcast_S100000_S100000x1_0
    (select (cmpi .slt gi (broadcastInDim S100000 ![] bcast_S_S100000 (constantI S_ 32 0#32)))
      (addi gi (broadcastInDim S100000 ![] bcast_S_S100000 (constantI S_ 32 64#32))) gi)

/-- `tanh (value[g n] + (adv n - mean[g n]))`. -/
def finalOut (gi : IVec S100000 32) (value mean : FVec Ideal S64x1 .f32) (adv : FVec Ideal S100000x1 .f32) :
    FVec Ideal S100000x1 .f32 :=
  Host.tanh (addf (Host.gather gather_S64x1_S100000x1_S100000x1_1_0_n_n_0_1_11 value (normIdx gi))
    (subf adv (Host.gather gather_S64x1_S100000x1_S100000x1_1_0_n_n_0_1_11 mean (normIdx gi))))

/-- The same entry by entry, with each lookup written as the indicator-weighted sum over the 64 graphs:
    `tanh ((∑ g, oh (gcol n) g · value g) + (adv n - ∑ g, oh (gcol n) g · mean g))`. -/
def finalIdx (gcol : IVec (⟨2, ![100000, 1]⟩ : Shape) 32) (value mean : (⟨2, ![64, 1]⟩ : Shape).Idx → EReal)
    (adv : (⟨2, ![100000, 1]⟩ : Shape).Idx → EReal) : (⟨2, ![100000, 1]⟩ : Shape).Idx → EReal :=
  fun j => Ideal.tanh ((∑ g : Fin 64, oh (gcol (ix2 (j 0) 0)) g.val * value (ix2 g 0))
    + (adv j - ∑ g : Fin 64, oh (gcol (ix2 (j 0) 0)) g.val * mean (ix2 g 0)))

end Cert.Spec

end
-- ==== Proof.Stages.lean ====
/-
  The reference's stages grouped as the network is: the mean aggregation over incoming edges, a layer's dense
  part with its activation, the per-graph sums, the value and the mean advantage per graph, the last combination —
  each a function of arrays, for any float family —, and the reference's own stages of the argument arrays written
  with them. These equations hold by unfolding: both sides are the same operations in the same order.
-/
import proofs.«418596_j16673063043609_2_alg».proof.Proof.RefRead
import proofs.«418596_j16673063043609_2_alg».proof.Proof.Spec

set_option maxRecDepth 16384

noncomputable section

namespace Cert.Stages

open Cert.ReferenceIdeal Cert.ReferenceIdeal.Gen Idealize.ShloMosaic

variable {F : FTy → Type} [FloatOps F]

/-! ## The pieces, for any float family -/

/-- A negative index counted from the end of 100000 rows, as a column of gather indices. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The mean of `h` over a node's incoming edges, 32 channels: gather along the sources, accumulate at the targets,
    scale by the reciprocal in-degree column. -/
def agg32 (h : FVec F S100000x32 .f32) (src dst : IVec S1600000 32) (inv : FVec F S100000x1 .f32) : FVec F S100000x32 .f32 :=
  mulf (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 dst)
      (Host.gather gather_S100000x32_S1600000x1_S1600000x32_1_0_n_n_0_1_132 h (srcIdx src)))
    (broadcastInDim S100000x32 ![0, 1] bcast_S100000x1_S100000x32_0_1 inv)

/-- The same with 128 channels. -/
def agg128 (h : FVec F S100000x128 .f32) (src dst : IVec S1600000 32) (inv : FVec F S100000x1 .f32) : FVec F S100000x128 .f32 :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (srcIdx src)))
    (broadcastInDim S100000x128 ![0, 1] bcast_S100000x1_S100000x128_0_1 inv)

/-- `agg · W_l + b_l + h · W_r`, 32 → 128 channels, the bias a row. -/
def sage32 (agg h : FVec F S100000x32 .f32) (wl : FVec F S32x128 .f32) (bl : FVec F S1x128 .f32)
    (wr : FVec F S32x128 .f32) : FVec F S100000x128 .f32 :=
  addf (addf (Host.dotGeneral dot_S100000x32_S32x128_S100000x128_1_0_0_1_n_n none agg wl)
      (broadcastInDim S100000x128 ![0, 1] bcast_S1x128_S100000x128_0_1 bl))
    (Host.dotGeneral dot_S100000x32_S32x128_S100000x128_1_0_0_1_n_n none h wr)

def sage128 (agg h : FVec F S100000x128 .f32) (wl : FVec F S128x128 .f32) (bl : FVec F S1x128 .f32)
    (wr : FVec F S128x128 .f32) : FVec F S100000x128 .f32 :=
  addf (addf (Host.dotGeneral dot_S100000x128_S128x128_S100000x128_1_0_0_1_n_n none agg wl)
      (broadcastInDim S100000x128 ![0, 1] bcast_S1x128_S100000x128_0_1 bl))
    (Host.dotGeneral dot_S100000x128_S128x128_S100000x128_1_0_0_1_n_n none h wr)

def sage1 (agg h : FVec F S100000x128 .f32) (wl : FVec F S128x1 .f32) (bl : FVec F S1x1 .f32)
    (wr : FVec F S128x1 .f32) : FVec F S100000x1 .f32 :=
  addf (addf (Host.dotGeneral dot_S100000x128_S128x1_S100000x1_1_0_0_1_n_n none agg wl)
      (broadcastInDim S100000x1 ![0, 1] bcast_S1x1_S100000x1_0_1 bl))
    (Host.dotGeneral dot_S100000x128_S128x1_S100000x1_1_0_0_1_n_n none h wr)

def relu128 (x : FVec F S100000x128 .f32) : FVec F S100000x128 .f32 :=
  maximumf x (broadcastInDim S100000x128 ![] bcast_S_S100000x128 (constant S_ .f32 0x00000000#32))

def tanh2 (x : FVec F S100000x1 .f32) : FVec F S100000x1 .f32 :=
  mulf (broadcastInDim S100000x1 ![] bcast_S_S100000x1 (constant S_ .f32 0x40000000#32)) (Host.tanh x)

def poolParts (gi : IVec S100000x1 32) (emb : FVec F S100000x128 .f32) : FVec F S64x128 .f32 :=
  Host.scatterAdd scatter_S64x128_S100000x1_S100000x128_1_0_0_1
    (broadcastInDim S64x128 ![] bcast_S_S64x128 (constant S_ .f32 0x00000000#32)) gi emb

def poolAdv (gi : IVec S100000x1 32) (adv : FVec F S100000x1 .f32) : FVec F S64x1 .f32 :=
  Host.scatterAdd scatter_S64x1_S100000x1_S100000x1_1_0_0_1
    (broadcastInDim S64x1 ![] bcast_S_S64x1 (constant S_ .f32 0x00000000#32)) gi adv

def poolCnt (gi : IVec S100000x1 32) : FVec F S64 .f32 :=
  Host.scatterAdd scatter_S64_S100000x1_S100000_n_0_0_1
    (broadcastInDim S64 ![] bcast_S_S64 (constant S_ .f32 0x00000000#32)) gi
    (broadcastInDim S100000 ![] bcast_S_S100000 (constant S_ .f32 0x3F800000#32))

/-- The value per graph: `tanh (sums · W_v + b_v)`. -/
def valueOf (parts : FVec F S64x128 .f32) (wv : FVec F S128x1 .f32) (bv : FVec F S1 .f32) : FVec F S64x1 .f32 :=
  Host.tanh (addf (Host.dotGeneral dot_S64x128_S128x1_S64x1_1_0_0_1_n_n none parts wv)
    (broadcastInDim S64x1 ![0, 1] bcast_S1x1_S64x1_0_1 (broadcastInDim S1x1 ![1] bcast_S1_S1x1_1 bv)))

/-- The mean advantage per graph: the sum over the count, the count at least one. -/
def meanOf (sums : FVec F S64x1 .f32) (cnt : FVec F S64 .f32) : FVec F S64x1 .f32 :=
  Host.divf sums (broadcastInDim S64x1 ![0] bcast_S64_S64x1_0
    (maximumf cnt (broadcastInDim S64 ![] bcast_S_S64 (constant S_ .f32 0x3F800000#32))))

def normIdx (gi : IVec S100000 32) : IVec S100000x1 32 :=
  broadcastInDim S100000x1 ![0] bcast_S100000_S100000x1_0
    (select (cmpi .slt gi (broadcastInDim S100000 ![] bcast_S_S100000 (constantI S_ 32 0#32)))
      (addi gi (broadcastInDim S100000 ![] bcast_S_S100000 (constantI S_ 32 64#32))) gi)

def finalOut (gi : IVec S100000 32) (value mean : FVec F S64x1 .f32) (adv : FVec F S100000x1 .f32) :
    FVec F S100000x1 .f32 :=
  Host.tanh (addf (Host.gather gather_S64x1_S100000x1_S100000x1_1_0_n_n_0_1_11 value (normIdx gi))
    (subf adv (Host.gather gather_S64x1_S100000x1_S100000x1_1_0_n_n_0_1_11 mean (normIdx gi))))

/-! ## At the extended reals these are the functions the calls' output arrays are stated with -/

theorem spec_sage32 : @Cert.Spec.sage32 = @sage32 Ideal _ := rfl
theorem spec_sage128 : @Cert.Spec.sage128 = @sage128 Ideal _ := rfl
theorem spec_sage1 : @Cert.Spec.sage1 = @sage1 Ideal _ := rfl
theorem spec_relu128 : @Cert.Spec.relu128 = @relu128 Ideal _ := rfl
theorem spec_tanh2 : @Cert.Spec.tanh2 = @tanh2 Ideal _ := rfl
theorem spec_poolParts : @Cert.Spec.poolParts = @poolParts Ideal _ := rfl
theorem spec_poolAdv : @Cert.Spec.poolAdv = @poolAdv Ideal _ := rfl
theorem spec_poolCnt : @Cert.Spec.poolCnt = @poolCnt Ideal _ := rfl
theorem spec_finalOut : @Cert.Spec.finalOut = @finalOut Ideal _ := rfl

/-! ## The reference's stages -/

variable (x0 : FVec F S100000x32 .f32) (x1 : IVec S2x1600000 32) (x2 : IVec S100000 32) (x3 : FVec F S32x128 .f32) (x4 : FVec F S128 .f32) (x5 : FVec F S32x128 .f32) (x6 : FVec F S128x128 .f32) (x7 : FVec F S128 .f32) (x8 x9 : FVec F S128x128 .f32) (x10 : FVec F S128 .f32) (x11 : FVec F S128x128 .f32) (x12 : FVec F S128x1 .f32) (x13 : FVec F S1 .f32) (x14 x15 : FVec F S128x1 .f32) (x16 : FVec F S1 .f32)

theorem v27_eq : ReadP.val_main_v27 (F := F) x0 x1 = agg32 x0 (ReadP.val_main_v1 (F := F) x1) (ReadP.val_main_v3 (F := F) x1) (ReadP.val_main_v25 (F := F) x1) := rfl
theorem v34_eq : ReadP.val_main_v34 (F := F) x0 x1 x3 x4 x5 = relu128 (sage32 (ReadP.val_main_v27 (F := F) x0 x1) x0 x3 (ReadP.val_main_v29 (F := F) x4) x5) := rfl
theorem v47_eq : ReadP.val_main_v47 (F := F) x0 x1 x3 x4 x5 = agg128 (ReadP.val_main_v34 (F := F) x0 x1 x3 x4 x5) (ReadP.val_main_v1 (F := F) x1) (ReadP.val_main_v3 (F := F) x1) (ReadP.val_main_v25 (F := F) x1) := rfl
theorem v54_eq : ReadP.val_main_v54 (F := F) x0 x1 x3 x4 x5 x6 x7 x8 = relu128 (sage128 (ReadP.val_main_v47 (F := F) x0 x1 x3 x4 x5) (ReadP.val_main_v34 (F := F) x0 x1 x3 x4 x5) x6 (ReadP.val_main_v49 (F := F) x7) x8) := rfl
theorem v67_eq : ReadP.val_main_v67 (F := F) x0 x1 x3 x4 x5 x6 x7 x8 = agg128 (ReadP.val_main_v54 (F := F) x0 x1 x3 x4 x5 x6 x7 x8) (ReadP.val_main_v1 (F := F) x1) (ReadP.val_main_v3 (F := F) x1) (ReadP.val_main_v25 (F := F) x1) := rfl
theorem v73_eq : ReadP.val_main_v73 (F := F) x0 x1 x3 x4 x5 x6 x7 x8 x9 x10 x11 = sage128 (ReadP.val_main_v67 (F := F) x0 x1 x3 x4 x5 x6 x7 x8) (ReadP.val_main_v54 (F := F) x0 x1 x3 x4 x5 x6 x7 x8) x9 (ReadP.val_main_v69 (F := F) x10) x11 := rfl
theorem v86_eq : ReadP.val_main_v86 (F := F) x0 x1 x3 x4 x5 x6 x7 x8 x9 x10 x11 = agg128 (ReadP.val_main_v73 (F := F) x0 x1 x3 x4 x5 x6 x7 x8 x9 x10 x11) (ReadP.val_main_v1 (F := F) x1) (ReadP.val_main_v3 (F := F) x1) (ReadP.val_main_v25 (F := F) x1) := rfl
theorem v95_eq : ReadP.val_main_v95 (F := F) x0 x1 x3 x4 x5 x6 x7 x8 x9 x10 x11 x12 x13 x14 = tanh2 (sage1 (ReadP.val_main_v86 (F := F) x0 x1 x3 x4 x5 x6 x7 x8 x9 x10 x11) (ReadP.val_main_v73 (F := F) x0 x1 x3 x4 x5 x6 x7 x8 x9 x10 x11) x12 (ReadP.val_main_v88 (F := F) x13) x14) := rfl
theorem v98_eq : ReadP.val_main_v98 (F := F) x0 x1 x2 x3 x4 x5 x6 x7 x8 x9 x10 x11 = poolParts (ReadP.val_main_v97 (F := F) x2) (ReadP.val_main_v73 (F := F) x0 x1 x3 x4 x5 x6 x7 x8 x9 x10 x11) := rfl
theorem v107_eq : ReadP.val_main_v107 (F := F) x2 = poolCnt (F := F) (ReadP.val_main_v97 (F := F) x2) := rfl
theorem v110_eq : ReadP.val_main_v110 (F := F) x0 x1 x2 x3 x4 x5 x6 x7 x8 x9 x10 x11 x12 x13 x14 = poolAdv (ReadP.val_main_v97 (F := F) x2) (ReadP.val_main_v95 (F := F) x0 x1 x3 x4 x5 x6 x7 x8 x9 x10 x11 x12 x13 x14) := rfl
theorem v103_eq : ReadP.val_main_v103 (F := F) x0 x1 x2 x3 x4 x5 x6 x7 x8 x9 x10 x11 x15 x16 = valueOf (ReadP.val_main_v98 (F := F) x0 x1 x2 x3 x4 x5 x6 x7 x8 x9 x10 x11) x15 x16 := rfl
theorem v114_eq : ReadP.val_main_v114 (F := F) x0 x1 x2 x3 x4 x5 x6 x7 x8 x9 x10 x11 x12 x13 x14 = meanOf (ReadP.val_main_v110 (F := F) x0 x1 x2 x3 x4 x5 x6 x7 x8 x9 x10 x11 x12 x13 x14) (ReadP.val_main_v107 (F := F) x2) := rfl
theorem v131_eq : ReadP.val_main_v131 (F := F) x0 x1 x2 x3 x4 x5 x6 x7 x8 x9 x10 x11 x12 x13 x14 x15 x16 = finalOut x2 (ReadP.val_main_v103 (F := F) x0 x1 x2 x3 x4 x5 x6 x7 x8 x9 x10 x11 x15 x16) (ReadP.val_main_v114 (F := F) x0 x1 x2 x3 x4 x5 x6 x7 x8 x9 x10 x11 x12 x13 x14) (ReadP.val_main_v95 (F := F) x0 x1 x3 x4 x5 x6 x7 x8 x9 x10 x11 x12 x13 x14) := rfl

end Cert.Stages

end
-- ==== Proof.KStart.lean ====
/-
  The idealized kernel program's first stretch of host operations, read operation by operation: the two rows of
  the edge list (sources and targets), the graph numbers laid out as a column, and the column of reciprocal
  in-degrees are the reference's stages of the argument arrays. Where the kernel program reshapes a vector to a
  column the reference broadcasts it along the other axis; entry by entry these are the same array.
-/
import proofs.«418596_j16673063043609_2_alg».proof.Proof.Gen.KernelIdeal.Frame
import proofs.«418596_j16673063043609_2_alg».proof.Proof.RefRead
import proofs.«418596_j16673063043609_2_alg».proof.Proof.Bridge
import proofs.«418596_j16673063043609_2_alg».proof.Proof.Stages
import Idealize.ShloMosaic.Lib.StableHlo.Run
import Idealize.ShloMosaic.PureOps.Ideal

set_option maxRecDepth 16384

noncomputable section

namespace Cert.KernelIdeal.KChain

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The edge sources: row 0 of the edge list. -/
theorem W3_v1 (c : Dev nD) : W3 m ρ c (Proc.devRef .tc main_v1)
    = Cert.ReferenceIdeal.ReadP.val_main_v1 (F := F) (m ((c : Thread nD τ).loc main_arg1)) := by
  show StableHlo.after hostOps0_2 (W2 m ρ c) (Proc.devRef .tc main_v1) = _
  after_results_simp
  rfl
set_option maxHeartbeats 8000000 in
/-- The edge targets: row 1 of the edge list. -/
theorem W3_v3 (c : Dev nD) : W3 m ρ c (Proc.devRef .tc main_v3)
    = Cert.ReferenceIdeal.ReadP.val_main_v3 (F := F) (m ((c : Thread nD τ).loc main_arg1)) := by
  show StableHlo.after hostOps0_2 (W2 m ρ c) (Proc.devRef .tc main_v3) = _
  after_results_simp
  rfl
set_option maxHeartbeats 8000000 in
/-- The graph numbers as a column. -/
theorem W3_v4 (c : Dev nD) : W3 m ρ c (Proc.devRef .tc main_v4)
    = Cert.ReferenceIdeal.ReadP.val_main_v97 (F := F) (m ((c : Thread nD τ).loc main_arg2)) := by
  show StableHlo.after hostOps0_2 (W2 m ρ c) (Proc.devRef .tc main_v4) = _
  after_results_simp
  exact Cert.Bridge.col100000 _ _ Cert.ReferenceIdeal.Gen.bcast_S100000_S100000x1_0
set_option maxHeartbeats 8000000 in
/-- The reciprocal in-degrees (zero where a node has no incoming edge) as a column. -/
theorem W3_v16 (c : Dev nD) : W3 m ρ c (Proc.devRef .tc main_v16)
    = Cert.ReferenceIdeal.ReadP.val_main_v25 (F := F) (m ((c : Thread nD τ).loc main_arg1)) := by
  show StableHlo.after hostOps0_2 (W2 m ρ c) (Proc.devRef .tc main_v16) = _
  after_results_simp
  simp only [TRef.ofBuf, TRef.toBuf, cast_eq]
  refine (Cert.Bridge.col100000 _ _ Cert.ReferenceIdeal.Gen.bcast_S100000_S100000x1_0).trans ?_
  rfl
set_option maxHeartbeats 16000000 in
/-- The aggregated input features: gathered along the edge sources, accumulated at the edge targets, scaled by the
    reciprocal in-degree. -/
theorem W3_v28 (c : Dev nD) : W3 m ρ c (Proc.devRef .tc main_v28)
    = Cert.Stages.agg32 (m ((c : Thread nD τ).loc main_arg0)) (Cert.ReferenceIdeal.ReadP.val_main_v1 (F := F) (m ((c : Thread nD τ).loc main_arg1))) (Cert.ReferenceIdeal.ReadP.val_main_v3 (F := F) (m ((c : Thread nD τ).loc main_arg1))) (Cert.ReferenceIdeal.ReadP.val_main_v25 (F := F) (m ((c : Thread nD τ).loc main_arg1))) := by
  show StableHlo.after hostOps0_2 (W2 m ρ c) (Proc.devRef .tc main_v28) = _
  after_results_simp
  simp only [TRef.ofBuf, TRef.toBuf, cast_eq]
  unfold Cert.Stages.agg32
  refine congrArg₂ mulf ?_ (congrArg (broadcastInDim _ _ _) ?_)
  · rfl
  · exact (Cert.Bridge.col100000 _ _ Cert.ReferenceIdeal.Gen.bcast_S100000_S100000x1_0).trans rfl

set_option maxHeartbeats 8000000 in
/-- The first bias as a row. -/
theorem W3_v29 (c : Dev nD) : W3 m ρ c (Proc.devRef .tc main_v29)
    = Cert.ReferenceIdeal.ReadP.val_main_v29 (F := F) (m ((c : Thread nD τ).loc main_arg4)) := by
  show StableHlo.after hostOps0_2 (W2 m ρ c) (Proc.devRef .tc main_v29) = _
  after_results_simp
  exact Cert.Bridge.row128 _ _ Cert.ReferenceIdeal.Gen.bcast_S128_S1x128_1

end Cert.KernelIdeal.KChain

end
-- ==== Proof.KKeep.lean ====
/-
  Buffers that are carried along the idealized kernel program's run. Between two consecutive boundaries of the run
  lies either a stretch of host operations or one pallas_call; a buffer that the stretch does not write, and that
  is not an output array of the call, holds after it what it held before. Listed here, boundary by boundary: the
  argument arrays up to the boundary where they are last read, the two rows of the edge list, the column of
  reciprocal in-degrees and the column of graph numbers.
-/
import proofs.«418596_j16673063043609_2_alg».proof.Proof.KStart

set_option maxRecDepth 16384

noncomputable section

namespace Cert.KernelIdeal.KChain

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-! ## The argument arrays -/

set_option maxHeartbeats 8000000 in
theorem W3_arg0 (c : Dev nD) : W3 m ρ c (Proc.devRef .tc main_arg0) = m ((c : Thread nD τ).loc main_arg0) := by
  show StableHlo.after hostOps0_2 (W2 m ρ c) (Proc.devRef .tc main_arg0) = _
  after_results_simp <;> rfl
set_option maxHeartbeats 8000000 in
theorem W3_arg3 (c : Dev nD) : W3 m ρ c (Proc.devRef .tc main_arg3) = m ((c : Thread nD τ).loc main_arg3) := by
  show StableHlo.after hostOps0_2 (W2 m ρ c) (Proc.devRef .tc main_arg3) = _
  after_results_simp <;> rfl
set_option maxHeartbeats 8000000 in
theorem W3_arg5 (c : Dev nD) : W3 m ρ c (Proc.devRef .tc main_arg5) = m ((c : Thread nD τ).loc main_arg5) := by
  show StableHlo.after hostOps0_2 (W2 m ρ c) (Proc.devRef .tc main_arg5) = _
  after_results_simp <;> rfl
set_option maxHeartbeats 8000000 in
theorem W3_arg6 (c : Dev nD) : W3 m ρ c (Proc.devRef .tc main_arg6) = m ((c : Thread nD τ).loc main_arg6) := by
  show StableHlo.after hostOps0_2 (W2 m ρ c) (Proc.devRef .tc main_arg6) = _
  after_results_simp <;> rfl
set_option maxHeartbeats 8000000 in
theorem W3_arg7 (c : Dev nD) : W3 m ρ c (Proc.devRef .tc main_arg7) = m ((c : Thread nD τ).loc main_arg7) := by
  show StableHlo.after hostOps0_2 (W2 m ρ c) (Proc.devRef .tc main_arg7) = _
  after_results_simp <;> rfl
set_option maxHeartbeats 8000000 in
theorem W3_arg8 (c : Dev nD) : W3 m ρ c (Proc.devRef .tc main_arg8) = m ((c : Thread nD τ).loc main_arg8) := by
  show StableHlo.after hostOps0_2 (W2 m ρ c) (Proc.devRef .tc main_arg8) = _
  after_results_simp <;> rfl
set_option maxHeartbeats 8000000 in
theorem W3_arg9 (c : Dev nD) : W3 m ρ c (Proc.devRef .tc main_arg9) = m ((c : Thread nD τ).loc main_arg9) := by
  show StableHlo.after hostOps0_2 (W2 m ρ c) (Proc.devRef .tc main_arg9) = _
  after_results_simp <;> rfl
set_option maxHeartbeats 8000000 in
theorem W3_arg10 (c : Dev nD) : W3 m ρ c (Proc.devRef .tc main_arg10) = m ((c : Thread nD τ).loc main_arg10) := by
  show StableHlo.after hostOps0_2 (W2 m ρ c) (Proc.devRef .tc main_arg10) = _
  after_results_simp <;> rfl
set_option maxHeartbeats 8000000 in
theorem W3_arg11 (c : Dev nD) : W3 m ρ c (Proc.devRef .tc main_arg11) = m ((c : Thread nD τ).loc main_arg11) := by
  show StableHlo.after hostOps0_2 (W2 m ρ c) (Proc.devRef .tc main_arg11) = _
  after_results_simp <;> rfl
set_option maxHeartbeats 8000000 in
theorem W3_arg12 (c : Dev nD) : W3 m ρ c (Proc.devRef .tc main_arg12) = m ((c : Thread nD τ).loc main_arg12) := by
  show StableHlo.after hostOps0_2 (W2 m ρ c) (Proc.devRef .tc main_arg12) = _
  after_results_simp <;> rfl
set_option maxHeartbeats 8000000 in
theorem W3_arg13 (c : Dev nD) : W3 m ρ c (Proc.devRef .tc main_arg13) = m ((c : Thread nD τ).loc main_arg13) := by
  show StableHlo.after hostOps0_2 (W2 m ρ c) (Proc.devRef .tc main_arg13) = _
  after_results_simp <;> rfl
set_option maxHeartbeats 8000000 in
theorem W3_arg14 (c : Dev nD) : W3 m ρ c (Proc.devRef .tc main_arg14) = m ((c : Thread nD τ).loc main_arg14) := by
  show StableHlo.after hostOps0_2 (W2 m ρ c) (Proc.devRef .tc main_arg14) = _
  after_results_simp <;> rfl
set_option maxHeartbeats 8000000 in
theorem W3_arg15 (c : Dev nD) : W3 m ρ c (Proc.devRef .tc main_arg15) = m ((c : Thread nD τ).loc main_arg15) := by
  show StableHlo.after hostOps0_2 (W2 m ρ c) (Proc.devRef .tc main_arg15) = _
  after_results_simp <;> rfl
set_option maxHeartbeats 8000000 in
theorem W3_arg16 (c : Dev nD) : W3 m ρ c (Proc.devRef .tc main_arg16) = m ((c : Thread nD τ).loc main_arg16) := by
  show StableHlo.after hostOps0_2 (W2 m ρ c) (Proc.devRef .tc main_arg16) = _
  after_results_simp <;> rfl
theorem W4_arg6 (c : Dev nD) : W4 m ρ c (Proc.devRef .tc main_arg6) = m ((c : Thread nD τ).loc main_arg6) :=
  (W4_of_ne m ρ c main_arg6 (by decide)).trans (W3_arg6 m ρ c)
set_option maxHeartbeats 8000000 in
theorem W5_arg6 (c : Dev nD) : W5 m ρ c (Proc.devRef .tc main_arg6) = m ((c : Thread nD τ).loc main_arg6) := by
  show StableHlo.after hostOps1 (W4 m ρ c) (Proc.devRef .tc main_arg6) = _
  after_results_simp
  exact W4_arg6 m ρ c
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
set_option maxHeartbeats 8000000 in
theorem W5_arg8 (c : Dev nD) : W5 m ρ c (Proc.devRef .tc main_arg8) = m ((c : Thread nD τ).loc main_arg8) := by
  show StableHlo.after hostOps1 (W4 m ρ c) (Proc.devRef .tc main_arg8) = _
  after_results_simp
  exact W4_arg8 m ρ c
theorem W4_arg9 (c : Dev nD) : W4 m ρ c (Proc.devRef .tc main_arg9) = m ((c : Thread nD τ).loc main_arg9) :=
  (W4_of_ne m ρ c main_arg9 (by decide)).trans (W3_arg9 m ρ c)
set_option maxHeartbeats 8000000 in
theorem W5_arg9 (c : Dev nD) : W5 m ρ c (Proc.devRef .tc main_arg9) = m ((c : Thread nD τ).loc main_arg9) := by
  show StableHlo.after hostOps1 (W4 m ρ c) (Proc.devRef .tc main_arg9) = _
  after_results_simp
  exact W4_arg9 m ρ c
theorem W6_arg9 (c : Dev nD) : W6 m ρ c (Proc.devRef .tc main_arg9) = m ((c : Thread nD τ).loc main_arg9) :=
  (W6_of_ne m ρ c main_arg9 (by decide)).trans (W5_arg9 m ρ c)
set_option maxHeartbeats 8000000 in
theorem W7_arg9 (c : Dev nD) : W7 m ρ c (Proc.devRef .tc main_arg9) = m ((c : Thread nD τ).loc main_arg9) := by
  show StableHlo.after hostOps2 (W6 m ρ c) (Proc.devRef .tc main_arg9) = _
  after_results_simp
  exact W6_arg9 m ρ c
theorem W4_arg10 (c : Dev nD) : W4 m ρ c (Proc.devRef .tc main_arg10) = m ((c : Thread nD τ).loc main_arg10) :=
  (W4_of_ne m ρ c main_arg10 (by decide)).trans (W3_arg10 m ρ c)
set_option maxHeartbeats 8000000 in
theorem W5_arg10 (c : Dev nD) : W5 m ρ c (Proc.devRef .tc main_arg10) = m ((c : Thread nD τ).loc main_arg10) := by
  show StableHlo.after hostOps1 (W4 m ρ c) (Proc.devRef .tc main_arg10) = _
  after_results_simp
  exact W4_arg10 m ρ c
theorem W6_arg10 (c : Dev nD) : W6 m ρ c (Proc.devRef .tc main_arg10) = m ((c : Thread nD τ).loc main_arg10) :=
  (W6_of_ne m ρ c main_arg10 (by decide)).trans (W5_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
set_option maxHeartbeats 8000000 in
theorem W5_arg11 (c : Dev nD) : W5 m ρ c (Proc.devRef .tc main_arg11) = m ((c : Thread nD τ).loc main_arg11) := by
  show StableHlo.after hostOps1 (W4 m ρ c) (Proc.devRef .tc main_arg11) = _
  after_results_simp
  exact W4_arg11 m ρ c
theorem W6_arg11 (c : Dev nD) : W6 m ρ c (Proc.devRef .tc main_arg11) = m ((c : Thread nD τ).loc main_arg11) :=
  (W6_of_ne m ρ c main_arg11 (by decide)).trans (W5_arg11 m ρ c)
set_option maxHeartbeats 8000000 in
theorem W7_arg11 (c : Dev nD) : W7 m ρ c (Proc.devRef .tc main_arg11) = m ((c : Thread nD τ).loc main_arg11) := by
  show StableHlo.after hostOps2 (W6 m ρ c) (Proc.devRef .tc main_arg11) = _
  after_results_simp
  exact W6_arg11 m ρ c
theorem W4_arg12 (c : Dev nD) : W4 m ρ c (Proc.devRef .tc main_arg12) = m ((c : Thread nD τ).loc main_arg12) :=
  (W4_of_ne m ρ c main_arg12 (by decide)).trans (W3_arg12 m ρ c)
set_option maxHeartbeats 8000000 in
theorem W5_arg12 (c : Dev nD) : W5 m ρ c (Proc.devRef .tc main_arg12) = m ((c : Thread nD τ).loc main_arg12) := by
  show StableHlo.after hostOps1 (W4 m ρ c) (Proc.devRef .tc main_arg12) = _
  after_results_simp
  exact W4_arg12 m ρ c
theorem W6_arg12 (c : Dev nD) : W6 m ρ c (Proc.devRef .tc main_arg12) = m ((c : Thread nD τ).loc main_arg12) :=
  (W6_of_ne m ρ c main_arg12 (by decide)).trans (W5_arg12 m ρ c)
set_option maxHeartbeats 8000000 in
theorem W7_arg12 (c : Dev nD) : W7 m ρ c (Proc.devRef .tc main_arg12) = m ((c : Thread nD τ).loc main_arg12) := by
  show StableHlo.after hostOps2 (W6 m ρ c) (Proc.devRef .tc main_arg12) = _
  after_results_simp
  exact W6_arg12 m ρ c
theorem W8_arg12 (c : Dev nD) : W8 m ρ c (Proc.devRef .tc main_arg12) = m ((c : Thread nD τ).loc main_arg12) :=
  (W8_of_ne m ρ c main_arg12 (by decide)).trans (W7_arg12 m ρ c)
set_option maxHeartbeats 8000000 in
theorem W9_arg12 (c : Dev nD) : W9 m ρ c (Proc.devRef .tc main_arg12) = m ((c : Thread nD τ).loc main_arg12) := by
  show StableHlo.after hostOps3 (W8 m ρ c) (Proc.devRef .tc main_arg12) = _
  after_results_simp
  exact W8_arg12 m ρ c
theorem W4_arg13 (c : Dev nD) : W4 m ρ c (Proc.devRef .tc main_arg13) = m ((c : Thread nD τ).loc main_arg13) :=
  (W4_of_ne m ρ c main_arg13 (by decide)).trans (W3_arg13 m ρ c)
set_option maxHeartbeats 8000000 in
theorem W5_arg13 (c : Dev nD) : W5 m ρ c (Proc.devRef .tc main_arg13) = m ((c : Thread nD τ).loc main_arg13) := by
  show StableHlo.after hostOps1 (W4 m ρ c) (Proc.devRef .tc main_arg13) = _
  after_results_simp
  exact W4_arg13 m ρ c
theorem W6_arg13 (c : Dev nD) : W6 m ρ c (Proc.devRef .tc main_arg13) = m ((c : Thread nD τ).loc main_arg13) :=
  (W6_of_ne m ρ c main_arg13 (by decide)).trans (W5_arg13 m ρ c)
set_option maxHeartbeats 8000000 in
theorem W7_arg13 (c : Dev nD) : W7 m ρ c (Proc.devRef .tc main_arg13) = m ((c : Thread nD τ).loc main_arg13) := by
  show StableHlo.after hostOps2 (W6 m ρ c) (Proc.devRef .tc main_arg13) = _
  after_results_simp
  exact W6_arg13 m ρ c
theorem W8_arg13 (c : Dev nD) : W8 m ρ c (Proc.devRef .tc main_arg13) = m ((c : Thread nD τ).loc main_arg13) :=
  (W8_of_ne m ρ c main_arg13 (by decide)).trans (W7_arg13 m ρ c)
theorem W4_arg14 (c : Dev nD) : W4 m ρ c (Proc.devRef .tc main_arg14) = m ((c : Thread nD τ).loc main_arg14) :=
  (W4_of_ne m ρ c main_arg14 (by decide)).trans (W3_arg14 m ρ c)
set_option maxHeartbeats 8000000 in
theorem W5_arg14 (c : Dev nD) : W5 m ρ c (Proc.devRef .tc main_arg14) = m ((c : Thread nD τ).loc main_arg14) := by
  show StableHlo.after hostOps1 (W4 m ρ c) (Proc.devRef .tc main_arg14) = _
  after_results_simp
  exact W4_arg14 m ρ c
theorem W6_arg14 (c : Dev nD) : W6 m ρ c (Proc.devRef .tc main_arg14) = m ((c : Thread nD τ).loc main_arg14) :=
  (W6_of_ne m ρ c main_arg14 (by decide)).trans (W5_arg14 m ρ c)
set_option maxHeartbeats 8000000 in
theorem W7_arg14 (c : Dev nD) : W7 m ρ c (Proc.devRef .tc main_arg14) = m ((c : Thread nD τ).loc main_arg14) := by
  show StableHlo.after hostOps2 (W6 m ρ c) (Proc.devRef .tc main_arg14) = _
  after_results_simp
  exact W6_arg14 m ρ c
theorem W8_arg14 (c : Dev nD) : W8 m ρ c (Proc.devRef .tc main_arg14) = m ((c : Thread nD τ).loc main_arg14) :=
  (W8_of_ne m ρ c main_arg14 (by decide)).trans (W7_arg14 m ρ c)
set_option maxHeartbeats 8000000 in
theorem W9_arg14 (c : Dev nD) : W9 m ρ c (Proc.devRef .tc main_arg14) = m ((c : Thread nD τ).loc main_arg14) := by
  show StableHlo.after hostOps3 (W8 m ρ c) (Proc.devRef .tc main_arg14) = _
  after_results_simp
  exact W8_arg14 m ρ c
theorem W4_arg15 (c : Dev nD) : W4 m ρ c (Proc.devRef .tc main_arg15) = m ((c : Thread nD τ).loc main_arg15) :=
  (W4_of_ne m ρ c main_arg15 (by decide)).trans (W3_arg15 m ρ c)
set_option maxHeartbeats 8000000 in
theorem W5_arg15 (c : Dev nD) : W5 m ρ c (Proc.devRef .tc main_arg15) = m ((c : Thread nD τ).loc main_arg15) := by
  show StableHlo.after hostOps1 (W4 m ρ c) (Proc.devRef .tc main_arg15) = _
  after_results_simp
  exact W4_arg15 m ρ c
theorem W6_arg15 (c : Dev nD) : W6 m ρ c (Proc.devRef .tc main_arg15) = m ((c : Thread nD τ).loc main_arg15) :=
  (W6_of_ne m ρ c main_arg15 (by decide)).trans (W5_arg15 m ρ c)
set_option maxHeartbeats 8000000 in
theorem W7_arg15 (c : Dev nD) : W7 m ρ c (Proc.devRef .tc main_arg15) = m ((c : Thread nD τ).loc main_arg15) := by
  show StableHlo.after hostOps2 (W6 m ρ c) (Proc.devRef .tc main_arg15) = _
  after_results_simp
  exact W6_arg15 m ρ c
theorem W8_arg15 (c : Dev nD) : W8 m ρ c (Proc.devRef .tc main_arg15) = m ((c : Thread nD τ).loc main_arg15) :=
  (W8_of_ne m ρ c main_arg15 (by decide)).trans (W7_arg15 m ρ c)
set_option maxHeartbeats 8000000 in
theorem W9_arg15 (c : Dev nD) : W9 m ρ c (Proc.devRef .tc main_arg15) = m ((c : Thread nD τ).loc main_arg15) := by
  show StableHlo.after hostOps3 (W8 m ρ c) (Proc.devRef .tc main_arg15) = _
  after_results_simp
  exact W8_arg15 m ρ c
theorem W10_arg15 (c : Dev nD) : W10 m ρ c (Proc.devRef .tc main_arg15) = m ((c : Thread nD τ).loc main_arg15) :=
  (W10_of_ne m ρ c main_arg15 (by decide)).trans (W9_arg15 m ρ c)
theorem W11_arg15 (c : Dev nD) : W11 m ρ c (Proc.devRef .tc main_arg15) = m ((c : Thread nD τ).loc main_arg15) :=
  (W11_of_ne m ρ c main_arg15 (by decide)).trans (W10_arg15 m ρ c)
theorem W4_arg16 (c : Dev nD) : W4 m ρ c (Proc.devRef .tc main_arg16) = m ((c : Thread nD τ).loc main_arg16) :=
  (W4_of_ne m ρ c main_arg16 (by decide)).trans (W3_arg16 m ρ c)
set_option maxHeartbeats 8000000 in
theorem W5_arg16 (c : Dev nD) : W5 m ρ c (Proc.devRef .tc main_arg16) = m ((c : Thread nD τ).loc main_arg16) := by
  show StableHlo.after hostOps1 (W4 m ρ c) (Proc.devRef .tc main_arg16) = _
  after_results_simp
  exact W4_arg16 m ρ c
theorem W6_arg16 (c : Dev nD) : W6 m ρ c (Proc.devRef .tc main_arg16) = m ((c : Thread nD τ).loc main_arg16) :=
  (W6_of_ne m ρ c main_arg16 (by decide)).trans (W5_arg16 m ρ c)
set_option maxHeartbeats 8000000 in
theorem W7_arg16 (c : Dev nD) : W7 m ρ c (Proc.devRef .tc main_arg16) = m ((c : Thread nD τ).loc main_arg16) := by
  show StableHlo.after hostOps2 (W6 m ρ c) (Proc.devRef .tc main_arg16) = _
  after_results_simp
  exact W6_arg16 m ρ c
theorem W8_arg16 (c : Dev nD) : W8 m ρ c (Proc.devRef .tc main_arg16) = m ((c : Thread nD τ).loc main_arg16) :=
  (W8_of_ne m ρ c main_arg16 (by decide)).trans (W7_arg16 m ρ c)
set_option maxHeartbeats 8000000 in
theorem W9_arg16 (c : Dev nD) : W9 m ρ c (Proc.devRef .tc main_arg16) = m ((c : Thread nD τ).loc main_arg16) := by
  show StableHlo.after hostOps3 (W8 m ρ c) (Proc.devRef .tc main_arg16) = _
  after_results_simp
  exact W8_arg16 m ρ c
theorem W10_arg16 (c : Dev nD) : W10 m ρ c (Proc.devRef .tc main_arg16) = m ((c : Thread nD τ).loc main_arg16) :=
  (W10_of_ne m ρ c main_arg16 (by decide)).trans (W9_arg16 m ρ c)
theorem W11_arg16 (c : Dev nD) : W11 m ρ c (Proc.devRef .tc main_arg16) = m ((c : Thread nD τ).loc main_arg16) :=
  (W11_of_ne m ρ c main_arg16 (by decide)).trans (W10_arg16 m ρ c)

/-! ## The edge list's rows, the in-degree column, the graph-number column -/

theorem W4_v1 (c : Dev nD) : W4 m ρ c (Proc.devRef .tc main_v1) = Cert.ReferenceIdeal.ReadP.val_main_v1 (F := F) (m ((c : Thread nD τ).loc main_arg1)) :=
  (W4_of_ne m ρ c main_v1 (by decide)).trans (W3_v1 m ρ c)
set_option maxHeartbeats 8000000 in
theorem W5_v1 (c : Dev nD) : W5 m ρ c (Proc.devRef .tc main_v1) = Cert.ReferenceIdeal.ReadP.val_main_v1 (F := F) (m ((c : Thread nD τ).loc main_arg1)) := by
  show StableHlo.after hostOps1 (W4 m ρ c) (Proc.devRef .tc main_v1) = _
  after_results_simp
  exact W4_v1 m ρ c
theorem W6_v1 (c : Dev nD) : W6 m ρ c (Proc.devRef .tc main_v1) = Cert.ReferenceIdeal.ReadP.val_main_v1 (F := F) (m ((c : Thread nD τ).loc main_arg1)) :=
  (W6_of_ne m ρ c main_v1 (by decide)).trans (W5_v1 m ρ c)
set_option maxHeartbeats 8000000 in
theorem W7_v1 (c : Dev nD) : W7 m ρ c (Proc.devRef .tc main_v1) = Cert.ReferenceIdeal.ReadP.val_main_v1 (F := F) (m ((c : Thread nD τ).loc main_arg1)) := by
  show StableHlo.after hostOps2 (W6 m ρ c) (Proc.devRef .tc main_v1) = _
  after_results_simp
  exact W6_v1 m ρ c
theorem W8_v1 (c : Dev nD) : W8 m ρ c (Proc.devRef .tc main_v1) = Cert.ReferenceIdeal.ReadP.val_main_v1 (F := F) (m ((c : Thread nD τ).loc main_arg1)) :=
  (W8_of_ne m ρ c main_v1 (by decide)).trans (W7_v1 m ρ c)
theorem W4_v3 (c : Dev nD) : W4 m ρ c (Proc.devRef .tc main_v3) = Cert.ReferenceIdeal.ReadP.val_main_v3 (F := F) (m ((c : Thread nD τ).loc main_arg1)) :=
  (W4_of_ne m ρ c main_v3 (by decide)).trans (W3_v3 m ρ c)
set_option maxHeartbeats 8000000 in
theorem W5_v3 (c : Dev nD) : W5 m ρ c (Proc.devRef .tc main_v3) = Cert.ReferenceIdeal.ReadP.val_main_v3 (F := F) (m ((c : Thread nD τ).loc main_arg1)) := by
  show StableHlo.after hostOps1 (W4 m ρ c) (Proc.devRef .tc main_v3) = _
  after_results_simp
  exact W4_v3 m ρ c
theorem W6_v3 (c : Dev nD) : W6 m ρ c (Proc.devRef .tc main_v3) = Cert.ReferenceIdeal.ReadP.val_main_v3 (F := F) (m ((c : Thread nD τ).loc main_arg1)) :=
  (W6_of_ne m ρ c main_v3 (by decide)).trans (W5_v3 m ρ c)
set_option maxHeartbeats 8000000 in
theorem W7_v3 (c : Dev nD) : W7 m ρ c (Proc.devRef .tc main_v3) = Cert.ReferenceIdeal.ReadP.val_main_v3 (F := F) (m ((c : Thread nD τ).loc main_arg1)) := by
  show StableHlo.after hostOps2 (W6 m ρ c) (Proc.devRef .tc main_v3) = _
  after_results_simp
  exact W6_v3 m ρ c
theorem W8_v3 (c : Dev nD) : W8 m ρ c (Proc.devRef .tc main_v3) = Cert.ReferenceIdeal.ReadP.val_main_v3 (F := F) (m ((c : Thread nD τ).loc main_arg1)) :=
  (W8_of_ne m ρ c main_v3 (by decide)).trans (W7_v3 m ρ c)
theorem W4_v16 (c : Dev nD) : W4 m ρ c (Proc.devRef .tc main_v16) = Cert.ReferenceIdeal.ReadP.val_main_v25 (F := F) (m ((c : Thread nD τ).loc main_arg1)) :=
  (W4_of_ne m ρ c main_v16 (by decide)).trans (W3_v16 m ρ c)
set_option maxHeartbeats 8000000 in
theorem W5_v16 (c : Dev nD) : W5 m ρ c (Proc.devRef .tc main_v16) = Cert.ReferenceIdeal.ReadP.val_main_v25 (F := F) (m ((c : Thread nD τ).loc main_arg1)) := by
  show StableHlo.after hostOps1 (W4 m ρ c) (Proc.devRef .tc main_v16) = _
  after_results_simp
  exact W4_v16 m ρ c
theorem W6_v16 (c : Dev nD) : W6 m ρ c (Proc.devRef .tc main_v16) = Cert.ReferenceIdeal.ReadP.val_main_v25 (F := F) (m ((c : Thread nD τ).loc main_arg1)) :=
  (W6_of_ne m ρ c main_v16 (by decide)).trans (W5_v16 m ρ c)
set_option maxHeartbeats 8000000 in
theorem W7_v16 (c : Dev nD) : W7 m ρ c (Proc.devRef .tc main_v16) = Cert.ReferenceIdeal.ReadP.val_main_v25 (F := F) (m ((c : Thread nD τ).loc main_arg1)) := by
  show StableHlo.after hostOps2 (W6 m ρ c) (Proc.devRef .tc main_v16) = _
  after_results_simp
  exact W6_v16 m ρ c
theorem W8_v16 (c : Dev nD) : W8 m ρ c (Proc.devRef .tc main_v16) = Cert.ReferenceIdeal.ReadP.val_main_v25 (F := F) (m ((c : Thread nD τ).loc main_arg1)) :=
  (W8_of_ne m ρ c main_v16 (by decide)).trans (W7_v16 m ρ c)
theorem W4_v4 (c : Dev nD) : W4 m ρ c (Proc.devRef .tc main_v4) = Cert.ReferenceIdeal.ReadP.val_main_v97 (F := F) (m ((c : Thread nD τ).loc main_arg2)) :=
  (W4_of_ne m ρ c main_v4 (by decide)).trans (W3_v4 m ρ c)
set_option maxHeartbeats 8000000 in
theorem W5_v4 (c : Dev nD) : W5 m ρ c (Proc.devRef .tc main_v4) = Cert.ReferenceIdeal.ReadP.val_main_v97 (F := F) (m ((c : Thread nD τ).loc main_arg2)) := by
  show StableHlo.after hostOps1 (W4 m ρ c) (Proc.devRef .tc main_v4) = _
  after_results_simp
  exact W4_v4 m ρ c
theorem W6_v4 (c : Dev nD) : W6 m ρ c (Proc.devRef .tc main_v4) = Cert.ReferenceIdeal.ReadP.val_main_v97 (F := F) (m ((c : Thread nD τ).loc main_arg2)) :=
  (W6_of_ne m ρ c main_v4 (by decide)).trans (W5_v4 m ρ c)
set_option maxHeartbeats 8000000 in
theorem W7_v4 (c : Dev nD) : W7 m ρ c (Proc.devRef .tc main_v4) = Cert.ReferenceIdeal.ReadP.val_main_v97 (F := F) (m ((c : Thread nD τ).loc main_arg2)) := by
  show StableHlo.after hostOps2 (W6 m ρ c) (Proc.devRef .tc main_v4) = _
  after_results_simp
  exact W6_v4 m ρ c
theorem W8_v4 (c : Dev nD) : W8 m ρ c (Proc.devRef .tc main_v4) = Cert.ReferenceIdeal.ReadP.val_main_v97 (F := F) (m ((c : Thread nD τ).loc main_arg2)) :=
  (W8_of_ne m ρ c main_v4 (by decide)).trans (W7_v4 m ρ c)
set_option maxHeartbeats 8000000 in
theorem W9_v4 (c : Dev nD) : W9 m ρ c (Proc.devRef .tc main_v4) = Cert.ReferenceIdeal.ReadP.val_main_v97 (F := F) (m ((c : Thread nD τ).loc main_arg2)) := by
  show StableHlo.after hostOps3 (W8 m ρ c) (Proc.devRef .tc main_v4) = _
  after_results_simp
  exact W8_v4 m ρ c
theorem W10_v4 (c : Dev nD) : W10 m ρ c (Proc.devRef .tc main_v4) = Cert.ReferenceIdeal.ReadP.val_main_v97 (F := F) (m ((c : Thread nD τ).loc main_arg2)) :=
  (W10_of_ne m ρ c main_v4 (by decide)).trans (W9_v4 m ρ c)
theorem W11_v4 (c : Dev nD) : W11 m ρ c (Proc.devRef .tc main_v4) = Cert.ReferenceIdeal.ReadP.val_main_v97 (F := F) (m ((c : Thread nD τ).loc main_arg2)) :=
  ((W11_arr m ρ c 2).trans (((dat4 (V10 m ρ) c).arrAt_in 2 rfl _).trans (A_eq4 (V10 m ρ) c 2))).trans (W10_v4 m ρ c)
set_option maxHeartbeats 8000000 in
theorem W12_v4 (c : Dev nD) : W12 m ρ c (Proc.devRef .tc main_v4) = Cert.ReferenceIdeal.ReadP.val_main_v97 (F := F) (m ((c : Thread nD τ).loc main_arg2)) := by
  show StableHlo.after hostOps5 (W11 m ρ c) (Proc.devRef .tc main_v4) = _
  after_results_simp
  exact W11_v4 m ρ c

/-! ## Each call's input windows are these buffers, at the contents the call starts from -/

theorem in0_0 (c : Dev nD) : V3 m ρ c (Pipeline.arrRef spec0 0) = W3 m ρ c (Proc.devRef .tc main_v28) := rfl
theorem in0_1 (c : Dev nD) : V3 m ρ c (Pipeline.arrRef spec0 1) = W3 m ρ c (Proc.devRef .tc main_arg0) := rfl
theorem in0_2 (c : Dev nD) : V3 m ρ c (Pipeline.arrRef spec0 2) = W3 m ρ c (Proc.devRef .tc main_arg3) := rfl
theorem in0_3 (c : Dev nD) : V3 m ρ c (Pipeline.arrRef spec0 3) = W3 m ρ c (Proc.devRef .tc main_v29) := rfl
theorem in0_4 (c : Dev nD) : V3 m ρ c (Pipeline.arrRef spec0 4) = W3 m ρ c (Proc.devRef .tc main_arg5) := rfl
theorem in1_0 (c : Dev nD) : V5 m ρ c (Pipeline.arrRef spec1 0) = W5 m ρ c (Proc.devRef .tc main_v42) := rfl
theorem in1_1 (c : Dev nD) : V5 m ρ c (Pipeline.arrRef spec1 1) = W5 m ρ c (Proc.devRef .tc main_v30) := rfl
theorem in1_2 (c : Dev nD) : V5 m ρ c (Pipeline.arrRef spec1 2) = W5 m ρ c (Proc.devRef .tc main_arg6) := rfl
theorem in1_3 (c : Dev nD) : V5 m ρ c (Pipeline.arrRef spec1 3) = W5 m ρ c (Proc.devRef .tc main_v43) := rfl
theorem in1_4 (c : Dev nD) : V5 m ρ c (Pipeline.arrRef spec1 4) = W5 m ρ c (Proc.devRef .tc main_arg8) := rfl
theorem in2_0 (c : Dev nD) : V7 m ρ c (Pipeline.arrRef spec2 0) = W7 m ρ c (Proc.devRef .tc main_v56) := rfl
theorem in2_1 (c : Dev nD) : V7 m ρ c (Pipeline.arrRef spec2 1) = W7 m ρ c (Proc.devRef .tc main_v44) := rfl
theorem in2_2 (c : Dev nD) : V7 m ρ c (Pipeline.arrRef spec2 2) = W7 m ρ c (Proc.devRef .tc main_arg9) := rfl
theorem in2_3 (c : Dev nD) : V7 m ρ c (Pipeline.arrRef spec2 3) = W7 m ρ c (Proc.devRef .tc main_v57) := rfl
theorem in2_4 (c : Dev nD) : V7 m ρ c (Pipeline.arrRef spec2 4) = W7 m ρ c (Proc.devRef .tc main_arg11) := rfl
theorem in3_0 (c : Dev nD) : V9 m ρ c (Pipeline.arrRef spec3 0) = W9 m ρ c (Proc.devRef .tc main_v70) := rfl
theorem in3_1 (c : Dev nD) : V9 m ρ c (Pipeline.arrRef spec3 1) = W9 m ρ c (Proc.devRef .tc main_v58) := rfl
theorem in3_2 (c : Dev nD) : V9 m ρ c (Pipeline.arrRef spec3 2) = W9 m ρ c (Proc.devRef .tc main_arg12) := rfl
theorem in3_3 (c : Dev nD) : V9 m ρ c (Pipeline.arrRef spec3 3) = W9 m ρ c (Proc.devRef .tc main_v71) := rfl
theorem in3_4 (c : Dev nD) : V9 m ρ c (Pipeline.arrRef spec3 4) = W9 m ρ c (Proc.devRef .tc main_arg14) := rfl
theorem in4_0 (c : Dev nD) : V10 m ρ c (Pipeline.arrRef spec4 0) = W10 m ρ c (Proc.devRef .tc main_v58) := rfl
theorem in4_1 (c : Dev nD) : V10 m ρ c (Pipeline.arrRef spec4 1) = W10 m ρ c (Proc.devRef .tc main_v72) := rfl
theorem in4_2 (c : Dev nD) : V10 m ρ c (Pipeline.arrRef spec4 2) = W10 m ρ c (Proc.devRef .tc main_v4) := rfl
theorem in5_0 (c : Dev nD) : V12 m ρ c (Pipeline.arrRef spec5 0) = W12 m ρ c (Proc.devRef .tc main_v4) := rfl
theorem in5_1 (c : Dev nD) : V12 m ρ c (Pipeline.arrRef spec5 1) = W12 m ρ c (Proc.devRef .tc main_v72) := rfl
theorem in5_2 (c : Dev nD) : V12 m ρ c (Pipeline.arrRef spec5 2) = W12 m ρ c (Proc.devRef .tc main_v78) := rfl
theorem in5_3 (c : Dev nD) : V12 m ρ c (Pipeline.arrRef spec5 3) = W12 m ρ c (Proc.devRef .tc main_v81) := rfl

end Cert.KernelIdeal.KChain

end
-- ==== Proof.KStage.lean ====
/-
  The later stretches of host operations of the idealized kernel program, each read operation by operation from
  the contents it starts from, for any float family: an aggregation (gather along the edge sources, accumulate at
  the edge targets, scale by the reciprocal in-degree) of whatever the previous call left; a bias laid out as a
  row; the value and the mean advantage per graph from the per-graph sums; the last column as a vector.
-/
import proofs.«418596_j16673063043609_2_alg».proof.Proof.KKeep

set_option maxRecDepth 16384

noncomputable section

namespace Cert.KernelIdeal.KChain

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

set_option maxHeartbeats 16000000 in
/-- The aggregation before the second layer. -/
theorem stage_agg1 (c : Dev nD) (h : FVec F Cert.ReferenceIdeal.S100000x128 .f32) (src dst : IVec Cert.ReferenceIdeal.S1600000 32)
    (inv : FVec F Cert.ReferenceIdeal.S100000x1 .f32)
    (eh : W4 m ρ c (Proc.devRef .tc main_v30) = h) (e1 : W4 m ρ c (Proc.devRef .tc main_v1) = src)
    (e3 : W4 m ρ c (Proc.devRef .tc main_v3) = dst) (e16 : W4 m ρ c (Proc.devRef .tc main_v16) = inv) :
    W5 m ρ c (Proc.devRef .tc main_v42) = Cert.Stages.agg128 h src dst inv := by
  show StableHlo.after hostOps1 (W4 m ρ c) (Proc.devRef .tc main_v42) = _
  after_results_simp
  rw [eh, e1, e3, e16]
  rfl
set_option maxHeartbeats 8000000 in
/-- The second bias as a row. -/
theorem stage_row1 (c : Dev nD) (b : FVec F Cert.ReferenceIdeal.S128 .f32) (eb : W4 m ρ c (Proc.devRef .tc main_arg7) = b) :
    W5 m ρ c (Proc.devRef .tc main_v43) = broadcastInDim Cert.ReferenceIdeal.S1x128 ![1] Cert.ReferenceIdeal.Gen.bcast_S128_S1x128_1 b := by
  show StableHlo.after hostOps1 (W4 m ρ c) (Proc.devRef .tc main_v43) = _
  after_results_simp
  rw [eb]
  exact Cert.Bridge.row128 _ _ Cert.ReferenceIdeal.Gen.bcast_S128_S1x128_1
set_option maxHeartbeats 16000000 in
/-- The aggregation before the third layer. -/
theorem stage_agg2 (c : Dev nD) (h : FVec F Cert.ReferenceIdeal.S100000x128 .f32) (src dst : IVec Cert.ReferenceIdeal.S1600000 32)
    (inv : FVec F Cert.ReferenceIdeal.S100000x1 .f32)
    (eh : W6 m ρ c (Proc.devRef .tc main_v44) = h) (e1 : W6 m ρ c (Proc.devRef .tc main_v1) = src)
    (e3 : W6 m ρ c (Proc.devRef .tc main_v3) = dst) (e16 : W6 m ρ c (Proc.devRef .tc main_v16) = inv) :
    W7 m ρ c (Proc.devRef .tc main_v56) = Cert.Stages.agg128 h src dst inv := by
  show StableHlo.after hostOps2 (W6 m ρ c) (Proc.devRef .tc main_v56) = _
  after_results_simp
  rw [eh, e1, e3, e16]
  rfl
set_option maxHeartbeats 8000000 in
/-- The third bias as a row. -/
theorem stage_row2 (c : Dev nD) (b : FVec F Cert.ReferenceIdeal.S128 .f32) (eb : W6 m ρ c (Proc.devRef .tc main_arg10) = b) :
    W7 m ρ c (Proc.devRef .tc main_v57) = broadcastInDim Cert.ReferenceIdeal.S1x128 ![1] Cert.ReferenceIdeal.Gen.bcast_S128_S1x128_1 b := by
  show StableHlo.after hostOps2 (W6 m ρ c) (Proc.devRef .tc main_v57) = _
  after_results_simp
  rw [eb]
  exact Cert.Bridge.row128 _ _ Cert.ReferenceIdeal.Gen.bcast_S128_S1x128_1
set_option maxHeartbeats 16000000 in
/-- The aggregation before the advantage head. -/
theorem stage_agg3 (c : Dev nD) (h : FVec F Cert.ReferenceIdeal.S100000x128 .f32) (src dst : IVec Cert.ReferenceIdeal.S1600000 32)
    (inv : FVec F Cert.ReferenceIdeal.S100000x1 .f32)
    (eh : W8 m ρ c (Proc.devRef .tc main_v58) = h) (e1 : W8 m ρ c (Proc.devRef .tc main_v1) = src)
    (e3 : W8 m ρ c (Proc.devRef .tc main_v3) = dst) (e16 : W8 m ρ c (Proc.devRef .tc main_v16) = inv) :
    W9 m ρ c (Proc.devRef .tc main_v70) = Cert.Stages.agg128 h src dst inv := by
  show StableHlo.after hostOps3 (W8 m ρ c) (Proc.devRef .tc main_v70) = _
  after_results_simp
  rw [eh, e1, e3, e16]
  rfl
set_option maxHeartbeats 8000000 in
/-- The head's bias as a 1×1 array. -/
theorem stage_row3 (c : Dev nD) (b : FVec F Cert.ReferenceIdeal.S1 .f32) (eb : W8 m ρ c (Proc.devRef .tc main_arg13) = b) :
    W9 m ρ c (Proc.devRef .tc main_v71) = broadcastInDim Cert.ReferenceIdeal.S1x1 ![1] Cert.ReferenceIdeal.Gen.bcast_S1_S1x1_1 b := by
  show StableHlo.after hostOps3 (W8 m ρ c) (Proc.devRef .tc main_v71) = _
  after_results_simp
  rw [eb]
  exact Cert.Bridge.one11 _ _ Cert.ReferenceIdeal.Gen.bcast_S1_S1x1_1
set_option maxHeartbeats 8000000 in
/-- The value per graph from the per-graph sums of the embeddings. -/
theorem stage_value (c : Dev nD) (P : FVec F Cert.ReferenceIdeal.S64x128 .f32) (wv : FVec F Cert.ReferenceIdeal.S128x1 .f32) (bv : FVec F Cert.ReferenceIdeal.S1 .f32)
    (eP : W11 m ρ c (Proc.devRef .tc main_v73_0) = P) (e15 : W11 m ρ c (Proc.devRef .tc main_arg15) = wv)
    (e16 : W11 m ρ c (Proc.devRef .tc main_arg16) = bv) :
    W12 m ρ c (Proc.devRef .tc main_v78) = Cert.Stages.valueOf P wv bv := by
  show StableHlo.after hostOps5 (W11 m ρ c) (Proc.devRef .tc main_v78) = _
  after_results_simp
  rw [eP, e15, e16]
  rfl

set_option maxHeartbeats 8000000 in
/-- The mean advantage per graph, the maximum with one taken on the count column. -/
theorem stage_mean (c : Dev nD) (S : FVec F Cert.ReferenceIdeal.S64x1 .f32) (C : FVec F Cert.ReferenceIdeal.S64x1 .f32)
    (eS : W11 m ρ c (Proc.devRef .tc main_v73_2) = S) (eC : W11 m ρ c (Proc.devRef .tc main_v73_1) = C) :
    W12 m ρ c (Proc.devRef .tc main_v81)
      = Host.divf S (maximumf C (broadcastInDim Cert.ReferenceIdeal.S64x1 ![] Cert.ReferenceIdeal.Gen.bcast_S_S64x1 (constant Cert.ReferenceIdeal.S_ .f32 0x3F800000#32))) := by
  show StableHlo.after hostOps5 (W11 m ρ c) (Proc.devRef .tc main_v81) = _
  after_results_simp
  rw [eS, eC]

set_option maxHeartbeats 8000000 in
/-- The result: the last column as a vector. -/
theorem stage_out (c : Dev nD) (Y : FVec F Cert.ReferenceIdeal.S100000x1 .f32) (eY : W13 m ρ c (Proc.devRef .tc main_v82) = Y) :
    W14 m ρ c (Proc.devRef .tc main_v83) = shapeCast Cert.ReferenceIdeal.S100000 Y Cert.ReferenceIdeal.Gen.shapeCasts_S100000x1_S100000 := by
  show StableHlo.after hostOps6 (W13 m ρ c) (Proc.devRef .tc main_v83) = _
  after_results_simp
  rw [eY]
  rfl

/-! A call's output is not written by the stretch that follows it. -/

set_option maxHeartbeats 8000000 in
theorem keep5_v30 (c : Dev nD) (y : FVec F Cert.ReferenceIdeal.S100000x128 .f32) (e : W4 m ρ c (Proc.devRef .tc main_v30) = y) :
    W5 m ρ c (Proc.devRef .tc main_v30) = y := by
  show StableHlo.after hostOps1 (W4 m ρ c) (Proc.devRef .tc main_v30) = _
  after_results_simp
  exact e
set_option maxHeartbeats 8000000 in
theorem keep7_v44 (c : Dev nD) (y : FVec F Cert.ReferenceIdeal.S100000x128 .f32) (e : W6 m ρ c (Proc.devRef .tc main_v44) = y) :
    W7 m ρ c (Proc.devRef .tc main_v44) = y := by
  show StableHlo.after hostOps2 (W6 m ρ c) (Proc.devRef .tc main_v44) = _
  after_results_simp
  exact e
set_option maxHeartbeats 8000000 in
theorem keep9_v58 (c : Dev nD) (y : FVec F Cert.ReferenceIdeal.S100000x128 .f32) (e : W8 m ρ c (Proc.devRef .tc main_v58) = y) :
    W9 m ρ c (Proc.devRef .tc main_v58) = y := by
  show StableHlo.after hostOps3 (W8 m ρ c) (Proc.devRef .tc main_v58) = _
  after_results_simp
  exact e
set_option maxHeartbeats 8000000 in
theorem keep12_v72 (c : Dev nD) (y : FVec F Cert.ReferenceIdeal.S100000x1 .f32) (e : W11 m ρ c (Proc.devRef .tc main_v72) = y) :
    W12 m ρ c (Proc.devRef .tc main_v72) = y := by
  show StableHlo.after hostOps5 (W11 m ρ c) (Proc.devRef .tc main_v72) = _
  after_results_simp
  exact e

end Cert.KernelIdeal.KChain

end
-- ==== Proof.Sage0.lean ====
/-
  The first layer's dense part: the region whose body computes, for each block of 5000 rows,
  `max (agg · W_l + b_l + h · W_r) 0`. Here: the body's arithmetic at an entry, the whole-array function at an
  entry (the same expression), each row block as rows of the arrays, and the array after the twenty points.
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Sage0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's two products: an entry is the sum over the 32 input channels -/

theorem klhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem klhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem krhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem krhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- A block's product into the zero accumulator, at row `p` and output channel `j`: the sum over the input
    channels `k` of the left factor at `(p, k)` times the right factor at `(k, j)`. -/
theorem blockProduct_apply (a : FVec Ideal S5000x32 .bf16) (b : FVec Ideal S32x128 .bf16) (p : Fin 5000) (j : Fin 128) :
    matmul dot_S5000x32_S32x128_S5000x128_1_0_0_1_n_n none a b (constant (F := Ideal) S5000x128 .f32 0x00000000#32) (ix2 p j)
      = ∑ k : Fin 32, a (ix2 p k) * b (ix2 k j) := by
  simp only [matmul]
  rw [Ideal.matmul_constant_zero_apply, ← Equiv.sum_comp (ValueIdx.contrEquiv1 dot_S5000x32_S32x128_S5000x128_1_0_0_1_n_n 32 rfl rfl).symm]
  refine Finset.sum_congr rfl fun k _ => ?_
  have hk := ValueIdx.contrEquiv1_symm_val dot_S5000x32_S32x128_S5000x128_1_0_0_1_n_n 32 rfl rfl k
  have el : dot_S5000x32_S32x128_S5000x128_1_0_0_1_n_n.lhsIdx (ix2 p j) ((ValueIdx.contrEquiv1 dot_S5000x32_S32x128_S5000x128_1_0_0_1_n_n 32 rfl rfl).symm k) = ix2 p k := funext fun a => Fin.ext (by
    match a with
    | ⟨0, _⟩ => exact klhs_0 _ _
    | ⟨1, _⟩ => exact (klhs_1 _ _).trans hk)
  have er : dot_S5000x32_S32x128_S5000x128_1_0_0_1_n_n.rhsIdx (ix2 p j) ((ValueIdx.contrEquiv1 dot_S5000x32_S32x128_S5000x128_1_0_0_1_n_n 32 rfl rfl).symm k) = ix2 k j := funext fun a => Fin.ext (by
    match a with
    | ⟨0, _⟩ => exact (krhs_0 _ _).trans hk
    | ⟨1, _⟩ => exact krhs_1 _ _)
  rw [el, er]

/-- The bias row spread over the block's rows, at `(p, j)`: the row's entry `j`. -/
theorem biasRows_apply (vb : FVec Ideal S1x128 .f32) (p : Fin 5000) (j : Fin 128) :
    broadcastTo S5000x128 vb broadcasts_S1x128_S5000x128 (ix2 p j) = vb (ix2 0 j) :=
  broadcastTo_apply vb broadcasts_S1x128_S5000x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-- THE BODY'S ARITHMETIC AT AN ENTRY: `max ((∑ k, agg (p,k) · W_l (k,j)) + b (0,j) + ∑ k, h (p,k) · W_r (k,j)) 0`. -/
theorem pay_apply (v0 v3 : Vec Ideal S5000x32 .f32) (vWl vWr : Vec Ideal S32x128 .f32) (vb : Vec Ideal S1x128 .f32)
    (p : Fin 5000) (j : Fin 128) :
    k0_pay1 (F := Ideal) v0 v3 vWl vWr vb (ix2 p j)
      = max (((∑ k : Fin 32, v0 (ix2 p k) * vWl (ix2 k j)) + vb (ix2 0 j)) + ∑ k : Fin 32, v3 (ix2 p k) * vWr (ix2 k j)) 0 := by
  unfold k0_pay1
  simp only [shapeCast_self]
  rw [maximumf_apply, addf_apply, addf_apply, blockProduct_apply, blockProduct_apply, biasRows_apply, broadcast_apply]
  simp only [truncf_apply]
  exact congrArg (max _) Ideal.ofBits_zero_f32

/-! ## The whole-array function at an entry -/

theorem rlhs_0 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x128_S100000x128_1_0_0_1_n_n.lhsBatch by decide), dif_pos (show (0 : Fin Cert.ReferenceIdeal.S100000x32.rank) ∈ Cert.ReferenceIdeal.dot_S100000x32_S32x128_S100000x128_1_0_0_1_n_n.lhsNonContracting by decide)]
  rfl
theorem rlhs_1 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 1).val = (q ⟨0, by decide⟩).val :=
  Cert.ReferenceIdeal.dot_S100000x32_S32x128_S100000x128_1_0_0_1_n_n.lhsIdx_val_of_single rfl i q
theorem rrhs_0 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 0).val = (q ⟨0, by decide⟩).val :=
  Cert.ReferenceIdeal.dot_S100000x32_S32x128_S100000x128_1_0_0_1_n_n.rhsIdx_val_of_single rfl i q
theorem rrhs_1 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 1).val = (i 1).val := by
  unfold DotDims.rhsIdx
  rw [dif_neg (show ¬(1 : Fin Cert.ReferenceIdeal.S32x128.rank) ∈ Cert.ReferenceIdeal.dot_S100000x32_S32x128_S100000x128_1_0_0_1_n_n.rhsBatch by decide), dif_pos (show (1 : Fin Cert.ReferenceIdeal.S32x128.rank) ∈ Cert.ReferenceIdeal.dot_S100000x32_S32x128_S100000x128_1_0_0_1_n_n.rhsNonContracting by decide)]
  rfl

/-- The whole arrays' product at node `n` and output channel `j`: the sum over the input channels. -/
theorem arrayProduct_apply (a : FVec Ideal Cert.ReferenceIdeal.S100000x32 .f32) (b : FVec Ideal Cert.ReferenceIdeal.S32x128 .f32) (n : Fin 100000) (j : Fin 128) :
    Host.dotGeneral Cert.ReferenceIdeal.dot_S100000x32_S32x128_S100000x128_1_0_0_1_n_n none a b (ix2 n j)
      = ∑ k : Fin 32, a (ix2 n k) * b (ix2 k j) := by
  simp only [Host.dotGeneral]
  rw [Ideal.dotGeneral_apply, ← Equiv.sum_comp (ValueIdx.contrEquiv1 Cert.ReferenceIdeal.dot_S100000x32_S32x128_S100000x128_1_0_0_1_n_n 32 rfl rfl).symm]
  refine Finset.sum_congr rfl fun k _ => ?_
  have hk := ValueIdx.contrEquiv1_symm_val Cert.ReferenceIdeal.dot_S100000x32_S32x128_S100000x128_1_0_0_1_n_n 32 rfl rfl k
  have el : Cert.ReferenceIdeal.dot_S100000x32_S32x128_S100000x128_1_0_0_1_n_n.lhsIdx (ix2 n j) ((ValueIdx.contrEquiv1 Cert.ReferenceIdeal.dot_S100000x32_S32x128_S100000x128_1_0_0_1_n_n 32 rfl rfl).symm k) = ix2 n k := funext fun a => Fin.ext (by
    match a with
    | ⟨0, _⟩ => exact rlhs_0 _ _
    | ⟨1, _⟩ => exact (rlhs_1 _ _).trans hk)
  have er : Cert.ReferenceIdeal.dot_S100000x32_S32x128_S100000x128_1_0_0_1_n_n.rhsIdx (ix2 n j) ((ValueIdx.contrEquiv1 Cert.ReferenceIdeal.dot_S100000x32_S32x128_S100000x128_1_0_0_1_n_n 32 rfl rfl).symm k) = ix2 k j := funext fun a => Fin.ext (by
    match a with
    | ⟨0, _⟩ => exact (rrhs_0 _ _).trans hk
    | ⟨1, _⟩ => exact rrhs_1 _ _)
  rw [el, er]

/-- The bias row spread over all nodes, at `(n, j)`: the row's entry `j`. -/
theorem biasAll_apply (bl : FVec Ideal Cert.ReferenceIdeal.S1x128 .f32) (n : Fin 100000) (j : Fin 128) :
    broadcastInDim Cert.ReferenceIdeal.S100000x128 ![0, 1] Cert.ReferenceIdeal.Gen.bcast_S1x128_S100000x128_0_1 bl (ix2 n j) = bl (ix2 0 j) :=
  broadcastInDim_apply _ Cert.ReferenceIdeal.Gen.bcast_S1x128_S100000x128_0_1 bl (ix2 n j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])

/-- The zero the maximum is taken against, at any entry. -/
theorem zeroAll_apply (n : Fin 100000) (j : Fin 128) :
    broadcastInDim Cert.ReferenceIdeal.S100000x128 ![] Cert.ReferenceIdeal.Gen.bcast_S_S100000x128
      (constant (F := Ideal) Cert.ReferenceIdeal.S_ .f32 0x00000000#32) (ix2 n j) = 0 :=
  (broadcastInDim_apply _ Cert.ReferenceIdeal.Gen.bcast_S_S100000x128 (constant (F := Ideal) Cert.ReferenceIdeal.S_ .f32 0x00000000#32)
    (ix2 n j) ix0 (fun a => a.elim0)).trans Ideal.ofBits_zero_f32

/-- THE WHOLE-ARRAY FUNCTION AT AN ENTRY: the same expression over the arrays' rows. -/
theorem spec_apply (agg h : FVec Ideal Cert.ReferenceIdeal.S100000x32 .f32) (wl wr : FVec Ideal Cert.ReferenceIdeal.S32x128 .f32)
    (bl : FVec Ideal Cert.ReferenceIdeal.S1x128 .f32) (n : Fin 100000) (j : Fin 128) :
    Cert.Spec.relu128 (Cert.Spec.sage32 agg h wl bl wr) (ix2 n j)
      = max (((∑ k : Fin 32, agg (ix2 n k) * wl (ix2 k j)) + bl (ix2 0 j)) + ∑ k : Fin 32, h (ix2 n k) * wr (ix2 k j)) 0 := by
  unfold Cert.Spec.relu128 Cert.Spec.sage32
  rw [maximumf_apply, addf_apply, addf_apply, arrayProduct_apply, arrayProduct_apply, biasAll_apply, zeroAll_apply]

/-! ## A row block against the arrays -/

/-- What a point's body leaves at a block entry is the whole-array function at the array entry the block entry
    sits at: point `T`'s block holds the rows `5000·T … 5000·T + 4999` of the two feature arrays, and the
    weights and the bias row whole. -/
theorem block_entry (A0 A1 : FVec Ideal Cert.ReferenceIdeal.S100000x32 .f32) (Wl Wr : FVec Ideal Cert.ReferenceIdeal.S32x128 .f32)
    (B : FVec Ideal Cert.ReferenceIdeal.S1x128 .f32)
    (x0 x1 : Vec Ideal S5000x32 .f32) (x2 x4 : Vec Ideal S32x128 .f32) (x3 : Vec Ideal S1x128 .f32) (T : ℕ)
    (h0 : ∀ (p : Fin 5000) (k : Fin 32) (n : Fin 100000), n.val = T * 5000 + p.val → x0 (ix2 p k) = A0 (ix2 n k))
    (h1 : ∀ (p : Fin 5000) (k : Fin 32) (n : Fin 100000), n.val = T * 5000 + p.val → x1 (ix2 p k) = A1 (ix2 n k))
    (h2 : ∀ (k : Fin 32) (j : Fin 128), x2 (ix2 k j) = Wl (ix2 k j))
    (h3 : ∀ (j : Fin 128), x3 (ix2 0 j) = B (ix2 0 j))
    (h4 : ∀ (k : Fin 32) (j : Fin 128), x4 (ix2 k j) = Wr (ix2 k j))
    (y : S5000x128.Idx) (i : Cert.ReferenceIdeal.S100000x128.Idx)
    (hi0 : (i 0).val = T * 5000 + (y 0).val) (hi1 : (i 1).val = (y 1).val) :
    k0_pay1 (F := Ideal) x0 x1 x2 x4 x3 y = Cert.Spec.relu128 (Cert.Spec.sage32 A0 A1 Wl B Wr) i := by
  obtain ⟨p, j, rfl⟩ : ∃ (p : Fin 5000) (j : Fin 128), y = ix2 p j := ⟨y 0, y 1, eq_ix2 y⟩
  obtain ⟨n, j', rfl⟩ : ∃ (n : Fin 100000) (j' : Fin 128), i = ix2 n j' := ⟨i 0, i 1, eq_ix2 i⟩
  obtain rfl : j' = j := Fin.ext hi1
  have e0 : ∀ k, x0 (ix2 p k) = A0 (ix2 n k) := fun k => h0 p k n hi0
  have e1 : ∀ k, x1 (ix2 p k) = A1 (ix2 n k) := fun k => h1 p k n hi0
  rw [pay_apply, spec_apply]
  simp only [e0, e1, h2, h3, h4]

/-! ## The twenty points: each writes back one block of 5000 rows -/

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the two feature windows and the output window are at block `(t, 0)`,
    the weights and the bias row at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is the rows `5000·t …` of the aggregated features. -/
theorem rows0 (c : Dev nD) (t : Fin cfg0.N) (p : Fin 5000) (k : Fin 32) (n : Fin 100000) (hn : n.val = t.val * 5000 + p.val) :
    (iblk0 V c 0 t : Vec Ideal S5000x32 .f32) (ix2 p k) = (V c (Pipeline.arrRef spec0 0) : FVec Ideal S100000x32 .f32) (ix2 n k) := by
  obtain ⟨e0, e1, -⟩ := idx_facts t
  unfold iblk0
  rw [View.read_apply]
  show (V c (Pipeline.arrRef spec0 0) : FVec Ideal S100000x32 .f32) (((cfg0.win 0).blk t).view.emb (ix2 p k)) = _
  refine congrArg _ (funext fun a => Fin.ext ?_)
  match a with
  | ⟨0, _⟩ => show win0_0.index t (0 : Fin 2) * 5000 + 1 * p.val = n.val; rw [e0, hn]; omega
  | ⟨1, _⟩ => show win0_0.index t (1 : Fin 2) * 32 + 1 * k.val = k.val; rw [e1]; omega

/-- Window 1's block at point `t` is the rows `5000·t …` of the nodes' own features. -/
theorem rows1 (c : Dev nD) (t : Fin cfg0.N) (p : Fin 5000) (k : Fin 32) (n : Fin 100000) (hn : n.val = t.val * 5000 + p.val) :
    (iblk0 V c 1 t : Vec Ideal S5000x32 .f32) (ix2 p k) = (V c (Pipeline.arrRef spec0 1) : FVec Ideal S100000x32 .f32) (ix2 n k) := by
  obtain ⟨-, -, e0, e1, -⟩ := idx_facts t
  unfold iblk0
  rw [View.read_apply]
  show (V c (Pipeline.arrRef spec0 1) : FVec Ideal S100000x32 .f32) (((cfg0.win 1).blk t).view.emb (ix2 p k)) = _
  refine congrArg _ (funext fun a => Fin.ext ?_)
  match a with
  | ⟨0, _⟩ => show win0_1.index t (0 : Fin 2) * 5000 + 1 * p.val = n.val; rw [e0, hn]; omega
  | ⟨1, _⟩ => show win0_1.index t (1 : Fin 2) * 32 + 1 * k.val = k.val; rw [e1]; omega

/-- Window 2's block at every point is `W_l` whole. -/
theorem whole2 (c : Dev nD) (t : Fin cfg0.N) (k : Fin 32) (j : Fin 128) :
    (iblk0 V c 2 t : Vec Ideal S32x128 .f32) (ix2 k j) = (V c (Pipeline.arrRef spec0 2) : FVec Ideal S32x128 .f32) (ix2 k j) := by
  obtain ⟨-, -, -, -, e0, e1, -⟩ := idx_facts t
  unfold iblk0
  rw [View.read_apply]
  show (V c (Pipeline.arrRef spec0 2) : FVec Ideal S32x128 .f32) (((cfg0.win 2).blk t).view.emb (ix2 k j)) = _
  refine congrArg _ (funext fun a => Fin.ext ?_)
  match a with
  | ⟨0, _⟩ => show win0_2.index t (0 : Fin 2) * 32 + 1 * k.val = k.val; rw [e0]; omega
  | ⟨1, _⟩ => show win0_2.index t (1 : Fin 2) * 128 + 1 * j.val = j.val; rw [e1]; omega

/-- Window 3's block at every point is the bias row whole. -/
theorem whole3 (c : Dev nD) (t : Fin cfg0.N) (j : Fin 128) :
    (iblk0 V c 3 t : Vec Ideal S1x128 .f32) (ix2 0 j) = (V c (Pipeline.arrRef spec0 3) : FVec Ideal S1x128 .f32) (ix2 0 j) := by
  obtain ⟨-, -, -, -, -, -, e0, e1, -⟩ := idx_facts t
  unfold iblk0
  rw [View.read_apply]
  show (V c (Pipeline.arrRef spec0 3) : FVec Ideal S1x128 .f32) (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

/-- Window 4's block at every point is `W_r` whole. -/
theorem whole4 (c : Dev nD) (t : Fin cfg0.N) (k : Fin 32) (j : Fin 128) :
    (iblk0 V c 4 t : Vec Ideal S32x128 .f32) (ix2 k j) = (V c (Pipeline.arrRef spec0 4) : FVec Ideal S32x128 .f32) (ix2 k j) := by
  obtain ⟨-, -, -, -, -, -, -, -, e0, e1, -⟩ := idx_facts t
  unfold iblk0
  rw [View.read_apply]
  show (V c (Pipeline.arrRef spec0 4) : FVec Ideal S32x128 .f32) (((cfg0.win 4).blk t).view.emb (ix2 k j)) = _
  refine congrArg _ (funext fun a => Fin.ext ?_)
  match a with
  | ⟨0, _⟩ => show win0_4.index t (0 : Fin 2) * 32 + 1 * k.val = k.val; rw [e0]; omega
  | ⟨1, _⟩ => show win0_4.index t (1 : Fin 2) * 128 + 1 * j.val = j.val; rw [e1]; omega

/-- WHAT POINT `t` WRITES BACK is block `t` of the whole-array function of the arrays as the region finds them. -/
theorem flushed_eq (c : Dev nD) (t : Fin cfg0.N) :
    (dat0 (F := Ideal) V c).flushed 5 t = ((cfg0.win 5).blk t).view.read (Elt Ideal)
      (Cert.Spec.relu128 (Cert.Spec.sage32 (V c (Pipeline.arrRef spec0 0)) (V c (Pipeline.arrRef spec0 1))
        (V c (Pipeline.arrRef spec0 2)) (V c (Pipeline.arrRef spec0 3)) (V c (Pipeline.arrRef spec0 4)))) := by
  show (cfg0.win 5).cut (grid0.coords t) ((dat0 V c).after 5 t) = _
  rw [after0_5]
  unfold out0_5
  rw [View.canon_unit_zero hz]
  simp only [View.ld_unit_zero (S := S5000x32) hz, View.ld_unit_zero (S := S32x128) hz, View.ld_unit_zero (S := S1x128) hz]
  funext y
  rw [View.read_apply]
  obtain ⟨-, -, -, -, -, -, -, -, -, -, e0, e1⟩ := idx_facts t
  show k0_pay1 (F := Ideal) (iblk0 V c 0 t) (iblk0 V c 1 t) (iblk0 V c 2 t) (iblk0 V c 4 t) (iblk0 V c 3 t)
      ((win0 5).xinj (grid0.coords t) y)
    = Cert.Spec.relu128 (Cert.Spec.sage32 (V c (Pipeline.arrRef spec0 0)) (V c (Pipeline.arrRef spec0 1))
        (V c (Pipeline.arrRef spec0 2)) (V c (Pipeline.arrRef spec0 3)) (V c (Pipeline.arrRef spec0 4)))
      (((View.whole main_v30).slice ((win0 5).rect t)).emb y)
  refine block_entry (V c (Pipeline.arrRef spec0 0)) (V c (Pipeline.arrRef spec0 1)) (V c (Pipeline.arrRef spec0 2))
    (V c (Pipeline.arrRef spec0 4)) (V c (Pipeline.arrRef spec0 3))
    (iblk0 V c 0 t) (iblk0 V c 1 t) (iblk0 V c 2 t) (iblk0 V c 4 t) (iblk0 V c 3 t) t.val
    (rows0 V c t) (rows1 V c t) (whole2 V c t) (whole3 V c t) (whole4 V c t)
    ((win0 5).xinj (grid0.coords t) y) (((View.whole main_v30).slice ((win0 5).rect t)).emb y) ?_ ?_
  · show win0_5.index t (0 : Fin 2) * 5000 + 1 * (y 0).val = t.val * 5000 + (y 0).val
    rw [e0]; omega
  · show win0_5.index t (1 : Fin 2) * 128 + 1 * (y 1).val = (y 1).val
    rw [e1]; omega

/-- An entry of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- Row `n` of the output is in the block of point `n / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  refine ⟨⟨(i 0).val / 5000, by show (i 0).val / 5000 < grid0.N; omega⟩, flush0_5 _, ?_⟩
  rw [mem_blk]
  obtain ⟨-, -, -, -, -, -, -, -, -, -, e0, e1⟩ := idx_facts ⟨(i 0).val / 5000, by show (i 0).val / 5000 < grid0.N; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- THE OUTPUT ARRAY AFTER THE TWENTY POINTS: `max (agg · W_l + b_l + h · W_r) 0` of the arrays as the region finds them. -/
theorem final (c : Dev nD) :
    (dat0 (F := Ideal) V c).arrAt 5 cfg0.N =
      Cert.Spec.relu128 (Cert.Spec.sage32 (V c (Pipeline.arrRef spec0 0)) (V c (Pipeline.arrRef spec0 1))
        (V c (Pipeline.arrRef spec0 2)) (V c (Pipeline.arrRef spec0 3)) (V c (Pipeline.arrRef spec0 4))) :=
  (dat0 (F := Ideal) V c).arrAt_eq_of_cover 5 _ (fun t _ => flushed_eq V c t) cover

end Cert.KernelIdeal.Sage0

end
-- ==== Proof.Sage1.lean ====
/-
  Region 1, a layer's dense part with 128 input and 128 output channels and the activation max · 0: with agg, h the two feature arrays, W_l, W_r the 128 × 128 weight
  matrices and b the bias row, the output array after the region is max (agg · W_l + b + h · W_r) 0 as one
  function of the whole arrays. Each of the 20 grid points handles 5000 rows; entry (p, j) of its block is the
  larger of zero and (∑ k, agg (5000 t + p, k) · W_l (k, j)) + b (0, j) + ∑ k, h (5000 t + p, k) · W_r (k, j),
  which is the whole-array function's entry (5000 t + p, j); the 20 row blocks cover the array.
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The kernel's product read at an index -/

theorem klhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem klhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem krhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem krhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix, into the zero accumulator: entry (p, j) is the sum over
    the 128 channels k of a (p, k) · b (k, j). -/
theorem kmatmul_apply {φ₁ φ₂ : FTy} (a : FVec Ideal S5000x128 φ₁) (b : FVec Ideal S128x128 φ₂) (p : Fin 5000) (j : Fin 128) :
    matmul dot_S5000x128_S128x128_S5000x128_1_0_0_1_n_n none a b (constant S5000x128 .f32 0x00000000#32) (ix2 p j)
      = ∑ k : Fin 128, a (ix2 p k) * b (ix2 k j) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun ax => Fin.ext (by
    match ax with
    | ⟨0, _⟩ => exact klhs_0 _ _
    | ⟨1, _⟩ => exact (klhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun ax => Fin.ext (by
    match ax with
    | ⟨0, _⟩ => exact (krhs_0 _ _).trans hk
    | ⟨1, _⟩ => exact krhs_1 _ _)
  rw [el, er]

/-! ## The body's arithmetic at an index -/

/-- Entry (p, j) of what the body stores: the larger of zero and
    (∑ k, v0 (p, k) · vWl (k, j)) + vb (0, j) + ∑ k, v3 (p, k) · vWr (k, j). -/
theorem pay_apply (v0 v3 : Vec Ideal S5000x128 .f32) (vWl vWr : Vec Ideal S128x128 .f32) (vb : Vec Ideal S1x128 .f32)
    (p : Fin 5000) (j : Fin 128) :
    k1_pay1 (F := Ideal) v0 v3 vWl vWr vb (ix2 p j)
      = max (((∑ k : Fin 128, v0 (ix2 p k) * vWl (ix2 k j)) + vb (ix2 (0 : Fin 1) j))
          + ∑ k : Fin 128, v3 (ix2 p k) * vWr (ix2 k j)) (Ideal.ofBits .f32 0x00000000#32) := by
  unfold k1_pay1
  simp only [maximumf_apply, addf_apply, kmatmul_apply, truncf_apply, shapeCast_self, broadcastTo_1b_ab_apply, broadcast_apply]
  rfl

/-! ## The whole-array function at an index -/

theorem rlhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem rlhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rrhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rrhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The whole feature array times a 128 × 128 matrix: entry (n, j) is the sum over the 128 channels k of
    a (n, k) · b (k, j). -/
theorem rdot_apply (a : FVec Ideal S100000x128 .f32) (b : FVec Ideal S128x128 .f32) (n : Fin 100000) (j : Fin 128) :
    Host.dotGeneral Cert.ReferenceIdeal.dot_S100000x128_S128x128_S100000x128_1_0_0_1_n_n none a b (ix2 n j) = ∑ k : Fin 128, a (ix2 n k) * b (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun ax => Fin.ext (by
    match ax with
    | ⟨0, _⟩ => exact rlhs_0 _ _
    | ⟨1, _⟩ => exact (rlhs_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun ax => Fin.ext (by
    match ax with
    | ⟨0, _⟩ => exact (rrhs_0 _ _).trans hk
    | ⟨1, _⟩ => exact rrhs_1 _ _)
  rw [el, er]

/-- The bias row spread over all rows: entry (n, j) is the row's entry j. -/
theorem rbias_apply (hb : Cert.ReferenceIdeal.S1x128.BroadcastsInDim Cert.ReferenceIdeal.S100000x128 ![0, 1])
    (bl : FVec Ideal S1x128 .f32) (n : Fin 100000) (j : Fin 128) :
    broadcastInDim Cert.ReferenceIdeal.S100000x128 ![0, 1] hb bl (ix2 n j) = bl (ix2 (0 : Fin 1) j) :=
  broadcastInDim_apply _ hb bl (ix2 n j) (ix2 (0 : Fin 1) j) (fun a => match a with
    | ⟨0, _⟩ => by show (0 : ℕ) = if (1 : Nat) = 1 then 0 else n.val; rw [if_pos rfl]
    | ⟨1, _⟩ => by show j.val = if (128 : Nat) = 1 then 0 else j.val; rw [if_neg (by decide)])

/-- The zero every entry is compared with. -/
theorem rzero_apply (hb : Cert.ReferenceIdeal.S_.BroadcastsInDim Cert.ReferenceIdeal.S100000x128 ![])
    (i : Cert.ReferenceIdeal.S100000x128.Idx) :
    broadcastInDim Cert.ReferenceIdeal.S100000x128 ![] hb (constant (F := Ideal) Cert.ReferenceIdeal.S_ .f32 0x00000000#32) i
      = Ideal.ofBits .f32 0x00000000#32 := rfl

/-- Entry (n, j) of one layer with its activation: the larger of zero and
    (∑ k, agg (n, k) · wl (k, j)) + bl (0, j) + ∑ k, h (n, k) · wr (k, j). -/
theorem spec_apply (agg h : FVec Ideal S100000x128 .f32) (wl : FVec Ideal S128x128 .f32) (bl : FVec Ideal S1x128 .f32)
    (wr : FVec Ideal S128x128 .f32) (n : Fin 100000) (j : Fin 128) :
    Cert.Spec.relu128 (Cert.Spec.sage128 agg h wl bl wr) (ix2 n j)
      = max (((∑ k : Fin 128, agg (ix2 n k) * wl (ix2 k j)) + bl (ix2 (0 : Fin 1) j))
          + ∑ k : Fin 128, h (ix2 n k) * wr (ix2 k j)) (Ideal.ofBits .f32 0x00000000#32) := by
  unfold Cert.Spec.relu128 Cert.Spec.sage128
  simp only [maximumf_apply, addf_apply, rdot_apply]
  rw [rzero_apply, rbias_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The five input arrays as the region finds them: the aggregated features, the nodes' own features, the two
    weight matrices and the bias row. -/
abbrev aAgg (c : Dev nD) : FVec Ideal S100000x128 .f32 := V c (Pipeline.arrRef spec1 0)
abbrev aH (c : Dev nD) : FVec Ideal S100000x128 .f32 := V c (Pipeline.arrRef spec1 1)
abbrev aWl (c : Dev nD) : FVec Ideal S128x128 .f32 := V c (Pipeline.arrRef spec1 2)
abbrev aB (c : Dev nD) : FVec Ideal S1x128 .f32 := V c (Pipeline.arrRef spec1 3)
abbrev aWr (c : Dev nD) : FVec Ideal S128x128 .f32 := V c (Pipeline.arrRef spec1 4)

/-- The layer's result as one function of the whole arrays. -/
abbrev layer (c : Dev nD) : FVec Ideal S100000x128 .f32 :=
  Cert.Spec.relu128 (Cert.Spec.sage128 (aAgg V c) (aH V c) (aWl V c) (aB V c) (aWr V c))

/-- Where each window's block sits at point t: the row blocks of windows 0, 1 and 5 at block row t, the
    whole-array windows 2, 3, 4 at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_N (t : Fin cfg1.N) : t.val < 20 := by
  have h : cfg1.N = 20 := N_1
  have := t.isLt
  omega

/-- Row p of point t's block of the aggregated features is row 5000 · t + p of the array. -/
theorem blk0_apply (c : Dev nD) (t : Fin cfg1.N) (p : Fin 5000) (k : Fin 128) :
    (iblk1 V c 0 t : Vec Ideal S5000x128 .f32) (ix2 p k)
      = aAgg V c (ix2 (⟨5000 * t.val + p.val, by have := lt_N t; have := p.isLt; omega⟩ : Fin 100000) k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of point t's block of the nodes' own features is row 5000 · t + p of the array. -/
theorem blk1_apply (c : Dev nD) (t : Fin cfg1.N) (p : Fin 5000) (k : Fin 128) :
    (iblk1 V c 1 t : Vec Ideal S5000x128 .f32) (ix2 p k)
      = aH V c (ix2 (⟨5000 * t.val + p.val, by have := lt_N t; have := p.isLt; omega⟩ : Fin 100000) k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The first weight matrix's one block is the whole matrix. -/
theorem blk2_eq (c : Dev nD) (t : Fin cfg1.N) : (iblk1 V c 2 t : Vec Ideal S128x128 .f32) = aWl V c := by
  obtain ⟨-, -, -, -, e0, e1, -⟩ := idx_facts t
  unfold iblk1
  funext y
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's one block is the whole row. -/
theorem blk3_eq (c : Dev nD) (t : Fin cfg1.N) : (iblk1 V c 3 t : Vec Ideal S1x128 .f32) = aB V c := by
  obtain ⟨-, -, -, -, -, -, e0, e1, -⟩ := idx_facts t
  unfold iblk1
  funext y
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's one block is the whole matrix. -/
theorem blk4_eq (c : Dev nD) (t : Fin cfg1.N) : (iblk1 V c 4 t : Vec Ideal S128x128 .f32) = aWr V c := by
  obtain ⟨-, -, -, -, -, -, -, -, e0, e1, -⟩ := idx_facts t
  unfold iblk1
  funext y
  rw [View.read_apply]
  show V c (Pipeline.arrRef spec1 4) _ = V c (Pipeline.arrRef spec1 4) _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- One point's block against the whole-array function: blocks that are rows 5000 · tv … of the two feature
    arrays, and the whole weight matrices and bias row, give at (p, j) the layer's entry (5000 · tv + p, j):
    both sides are the larger of zero and the same two sums over the 128 channels plus the bias entry. -/
theorem point_eq (x0 x1 : Vec Ideal S5000x128 .f32) (x2 : Vec Ideal S128x128 .f32) (x3 : Vec Ideal S1x128 .f32)
    (x4 : Vec Ideal S128x128 .f32) (agg h : FVec Ideal S100000x128 .f32) (wl : FVec Ideal S128x128 .f32)
    (bl : FVec Ideal S1x128 .f32) (wr : FVec Ideal S128x128 .f32) (tv : ℕ) (htv : tv < 20)
    (e0 : ∀ (p : Fin 5000) (k : Fin 128), x0 (ix2 p k) = agg (ix2 (⟨5000 * tv + p.val, by have := p.isLt; omega⟩ : Fin 100000) k))
    (e1 : ∀ (p : Fin 5000) (k : Fin 128), x1 (ix2 p k) = h (ix2 (⟨5000 * tv + p.val, by have := p.isLt; omega⟩ : Fin 100000) k))
    (e2 : x2 = wl) (e3 : x3 = bl) (e4 : x4 = wr) (p : Fin 5000) (j : Fin 128) :
    k1_pay1 (F := Ideal) x0 x1 x2 x4 x3 (ix2 p j)
      = Cert.Spec.relu128 (Cert.Spec.sage128 agg h wl bl wr) (ix2 (⟨5000 * tv + p.val, by have := p.isLt; omega⟩ : Fin 100000) j) := by
  rw [pay_apply, spec_apply, e2, e3, e4]
  simp only [e0, e1]

/-- What point t writes back is block t of the layer's result. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  obtain ⟨-, -, -, -, -, -, -, -, -, -, e0, e1⟩ := idx_facts t
  refine (point_eq (iblk1 V c 0 t) (iblk1 V c 1 t) (iblk1 V c 2 t) (iblk1 V c 3 t) (iblk1 V c 4 t)
    (aAgg V c) (aH V c) (aWl V c) (aB V c) (aWr V c) t.val (lt_N t) (blk0_apply V c t) (blk1_apply V c t)
    (blk2_eq V c t) (blk3_eq V c t) (blk4_eq V c t) p j).trans ?_
  rw [View.read_apply]
  show layer V c _ = layer V c _
  congr 1
  funext a
  apply Fin.ext
  match a with
  | ⟨0, _⟩ => show 5000 * t.val + p.val = win1_5.index t (0 : Fin 2) * 5000 + 1 * p.val; rw [e0]; omega
  | ⟨1, _⟩ => show j.val = win1_5.index t (1 : Fin 2) * 128 + 1 * j.val; rw [e1]; omega

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Row n of the array is in the block of point n / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- After the region the output array holds the layer's result: the blocks the 20 points write back are the
    blocks of that one function, and they cover the array. -/
theorem final (c : Dev nD) :
    (dat1 (F := Ideal) V c).arrAt 5 cfg1.N =
      Cert.Spec.relu128 (Cert.Spec.sage128 (V c (Pipeline.arrRef spec1 0)) (V c (Pipeline.arrRef spec1 1))
        (V c (Pipeline.arrRef spec1 2)) (V c (Pipeline.arrRef spec1 3)) (V c (Pipeline.arrRef spec1 4))) :=
  (dat1 (F := Ideal) V c).arrAt_eq_of_cover 5 (layer V c) (fun t _ => flushed_eq V c t) cover

end Cert.KernelIdeal.Sage1

end
-- ==== Proof.Sage2.lean ====
/-
  Region 2, a layer's dense part with 128 input and 128 output channels and no activation: with agg, h the two
  feature arrays, W_l, W_r the 128 × 128 weight matrices and b the bias row, the output array after the region is
  agg · W_l + b + h · W_r as one function of the whole arrays. Each of the 20 grid points handles 5000 rows;
  entry (p, j) of its block is (∑ k, agg (5000 t + p, k) · W_l (k, j)) + b (0, j) + ∑ k, h (5000 t + p, k) · W_r (k, j),
  which is the whole-array function's entry (5000 t + p, j); the 20 row blocks cover the array.
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The kernel's product read at an index -/

theorem klhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem klhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem krhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem krhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix, into the zero accumulator: entry (p, j) is the sum over
    the 128 channels k of a (p, k) · b (k, j). -/
theorem kmatmul_apply {φ₁ φ₂ : FTy} (a : FVec Ideal S5000x128 φ₁) (b : FVec Ideal S128x128 φ₂) (p : Fin 5000) (j : Fin 128) :
    matmul dot_S5000x128_S128x128_S5000x128_1_0_0_1_n_n none a b (constant S5000x128 .f32 0x00000000#32) (ix2 p j)
      = ∑ k : Fin 128, a (ix2 p k) * b (ix2 k j) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun ax => Fin.ext (by
    match ax with
    | ⟨0, _⟩ => exact klhs_0 _ _
    | ⟨1, _⟩ => exact (klhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun ax => Fin.ext (by
    match ax with
    | ⟨0, _⟩ => exact (krhs_0 _ _).trans hk
    | ⟨1, _⟩ => exact krhs_1 _ _)
  rw [el, er]

/-! ## The body's arithmetic at an index -/

/-- Entry (p, j) of what the body stores:
    (∑ k, v0 (p, k) · vWl (k, j)) + vb (0, j) + ∑ k, v3 (p, k) · vWr (k, j). -/
theorem pay_apply (v0 v3 : Vec Ideal S5000x128 .f32) (vWl vWr : Vec Ideal S128x128 .f32) (vb : Vec Ideal S1x128 .f32)
    (p : Fin 5000) (j : Fin 128) :
    k2_pay1 (F := Ideal) v0 v3 vWl vWr vb (ix2 p j)
      = ((∑ k : Fin 128, v0 (ix2 p k) * vWl (ix2 k j)) + vb (ix2 (0 : Fin 1) j))
          + ∑ k : Fin 128, v3 (ix2 p k) * vWr (ix2 k j) := by
  unfold k2_pay1
  simp only [addf_apply, kmatmul_apply, truncf_apply, shapeCast_self, broadcastTo_1b_ab_apply]

/-! ## The whole arrays' product and the bias row read at an index -/

theorem rlhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem rlhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rrhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rrhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The whole feature array times a 128 × 128 matrix: entry (n, j) is the sum over the 128 channels k of
    a (n, k) · b (k, j). -/
theorem rdot_apply (a : FVec Ideal S100000x128 .f32) (b : FVec Ideal S128x128 .f32) (n : Fin 100000) (j : Fin 128) :
    Host.dotGeneral Cert.ReferenceIdeal.dot_S100000x128_S128x128_S100000x128_1_0_0_1_n_n none a b (ix2 n j) = ∑ k : Fin 128, a (ix2 n k) * b (ix2 k j) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun ax => Fin.ext (by
    match ax with
    | ⟨0, _⟩ => exact rlhs_0 _ _
    | ⟨1, _⟩ => exact (rlhs_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun ax => Fin.ext (by
    match ax with
    | ⟨0, _⟩ => exact (rrhs_0 _ _).trans hk
    | ⟨1, _⟩ => exact rrhs_1 _ _)
  rw [el, er]

/-- The bias row spread over all rows: entry (n, j) is the row's entry j. -/
theorem rbias_apply (hb : Cert.ReferenceIdeal.S1x128.BroadcastsInDim Cert.ReferenceIdeal.S100000x128 ![0, 1])
    (bl : FVec Ideal S1x128 .f32) (n : Fin 100000) (j : Fin 128) :
    broadcastInDim Cert.ReferenceIdeal.S100000x128 ![0, 1] hb bl (ix2 n j) = bl (ix2 (0 : Fin 1) j) :=
  broadcastInDim_apply _ hb bl (ix2 n j) (ix2 (0 : Fin 1) j) (fun a => match a with
    | ⟨0, _⟩ => by show (0 : ℕ) = if (1 : Nat) = 1 then 0 else n.val; rw [if_pos rfl]
    | ⟨1, _⟩ => by show j.val = if (128 : Nat) = 1 then 0 else j.val; rw [if_neg (by decide)])

/-- Entry (n, j) of one layer without activation:
    (∑ k, agg (n, k) · wl (k, j)) + bl (0, j) + ∑ k, h (n, k) · wr (k, j). -/
theorem spec_apply (agg h : FVec Ideal S100000x128 .f32) (wl : FVec Ideal S128x128 .f32) (bl : FVec Ideal S1x128 .f32)
    (wr : FVec Ideal S128x128 .f32) (n : Fin 100000) (j : Fin 128) :
    Cert.Spec.sage128 agg h wl bl wr (ix2 n j)
      = ((∑ k : Fin 128, agg (ix2 n k) * wl (ix2 k j)) + bl (ix2 (0 : Fin 1) j))
          + ∑ k : Fin 128, h (ix2 n k) * wr (ix2 k j) := by
  unfold Cert.Spec.sage128
  simp only [addf_apply, rdot_apply]
  rw [rbias_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The five input arrays as the region finds them: the aggregated features, the nodes' own features, the two
    weight matrices and the bias row. -/
abbrev aAgg (c : Dev nD) : FVec Ideal S100000x128 .f32 := V c (Pipeline.arrRef spec2 0)
abbrev aH (c : Dev nD) : FVec Ideal S100000x128 .f32 := V c (Pipeline.arrRef spec2 1)
abbrev aWl (c : Dev nD) : FVec Ideal S128x128 .f32 := V c (Pipeline.arrRef spec2 2)
abbrev aB (c : Dev nD) : FVec Ideal S1x128 .f32 := V c (Pipeline.arrRef spec2 3)
abbrev aWr (c : Dev nD) : FVec Ideal S128x128 .f32 := V c (Pipeline.arrRef spec2 4)

/-- The layer's result as one function of the whole arrays. -/
abbrev layer (c : Dev nD) : FVec Ideal S100000x128 .f32 :=
  Cert.Spec.sage128 (aAgg V c) (aH V c) (aWl V c) (aB V c) (aWr V c)

/-- Where each window's block sits at point t: the row blocks of windows 0, 1 and 5 at block row t, the
    whole-array windows 2, 3, 4 at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_N (t : Fin cfg2.N) : t.val < 20 := by
  have h : cfg2.N = 20 := N_2
  have := t.isLt
  omega

/-- Row p of point t's block of the aggregated features is row 5000 · t + p of the array. -/
theorem blk0_apply (c : Dev nD) (t : Fin cfg2.N) (p : Fin 5000) (k : Fin 128) :
    (iblk2 V c 0 t : Vec Ideal S5000x128 .f32) (ix2 p k)
      = aAgg V c (ix2 (⟨5000 * t.val + p.val, by have := lt_N t; have := p.isLt; omega⟩ : Fin 100000) k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Row p of point t's block of the nodes' own features is row 5000 · t + p of the array. -/
theorem blk1_apply (c : Dev nD) (t : Fin cfg2.N) (p : Fin 5000) (k : Fin 128) :
    (iblk2 V c 1 t : Vec Ideal S5000x128 .f32) (ix2 p k)
      = aH V c (ix2 (⟨5000 * t.val + p.val, by have := lt_N t; have := p.isLt; omega⟩ : Fin 100000) k) := by
  obtain ⟨-, -, e0, e1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

/-- The first weight matrix's one block is the whole matrix. -/
theorem blk2_eq (c : Dev nD) (t : Fin cfg2.N) : (iblk2 V c 2 t : Vec Ideal S128x128 .f32) = aWl V c := by
  obtain ⟨-, -, -, -, e0, e1, -⟩ := idx_facts t
  unfold iblk2
  funext y
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The bias row's one block is the whole row. -/
theorem blk3_eq (c : Dev nD) (t : Fin cfg2.N) : (iblk2 V c 3 t : Vec Ideal S1x128 .f32) = aB V c := by
  obtain ⟨-, -, -, -, -, -, e0, e1, -⟩ := idx_facts t
  unfold iblk2
  funext y
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The second weight matrix's one block is the whole matrix. -/
theorem blk4_eq (c : Dev nD) (t : Fin cfg2.N) : (iblk2 V c 4 t : Vec Ideal S128x128 .f32) = aWr V c := by
  obtain ⟨-, -, -, -, -, -, -, -, e0, e1, -⟩ := idx_facts t
  unfold iblk2
  funext y
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- One point's block against the whole-array function: blocks that are rows 5000 · tv … of the two feature
    arrays, and the whole weight matrices and bias row, give at (p, j) the layer's entry (5000 · tv + p, j):
    both sides are the same two sums over the 128 channels plus the bias entry. -/
theorem point_eq (x0 x1 : Vec Ideal S5000x128 .f32) (x2 : Vec Ideal S128x128 .f32) (x3 : Vec Ideal S1x128 .f32)
    (x4 : Vec Ideal S128x128 .f32) (agg h : FVec Ideal S100000x128 .f32) (wl : FVec Ideal S128x128 .f32)
    (bl : FVec Ideal S1x128 .f32) (wr : FVec Ideal S128x128 .f32) (tv : ℕ) (htv : tv < 20)
    (e0 : ∀ (p : Fin 5000) (k : Fin 128), x0 (ix2 p k) = agg (ix2 (⟨5000 * tv + p.val, by have := p.isLt; omega⟩ : Fin 100000) k))
    (e1 : ∀ (p : Fin 5000) (k : Fin 128), x1 (ix2 p k) = h (ix2 (⟨5000 * tv + p.val, by have := p.isLt; omega⟩ : Fin 100000) k))
    (e2 : x2 = wl) (e3 : x3 = bl) (e4 : x4 = wr) (p : Fin 5000) (j : Fin 128) :
    k2_pay1 (F := Ideal) x0 x1 x2 x4 x3 (ix2 p j)
      = Cert.Spec.sage128 agg h wl bl wr (ix2 (⟨5000 * tv + p.val, by have := p.isLt; omega⟩ : Fin 100000) j) := by
  rw [pay_apply, spec_apply, e2, e3, e4]
  simp only [e0, e1]

/-- What point t writes back is block t of the layer's result. -/
theorem flushed_eq (c : Dev nD) (t : Fin cfg2.N) :
    (dat2 (F := Ideal) V c).flushed 5 t = ((cfg2.win 5).blk t).view.read (Elt Ideal) (layer V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x128) hz, View.ld_unit_zero (S := S1x128) hz]
  funext y
  obtain ⟨p, j, rfl⟩ : ∃ (p : Fin 5000) (j : Fin 128), y = ix2 p j := ⟨y 0, y 1, eq_ix2 y⟩
  obtain ⟨-, -, -, -, -, -, -, -, -, -, e0, e1⟩ := idx_facts t
  refine (point_eq (iblk2 V c 0 t) (iblk2 V c 1 t) (iblk2 V c 2 t) (iblk2 V c 3 t) (iblk2 V c 4 t)
    (aAgg V c) (aH V c) (aWl V c) (aB V c) (aWr V c) t.val (lt_N t) (blk0_apply V c t) (blk1_apply V c t)
    (blk2_eq V c t) (blk3_eq V c t) (blk4_eq V c t) p j).trans ?_
  rw [View.read_apply]
  show layer V c _ = layer V c _
  congr 1
  funext a
  apply Fin.ext
  match a with
  | ⟨0, _⟩ => show 5000 * t.val + p.val = win2_5.index t (0 : Fin 2) * 5000 + 1 * p.val; rw [e0]; omega
  | ⟨1, _⟩ => show j.val = win2_5.index t (1 : Fin 2) * 128 + 1 * j.val; rw [e1]; omega

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v58).slice (win2_5.rect t)).set ↔ _
  rw [View.set_slice_whole, Rect.mem_set_unit]
  exact Iff.rfl

/-- Row n of the array is in the block of point n / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 128 ≤ (i 1).val ∧ (i 1).val < win2_5.index t (1 : Fin 2) * 128 + 128; rw [e1]; omega

/-- After the region the output array holds the layer's result: the blocks the 20 points write back are the
    blocks of that one function, and they cover the array. -/
theorem final (c : Dev nD) :
    (dat2 (F := Ideal) V c).arrAt 5 cfg2.N =
      Cert.Spec.sage128 (V c (Pipeline.arrRef spec2 0)) (V c (Pipeline.arrRef spec2 1))
        (V c (Pipeline.arrRef spec2 2)) (V c (Pipeline.arrRef spec2 3)) (V c (Pipeline.arrRef spec2 4)) :=
  (dat2 (F := Ideal) V c).arrAt_eq_of_cover 5 (layer V c) (fun t _ => flushed_eq V c t) cover

end Cert.KernelIdeal.Sage2

end
-- ==== Proof.Sage3.lean ====
/-
  The dense part of the last layer, with 128 input channels and one output channel, over the extended reals:
  the output column is `2 · tanh (agg · W_l + b + h · W_r)`, row by row.

  The region cuts the 100000 rows into 20 blocks of 5000. At a point the body forms, for each row `p` of its block,
  `2 · tanh ((∑ k, agg (p, k) · W_l (k, 0)) + b + ∑ k, h (p, k) · W_r (k, 0))`; the layer's whole-array function at row
  `n` is the same expression of the whole arrays; row `p` of block `t` is row `5000 t + p` of the array, the weight
  columns and the bias are whole at every point, and the 20 blocks cover the rows. So the output array ends holding
  the whole-array function of the arrays the region finds.
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Sage3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction read at an index

The block's product `[5000,128] · [128,1]` and the whole array's `[100000,128] · [128,1]` contract the left
operand's axis 1 with the right operand's axis 0: at output index `(p, j)` and contraction index `k` the operands
are read at `(p, k)` and `(k, j)`. -/

theorem klhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem klhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem krhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem krhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The block's product into the zero accumulator at `(p, j)` is `∑ k, x (p, k) * w (k, j)`. -/
theorem kdot_apply {φ₁ φ₂ : FTy} (x : FVec Ideal S5000x128 φ₁) (w : FVec Ideal S128x1 φ₂) (p : Fin 5000) (j : Fin 1) :
    matmul dot_S5000x128_S128x1_S5000x1_1_0_0_1_n_n none x w (constant S5000x1 .f32 0x00000000#32) (ix2 p j)
      = ∑ k : Fin 128, x (ix2 p k) * w (ix2 k j) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p j) ((ValueIdx.contrEquiv1 dot_S5000x128_S128x1_S5000x1_1_0_0_1_n_n 128 rfl rfl).symm k) = ix2 p k := funext fun a => Fin.ext (by
    match a with
    | ⟨0, _⟩ => exact klhs_0 _ _
    | ⟨1, _⟩ => exact (klhs_1 _ _).trans hk)
  have er : dot_S5000x128_S128x1_S5000x1_1_0_0_1_n_n.rhsIdx (ix2 p j) ((ValueIdx.contrEquiv1 dot_S5000x128_S128x1_S5000x1_1_0_0_1_n_n 128 rfl rfl).symm k) = ix2 k j := funext fun a => Fin.ext (by
    match a with
    | ⟨0, _⟩ => exact (krhs_0 _ _).trans hk
    | ⟨1, _⟩ => exact krhs_1 _ _)
  rw [el, er]

theorem rlhs_0 (i : S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 0).val = (i 0).val := by
  unfold DotDims.lhsIdx
  rw [dif_neg (show ¬(0 : Fin S100000x128.rank) ∈ Cert.ReferenceIdeal.dot_S100000x128_S128x1_S100000x1_1_0_0_1_n_n.lhsBatch by decide), dif_pos (show (0 : Fin S100000x128.rank) ∈ Cert.ReferenceIdeal.dot_S100000x128_S128x1_S100000x1_1_0_0_1_n_n.lhsNonContracting by decide)]
  rfl
theorem rlhs_1 (i : S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 1).val = (q ⟨0, by decide⟩).val :=
  Cert.ReferenceIdeal.dot_S100000x128_S128x1_S100000x1_1_0_0_1_n_n.lhsIdx_val_of_single rfl i q
theorem rrhs_0 (i : S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 0).val = (q ⟨0, by decide⟩).val :=
  Cert.ReferenceIdeal.dot_S100000x128_S128x1_S100000x1_1_0_0_1_n_n.rhsIdx_val_of_single rfl i q
theorem rrhs_1 (i : S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 1).val = (i 1).val := by
  unfold DotDims.rhsIdx
  rw [dif_neg (show ¬(1 : Fin S128x1.rank) ∈ Cert.ReferenceIdeal.dot_S100000x128_S128x1_S100000x1_1_0_0_1_n_n.rhsBatch by decide), dif_pos (show (1 : Fin S128x1.rank) ∈ Cert.ReferenceIdeal.dot_S100000x128_S128x1_S100000x1_1_0_0_1_n_n.rhsNonContracting by decide)]
  rfl

/-- The whole array's product at `(n, j)` is `∑ k, x (n, k) * w (k, j)`. -/
theorem rdot_apply (x : FVec Ideal S100000x128 .f32) (w : FVec Ideal S128x1 .f32) (n : Fin 100000) (j : Fin 1) :
    Host.dotGeneral Cert.ReferenceIdeal.dot_S100000x128_S128x1_S100000x1_1_0_0_1_n_n none x w (ix2 n j)
      = ∑ k : Fin 128, x (ix2 n k) * w (ix2 k j) := by
  simp only [Host.dotGeneral]
  rw [Ideal.dotGeneral_apply, ← Equiv.sum_comp (ValueIdx.contrEquiv1 Cert.ReferenceIdeal.dot_S100000x128_S128x1_S100000x1_1_0_0_1_n_n 128 rfl rfl).symm]
  refine Finset.sum_congr rfl fun k _ => ?_
  have hk := ValueIdx.contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 n j) ((ValueIdx.contrEquiv1 Cert.ReferenceIdeal.dot_S100000x128_S128x1_S100000x1_1_0_0_1_n_n 128 rfl rfl).symm k) = ix2 n k := funext fun a => Fin.ext (by
    match a with
    | ⟨0, _⟩ => exact rlhs_0 _ _
    | ⟨1, _⟩ => exact (rlhs_1 _ _).trans hk)
  have er : Cert.ReferenceIdeal.dot_S100000x128_S128x1_S100000x1_1_0_0_1_n_n.rhsIdx (ix2 n j) ((ValueIdx.contrEquiv1 Cert.ReferenceIdeal.dot_S100000x128_S128x1_S100000x1_1_0_0_1_n_n 128 rfl rfl).symm k) = ix2 k j := funext fun a => Fin.ext (by
    match a with
    | ⟨0, _⟩ => exact (rrhs_0 _ _).trans hk
    | ⟨1, _⟩ => exact rrhs_1 _ _)
  rw [el, er]

/-! ## The body's arithmetic and the whole-array function, entry by entry -/

/-- The one-entry bias read through its broadcast down the 5000 rows. -/
theorem kbias_apply (b : FVec Ideal S1x1 .f32) (p : Fin 5000) (j : Fin 1) :
    broadcastTo S5000x1 b broadcasts_S1x1_S5000x1 (ix2 p j) = b (ix2 0 0) :=
  broadcastTo_apply b broadcasts_S1x1_S5000x1 (ix2 p j) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The same bias read through the host's broadcast down the 100000 rows. -/
theorem rbias_apply (b : FVec Ideal S1x1 .f32) (n : Fin 100000) (j : Fin 1) :
    broadcastInDim S100000x1 ![0, 1] Cert.ReferenceIdeal.Gen.bcast_S1x1_S100000x1_0_1 b (ix2 n j) = b (ix2 0 0) :=
  broadcastInDim_apply _ Cert.ReferenceIdeal.Gen.bcast_S1x1_S100000x1_0_1 b (ix2 n j) (ix2 0 0) (fun a => match a with
    | ⟨0, _⟩ => by show 0 = if (1 : Nat) = 1 then 0 else _; rw [if_pos rfl]
    | ⟨1, _⟩ => by show 0 = if (1 : Nat) = 1 then 0 else _; rw [if_pos rfl])

/-- The entry `(p, j)` of what the body stores: twice the hyperbolic tangent of
    `(∑ k, v0 (p, k) * wl (k, j)) + b + ∑ k, v3 (p, k) * wr (k, j)`. -/
theorem pay_apply (v0 v3 : Vec Ideal S5000x128 .f32) (wl wr : Vec Ideal S128x1 .f32) (b : Vec Ideal S1x1 .f32)
    (p : Fin 5000) (j : Fin 1) :
    k3_pay1 (F := Ideal) v0 v3 wl wr b (ix2 p j)
      = Ideal.ofBits .f32 0x40000000#32 * Ideal.tanh (((∑ k : Fin 128, v0 (ix2 p k) * wl (ix2 k j)) + b (ix2 0 0))
          + ∑ k : Fin 128, v3 (ix2 p k) * wr (ix2 k j)) := by
  unfold k3_pay1
  simp only [shapeCast_self]
  refine congrArg (fun z : EReal => Ideal.ofBits .f32 0x40000000#32 * Ideal.tanh z) ?_
  refine congrArg₂ (fun a b : EReal => a + b) (congrArg₂ (fun a b : EReal => a + b) ?_ ?_) ?_
  · exact kdot_apply _ _ p j
  · exact kbias_apply b p j
  · exact kdot_apply _ _ p j

/-- The entry `(n, j)` of the layer's whole-array function: the same expression of the whole arrays' rows. -/
theorem spec_apply (agg h : FVec Ideal S100000x128 .f32) (wl : FVec Ideal S128x1 .f32) (b : FVec Ideal S1x1 .f32)
    (wr : FVec Ideal S128x1 .f32) (n : Fin 100000) (j : Fin 1) :
    Cert.Spec.tanh2 (Cert.Spec.sage1 agg h wl b wr) (ix2 n j)
      = Ideal.ofBits .f32 0x40000000#32 * Ideal.tanh (((∑ k : Fin 128, agg (ix2 n k) * wl (ix2 k j)) + b (ix2 0 0))
          + ∑ k : Fin 128, h (ix2 n k) * wr (ix2 k j)) := by
  unfold Cert.Spec.tanh2 Cert.Spec.sage1
  refine congrArg₂ (fun a b : EReal => a * b) ?_ (congrArg Ideal.tanh ?_)
  · exact broadcastInDim_apply _ Cert.ReferenceIdeal.Gen.bcast_S_S100000x1 _ (ix2 n j) ix0 (fun a => a.elim0)
  · refine congrArg₂ (fun a b : EReal => a + b) (congrArg₂ (fun a b : EReal => a + b) ?_ ?_) ?_
    · exact rdot_apply agg wl n j
    · exact rbias_apply b n j
    · exact rdot_apply h wr n j

/-! ## From the blocks to the array

Point `t` of the 20 handles rows `5000 t … 5000 t + 4999`: the two feature windows and the output move with `t`
along the rows, the two weight columns and the bias are whole at every point. -/

theorem hz : (![0, 0] : Fin 2 → Nat) = fun _ => 0 := funext fun a => by fin_cases a <;> rfl

/-- The block index of each window at each of the 20 points. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The aggregated features' block at point `t` is rows `5000 t …` of the array. -/
theorem iblk0_apply (c : Dev nD) (t : Fin cfg3.N) (p : Fin 5000) (k : Fin 128) (n : Fin 100000)
    (hn : n.val = 5000 * t.val + p.val) :
    (iblk3 V c 0 t : Vec Ideal S5000x128 .f32) (ix2 p k)
      = (V c (Pipeline.arrRef spec3 0) : S100000x128.Idx → EReal) (ix2 n k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 128 + 1 * k.val = k.val; rw [e1]; omega

/-- The node's own features' block at point `t` is rows `5000 t …` of the array. -/
theorem iblk1_apply (c : Dev nD) (t : Fin cfg3.N) (p : Fin 5000) (k : Fin 128) (n : Fin 100000)
    (hn : n.val = 5000 * t.val + p.val) :
    (iblk3 V c 1 t : Vec Ideal S5000x128 .f32) (ix2 p k)
      = (V c (Pipeline.arrRef spec3 1) : S100000x128.Idx → EReal) (ix2 n k) := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 128 + 1 * k.val = k.val; rw [e1]; omega

/-- The first weight column is whole at every point. -/
theorem iblk2_apply (c : Dev nD) (t : Fin cfg3.N) (k : Fin 128) (j : Fin 1) :
    (iblk3 V c 2 t : Vec Ideal S128x1 .f32) (ix2 k j)
      = (V c (Pipeline.arrRef spec3 2) : S128x1.Idx → EReal) (ix2 k j) := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * k.val = k.val; rw [e0]; omega
  | ⟨1, _⟩ => show win3_2.index t (1 : Fin 2) * 1 + 1 * j.val = j.val; rw [e1]; omega

/-- The bias is whole at every point. -/
theorem iblk3_apply (c : Dev nD) (t : Fin cfg3.N) (i j : Fin 1) :
    (iblk3 V c 3 t : Vec Ideal S1x1 .f32) (ix2 i j)
      = (V c (Pipeline.arrRef spec3 3) : S1x1.Idx → EReal) (ix2 i j) := by
  obtain ⟨-, -, -, -, -, -, e0, e1, -⟩ := idx_facts t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * i.val = i.val; rw [e0]; omega
  | ⟨1, _⟩ => show win3_3.index t (1 : Fin 2) * 1 + 1 * j.val = j.val; rw [e1]; omega

/-- The second weight column is whole at every point. -/
theorem iblk4_apply (c : Dev nD) (t : Fin cfg3.N) (k : Fin 128) (j : Fin 1) :
    (iblk3 V c 4 t : Vec Ideal S128x1 .f32) (ix2 k j)
      = (V c (Pipeline.arrRef spec3 4) : S128x1.Idx → EReal) (ix2 k j) := by
  obtain ⟨-, -, -, -, -, -, -, -, e0, e1, -⟩ := idx_facts t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 128 + 1 * k.val = k.val; rw [e0]; omega
  | ⟨1, _⟩ => show win3_4.index t (1 : Fin 2) * 1 + 1 * j.val = j.val; rw [e1]; omega

/-- Blocks that are the array's rows `n = 5000 t + p` (features) and the whole weight columns and bias give, at
    row `p` of the body's result, the layer's whole-array function at row `n`. -/
theorem point_eq (x0 x1 : Vec Ideal S5000x128 .f32) (x2 : Vec Ideal S128x1 .f32) (x3 : Vec Ideal S1x1 .f32)
    (x4 : Vec Ideal S128x1 .f32) (A0 A1 : FVec Ideal S100000x128 .f32) (A2 : FVec Ideal S128x1 .f32)
    (A3 : FVec Ideal S1x1 .f32) (A4 : FVec Ideal S128x1 .f32) (p : Fin 5000) (j : Fin 1) (n : Fin 100000)
    (h0 : ∀ k : Fin 128, x0 (ix2 p k) = A0 (ix2 n k)) (h1 : ∀ k : Fin 128, x1 (ix2 p k) = A1 (ix2 n k))
    (h2 : ∀ k : Fin 128, x2 (ix2 k j) = A2 (ix2 k j)) (h3 : x3 (ix2 0 0) = A3 (ix2 0 0))
    (h4 : ∀ k : Fin 128, x4 (ix2 k j) = A4 (ix2 k j)) :
    k3_pay1 (F := Ideal) x0 x1 x2 x4 x3 (ix2 p j) = Cert.Spec.tanh2 (Cert.Spec.sage1 A0 A1 A2 A3 A4) (ix2 n j) := by
  rw [pay_apply, spec_apply, h3]
  simp only [h0, h1, h2, h4]

/-- The layer's whole-array function of the arrays as the region finds them. -/
abbrev G (c : Dev nD) : FVec Ideal S100000x1 .f32 :=
  Cert.Spec.tanh2 (Cert.Spec.sage1 (V c (Pipeline.arrRef spec3 0)) (V c (Pipeline.arrRef spec3 1))
    (V c (Pipeline.arrRef spec3 2)) (V c (Pipeline.arrRef spec3 3)) (V c (Pipeline.arrRef spec3 4)))

/-- What point `t` writes back is block `t` of that function. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S128x1) hz, View.ld_unit_zero (S := S1x1) hz]
  obtain ⟨-, -, -, -, -, -, -, -, -, -, e0, e1⟩ := idx_facts t
  have ht : t.val < 20 := Nat.lt_of_lt_of_eq t.isLt (show cfg3.N = 20 from N_3)
  funext y
  have hy0 : (y 0).val < 5000 := (y 0).isLt
  have hy1 : (y 1).val < 1 := (y 1).isLt
  show k3_pay1 (F := Ideal) (iblk3 V c 0 t) (iblk3 V c 1 t) (iblk3 V c 2 t) (iblk3 V c 4 t) (iblk3 V c 3 t)
      ((cfg3.win 5).xinj (grid3.coords t) y) = G V c (((cfg3.win 5).blk t).view.emb y)
  have hL : (cfg3.win 5).xinj (grid3.coords t) y = ix2 (⟨(y 0).val, hy0⟩ : Fin 5000) (⟨(y 1).val, hy1⟩ : Fin 1) :=
    funext fun a => Fin.ext (by match a with | ⟨0, _⟩ => rfl | ⟨1, _⟩ => rfl)
  have hR : ((cfg3.win 5).blk t).view.emb y
      = ix2 (⟨5000 * t.val + (y 0).val, by omega⟩ : Fin 100000) (⟨(y 1).val, hy1⟩ : Fin 1) :=
    funext fun a => Fin.ext (by
      match a with
      | ⟨0, _⟩ => show win3_5.index t (0 : Fin 2) * 5000 + 1 * (y 0).val = 5000 * t.val + (y 0).val; rw [e0]; omega
      | ⟨1, _⟩ => show win3_5.index t (1 : Fin 2) * 1 + 1 * (y 1).val = (y 1).val; rw [e1]; omega)
  rw [hL, hR]
  exact point_eq (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) ⟨(y 0).val, hy0⟩ ⟨(y 1).val, hy1⟩
    ⟨5000 * t.val + (y 0).val, by omega⟩
    (fun k => iblk0_apply V c t _ k _ rfl) (fun k => iblk1_apply V c t _ k _ rfl)
    (fun k => iblk2_apply V c t k _) (iblk3_apply V c t 0 0) (fun k => iblk4_apply V c t k _)

/-- An index of the output array is in point `t`'s block iff each coordinate is in the block's range on its axis. -/
theorem mem_blk (t : Fin cfg3.N) (i : S100000x1.Idx) :
    i ∈ ((cfg3.win 5).blk t).view.set ↔ ∀ a : Fin 2, win3_5.index t a * S5000x1.size a ≤ (i a).val
      ∧ (i a).val < win3_5.index t a * S5000x1.size a + S5000x1.size a := by
  show i ∈ ((View.whole main_v72).slice (win3_5.rect t)).set ↔ _
  rw [View.set_slice_whole, Rect.mem_set_unit]
  exact Iff.rfl

/-- Row `n` is in the block of point `n / 5000`. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  have hlt : (i 0).val / 5000 < cfg3.N := by rw [show cfg3.N = 20 from N_3]; omega
  obtain ⟨-, -, -, -, -, -, -, -, -, -, e0, e1⟩ := idx_facts ⟨(i 0).val / 5000, hlt⟩
  refine ⟨⟨(i 0).val / 5000, hlt⟩, flush3_5 _, ?_⟩
  rw [mem_blk]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, hlt⟩ (1 : Fin 2) * 1 ≤ (i 1).val
      ∧ (i 1).val < win3_5.index ⟨(i 0).val / 5000, hlt⟩ (1 : Fin 2) * 1 + 1
    rw [e1]
    omega

/-- The output array after the region is the layer's whole-array function of the arrays the region finds. -/
theorem final (c : Dev nD) :
    (dat3 (F := Ideal) V c).arrAt 5 cfg3.N =
      Cert.Spec.tanh2 (Cert.Spec.sage1 (V c (Pipeline.arrRef spec3 0)) (V c (Pipeline.arrRef spec3 1))
        (V c (Pipeline.arrRef spec3 2)) (V c (Pipeline.arrRef spec3 3)) (V c (Pipeline.arrRef spec3 4))) :=
  (dat3 (F := Ideal) V c).arrAt_eq_of_cover 5 (G V c) (fun t _ => flushed_eq V c t) cover

end Cert.KernelIdeal.Sage3

end
-- ==== Proof.PoolKPay.lean ====
/-
  Region 4, the per-graph sum pooling: the arithmetic of one grid point, entry by entry, over the extended reals.

  The body builds the one-hot matrix of a block of 5000 graph numbers (entry (p, g) is one when row p's number is g,
  else zero) and multiplies its transpose with the block of embeddings, with the block of advantages and with a column
  of ones; each product is added to what the carried output block held. Here: the one-hot entry is the indicator of
  "the word is g"; entry (g, k) of each product is the indicator-weighted sum over the block's 5000 rows; what each
  control case of the body leaves in the three output blocks is that step applied to zeros (first point) or to the
  previous contents (later points); and a sum over the 100000 nodes is the sum of the twenty blocks' sums
  (node 5000 s + p is row p of block s).
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.Lib.KernelVsHost
import Idealize.ShloMosaic.Lib.StableHlo.Predicate
import Idealize.ShloMosaic.PureOps.Ideal.Laws
import Idealize.ShloMosaic.Lib.IdealHost
import Idealize.ShloMosaic.Lib.Tactic

set_option maxRecDepth 16384

noncomputable section

namespace Cert.KernelIdeal.PoolK

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec (oh ohSum)

/-! ## The one-hot matrix, entry by entry -/

/-- The comparison bit "the word is the lane number", widened to a word and converted, is the indicator. -/
theorem onehot_val (w : BitVec 32) (g : ℕ) :
    (FloatOps.sitofp (F := Ideal) .f32 ((IntOp.cmpi .eq w (BitVec.ofNat 32 g)).setWidth 32) : Ideal .f32) = oh w g := by
  unfold Cert.Spec.oh
  show ((((IntOp.cmpi .eq w (BitVec.ofNat 32 g)).setWidth 32).toInt : ℝ) : EReal) = _
  rw [toInt_setWidth_bit]
  by_cases h : w = BitVec.ofNat 32 g
  · rw [if_pos h, StableHlo.Predicate.cmpi_eq_iff.mpr h]; simp
  · rw [if_neg h, eq_zero_of_ne_one (fun h' => h (StableHlo.Predicate.cmpi_eq_iff.mp h'))]; simp

/-- The column of graph numbers spread over 64 lanes reads the column's row. -/
theorem col_spread_apply (x : IVec S5000x1 32) (p : Fin 5000) (g : Fin 64) :
    broadcastTo S5000x64 x broadcasts_S5000x1_S5000x64 (ix2 p g) = x (ix2 p 0) :=
  broadcastTo_apply x broadcasts_S5000x1_S5000x64 (ix2 p g) (ix2 p 0) (fun a => by
    match a with
    | ⟨0, _⟩ => show p.val = if (5000 : Nat) = 1 then 0 else p.val; rw [if_neg (by decide)]
    | ⟨1, _⟩ => show 0 = if (1 : Nat) = 1 then 0 else g.val; rw [if_pos rfl])

/-- The lane counter at (p, g) is the word of g. -/
theorem lane_apply (p : Fin 5000) (g : Fin 64) :
    iota .tc S5000x64 32 [1] iota_S5000x64_d1_w32 (ix2 p g) = BitVec.ofNat 32 g.val :=
  iota_single_apply .tc S5000x64 32 1 iota_S5000x64_d1_w32 (ix2 p g)

/-- Entry (p, g) of the one-hot matrix: one when row p's graph number is g, else zero. -/
theorem onehot_apply (v3 : Vec Ideal S5000x1 .i32) (p : Fin 5000) (g : Fin 64) :
    k4_pay4 (F := Ideal) v3 (ix2 p g) = oh (v3 (ix2 p 0)) g.val := by
  unfold k4_pay4
  show (FloatOps.sitofp (F := Ideal) .f32 ((IntOp.cmpi .eq
      (broadcastTo S5000x64 (shapeCast S5000x1 v3 shapeCasts_S5000x1_S5000x1) broadcasts_S5000x1_S5000x64 (ix2 p g))
      (iota .tc S5000x64 32 [1] iota_S5000x64_d1_w32 (ix2 p g))).setWidth 32) : Ideal .f32) = _
  rw [col_spread_apply, lane_apply, shapeCast_self]
  exact onehot_val _ _

/-! ## The two products at an entry -/

theorem lhsW_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhsW_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhsW_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhsW_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product contracting the 5000 rows of both factors, into a zero accumulator: entry (g, k) is the sum over the rows
    p of a (p, g) * b (p, k). -/
theorem prodW_apply (a : FVec Ideal S5000x64 .bf16) (b : FVec Ideal S5000x128 .bf16) (g : Fin 64) (k : Fin 128) :
    matmul dot_S5000x64_S5000x128_S64x128_0_0_1_1_n_n none a b (constant S64x128 .f32 0x00000000#32) (ix2 g k)
      = ∑ p : Fin 5000, a (ix2 p g) * b (ix2 p k) := by
  show FloatOps.matmul dot_S5000x64_S5000x128_S64x128_0_0_1_1_n_n none a b (constant S64x128 .f32 0x00000000#32) (ix2 g k) = _
  rw [Ideal.matmul_constant_zero_apply, ← Equiv.sum_comp (contrEquiv1 dot_S5000x64_S5000x128_S64x128_0_0_1_1_n_n 5000 rfl rfl).symm]
  refine Finset.sum_congr rfl fun p _ => ?_
  have hk := contrEquiv1_symm_val dot_S5000x64_S5000x128_S64x128_0_0_1_1_n_n 5000 rfl rfl p
  have el : dot_S5000x64_S5000x128_S64x128_0_0_1_1_n_n.lhsIdx (ix2 g k) ((contrEquiv1 dot_S5000x64_S5000x128_S64x128_0_0_1_1_n_n 5000 rfl rfl).symm p) = ix2 p g := funext fun x => Fin.ext (by
    match x with
    | ⟨0, _⟩ => exact (lhsW_0 _ _).trans hk
    | ⟨1, _⟩ => exact lhsW_1 _ _)
  have er : dot_S5000x64_S5000x128_S64x128_0_0_1_1_n_n.rhsIdx (ix2 g k) ((contrEquiv1 dot_S5000x64_S5000x128_S64x128_0_0_1_1_n_n 5000 rfl rfl).symm p) = ix2 p k := funext fun x => Fin.ext (by
    match x with
    | ⟨0, _⟩ => exact (rhsW_0 _ _).trans hk
    | ⟨1, _⟩ => exact rhsW_1 _ _)
  rw [el, er]

theorem lhsC_0 (j : S64x1.Idx) (q : dot_S5000x64_S5000x1_S64x1_0_0_1_1_n_n.contr.Idx) :
    (dot_S5000x64_S5000x1_S64x1_0_0_1_1_n_n.lhsIdx j q 0).val = (q ⟨0, by decide⟩).val :=
  dot_S5000x64_S5000x1_S64x1_0_0_1_1_n_n.lhsIdx_val_of_single rfl j q
theorem lhsC_1 (j : S64x1.Idx) (q : dot_S5000x64_S5000x1_S64x1_0_0_1_1_n_n.contr.Idx) :
    (dot_S5000x64_S5000x1_S64x1_0_0_1_1_n_n.lhsIdx j q 1).val = (j 0).val := by
  unfold DotDims.lhsIdx
  rw [dif_neg (show ¬(1 : Fin S5000x64.rank) ∈ dot_S5000x64_S5000x1_S64x1_0_0_1_1_n_n.lhsBatch by decide), dif_pos (show (1 : Fin S5000x64.rank) ∈ dot_S5000x64_S5000x1_S64x1_0_0_1_1_n_n.lhsNonContracting by decide)]
  rfl
theorem rhsC_0 (j : S64x1.Idx) (q : dot_S5000x64_S5000x1_S64x1_0_0_1_1_n_n.contr.Idx) :
    (dot_S5000x64_S5000x1_S64x1_0_0_1_1_n_n.rhsIdx j q 0).val = (q ⟨0, by decide⟩).val :=
  dot_S5000x64_S5000x1_S64x1_0_0_1_1_n_n.rhsIdx_val_of_single rfl j q
theorem rhsC_1 (j : S64x1.Idx) (q : dot_S5000x64_S5000x1_S64x1_0_0_1_1_n_n.contr.Idx) :
    (dot_S5000x64_S5000x1_S64x1_0_0_1_1_n_n.rhsIdx j q 1).val = (j 1).val := by
  unfold DotDims.rhsIdx
  rw [dif_neg (show ¬(1 : Fin S5000x1.rank) ∈ dot_S5000x64_S5000x1_S64x1_0_0_1_1_n_n.rhsBatch by decide), dif_pos (show (1 : Fin S5000x1.rank) ∈ dot_S5000x64_S5000x1_S64x1_0_0_1_1_n_n.rhsNonContracting by decide)]
  rfl

/-- The product contracting the 5000 rows of both factors, into a zero accumulator: entry (g, k) is the sum over the rows
    p of a (p, g) * b (p, k). -/
theorem prodC_apply (a : FVec Ideal S5000x64 .bf16) (b : FVec Ideal S5000x1 .bf16) (g : Fin 64) (k : Fin 1) :
    matmul dot_S5000x64_S5000x1_S64x1_0_0_1_1_n_n none a b (constant S64x1 .f32 0x00000000#32) (ix2 g k)
      = ∑ p : Fin 5000, a (ix2 p g) * b (ix2 p k) := by
  show FloatOps.matmul dot_S5000x64_S5000x1_S64x1_0_0_1_1_n_n none a b (constant S64x1 .f32 0x00000000#32) (ix2 g k) = _
  rw [Ideal.matmul_constant_zero_apply, ← Equiv.sum_comp (contrEquiv1 dot_S5000x64_S5000x1_S64x1_0_0_1_1_n_n 5000 rfl rfl).symm]
  refine Finset.sum_congr rfl fun p _ => ?_
  have hk := contrEquiv1_symm_val dot_S5000x64_S5000x1_S64x1_0_0_1_1_n_n 5000 rfl rfl p
  have el : dot_S5000x64_S5000x1_S64x1_0_0_1_1_n_n.lhsIdx (ix2 g k) ((contrEquiv1 dot_S5000x64_S5000x1_S64x1_0_0_1_1_n_n 5000 rfl rfl).symm p) = ix2 p g := funext fun x => Fin.ext (by
    match x with
    | ⟨0, _⟩ => exact (lhsC_0 _ _).trans hk
    | ⟨1, _⟩ => exact lhsC_1 _ _)
  have er : dot_S5000x64_S5000x1_S64x1_0_0_1_1_n_n.rhsIdx (ix2 g k) ((contrEquiv1 dot_S5000x64_S5000x1_S64x1_0_0_1_1_n_n 5000 rfl rfl).symm p) = ix2 p k := funext fun x => Fin.ext (by
    match x with
    | ⟨0, _⟩ => exact (rhsC_0 _ _).trans hk
    | ⟨1, _⟩ => exact rhsC_1 _ _)
  rw [el, er]

/-! ## What one point adds, entry by entry -/

/-- The embeddings' step: the previous entry plus the indicator-weighted sum of the block's rows. -/
theorem parts_step_apply (v3 : Vec Ideal S5000x1 .i32) (v11 : Vec Ideal S5000x128 .f32) (v18 : Vec Ideal S64x128 .f32)
    (g : Fin 64) (k : Fin 128) :
    k4_pay5 (F := Ideal) v3 v11 v18 (ix2 g k)
      = v18 (ix2 g k) + ∑ p : Fin 5000, oh (v3 (ix2 p 0)) g.val * v11 (ix2 p k) := by
  unfold k4_pay5
  show (shapeCast S64x128 v18 shapeCasts_S64x128_S64x128) (ix2 g k)
      + matmul dot_S5000x64_S5000x128_S64x128_0_0_1_1_n_n none (k4_pay4 (F := Ideal) v3)
          (truncf .bf16 (shapeCast S5000x128 v11 shapeCasts_S5000x128_S5000x128) bitsLt_bf16_f32)
          (constant S64x128 .f32 0x00000000#32) (ix2 g k) = _
  rw [shapeCast_self, shapeCast_self, prodW_apply]
  refine congrArg _ (Finset.sum_congr rfl fun p _ => ?_)
  rw [onehot_apply]
  rfl

/-- The advantages' step. -/
theorem adv_step_apply (v3 : Vec Ideal S5000x1 .i32) (v14 : Vec Ideal S5000x1 .f32) (v23 : Vec Ideal S64x1 .f32)
    (g : Fin 64) (k : Fin 1) :
    k4_pay6 (F := Ideal) v3 v14 v23 (ix2 g k)
      = v23 (ix2 g k) + ∑ p : Fin 5000, oh (v3 (ix2 p 0)) g.val * v14 (ix2 p k) := by
  unfold k4_pay6
  show (shapeCast S64x1 v23 shapeCasts_S64x1_S64x1) (ix2 g k)
      + matmul dot_S5000x64_S5000x1_S64x1_0_0_1_1_n_n none (k4_pay4 (F := Ideal) v3)
          (truncf .bf16 (shapeCast S5000x1 v14 shapeCasts_S5000x1_S5000x1) bitsLt_bf16_f32)
          (constant S64x1 .f32 0x00000000#32) (ix2 g k) = _
  rw [shapeCast_self, shapeCast_self, prodC_apply]
  refine congrArg _ (Finset.sum_congr rfl fun p _ => ?_)
  rw [onehot_apply]
  rfl

/-- The word 0x3F80 of the 16-bit format is one. -/
theorem one_bf16 : Ideal.ofBits .bf16 0x3F80#16 = 1 := Ideal.ofBits_one_bf16

/-- The count's step: the column of ones in place of a block. -/
theorem cnt_step_apply (v3 : Vec Ideal S5000x1 .i32) (v28 : Vec Ideal S64x1 .f32) (g : Fin 64) (k : Fin 1) :
    k4_pay7 (F := Ideal) v3 v28 (ix2 g k) = v28 (ix2 g k) + ∑ p : Fin 5000, oh (v3 (ix2 p 0)) g.val * 1 := by
  unfold k4_pay7
  show (shapeCast S64x1 v28 shapeCasts_S64x1_S64x1) (ix2 g k)
      + matmul dot_S5000x64_S5000x1_S64x1_0_0_1_1_n_n none (k4_pay4 (F := Ideal) v3)
          (broadcast S5000x1 (Scalar.ofBits (F := Ideal) .bf16 0x3F80#16))
          (constant S64x1 .f32 0x00000000#32) (ix2 g k) = _
  rw [shapeCast_self, prodC_apply]
  refine congrArg _ (Finset.sum_congr rfl fun p _ => ?_)
  rw [onehot_apply]
  exact congrArg _ one_bf16

/-! ## What each case of the body leaves in the three carried blocks

At the first point the body stores zeros and then adds the point's contribution to them; at every other point it adds
the contribution to what the point before left. Window 3 carries the embeddings' sums, window 4 the counts, window 5
the advantages' sums. -/

open Idealize.ShloMosaic.Tactic

section Pieces
variable {F : FTy → Type} [FloatOps F]

theorem hz2 : (![0, 0] : Fin 2 → Nat) = fun _ => 0 := funext fun a => by fin_cases a <;> rfl

theorem pieceA3 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : cond4_0 i) (x0 : Vec F S5000x128 .f32) (x1 : Vec F S5000x1 .f32) (x2 : Vec F S5000x1 .i32) :
    out4_A_3 c i a1 h1 a2 h2 a3 h3 a4 h4 a5 h5 a6 h6 hc x0 x1 x2 = k4_pay5 x2 x0 (k4_pay1 (F := F)) := by
  unfold out4_A_3
  rw [View.read_writes_eq_canon _ _ _ (cover4_A_3 c i a1 h1 a2 h2 a3 h3 a4 h4 a5 h5 a6 h6 hc x0 x1 x2)]
  unfold kernelRun4_A
  dsimp only
  sl_unfold_words
  rw [View.canon_cons_unit_zero (S := S64x128) hz2, View.readCov_unit_zero (S := S64x128) _ hz2]
  simp only [View.readAt_eq_ld, h1.read_unread, h2.read_unread, h3.read_unread, View.ld_unit_zero (S := S5000x128) hz2, View.ld_unit_zero (S := S5000x1) hz2, View.ld_unit_zero (S := S64x128) hz2, View.ld_unit_zero (S := S64x1) hz2]

theorem pieceA4 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : cond4_0 i) (x0 : Vec F S5000x128 .f32) (x1 : Vec F S5000x1 .f32) (x2 : Vec F S5000x1 .i32) :
    out4_A_4 c i a1 h1 a2 h2 a3 h3 a4 h4 a5 h5 a6 h6 hc x0 x1 x2 = k4_pay7 x2 (k4_pay2 (F := F)) := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S64x1) hz2, View.readCov_unit_zero (S := S64x1) _ hz2]
  simp only [View.readAt_eq_ld, h1.read_unread, h2.read_unread, h3.read_unread, View.ld_unit_zero (S := S5000x128) hz2, View.ld_unit_zero (S := S5000x1) hz2, View.ld_unit_zero (S := S64x128) hz2, View.ld_unit_zero (S := S64x1) hz2]

theorem pieceA5 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : cond4_0 i) (x0 : Vec F S5000x128 .f32) (x1 : Vec F S5000x1 .f32) (x2 : Vec F S5000x1 .i32) :
    out4_A_5 c i a1 h1 a2 h2 a3 h3 a4 h4 a5 h5 a6 h6 hc x0 x1 x2 = k4_pay6 x2 x1 (k4_pay3 (F := F)) := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S64x1) hz2, View.readCov_unit_zero (S := S64x1) _ hz2]
  simp only [View.readAt_eq_ld, h1.read_unread, h2.read_unread, h3.read_unread, View.ld_unit_zero (S := S5000x128) hz2, View.ld_unit_zero (S := S5000x1) hz2, View.ld_unit_zero (S := S64x128) hz2, View.ld_unit_zero (S := S64x1) hz2]

theorem pieceB3 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : ¬cond4_0 i) (x0 : Vec F S5000x128 .f32) (x1 : Vec F S5000x1 .f32) (x2 : Vec F S5000x1 .i32) (xo3 : Vec F S64x128 .f32) (xo4 : Vec F S64x1 .f32) (xo5 : Vec F S64x1 .f32) :
    out4_B_3 c i a1 h1 a2 h2 a3 h3 a4 h4 a5 h5 a6 h6 hc x0 x1 x2 xo3 xo4 xo5 = k4_pay5 x2 x0 xo3 := by
  unfold out4_B_3
  rw [View.read_writes_eq_canon _ _ _ (cover4_B_3 c i a1 h1 a2 h2 a3 h3 a4 h4 a5 h5 a6 h6 hc x0 x1 x2 xo3 xo4 xo5)]
  unfold kernelRun4_B
  dsimp only
  sl_unfold_words
  rw [View.canon_unit_zero (S := S64x128) hz2]
  simp only [View.readAt_eq_ld, h1.read_unread, h2.read_unread, h3.read_unread, h4.read_unread, h5.read_unread, h6.read_unread, View.ld_unit_zero (S := S5000x128) hz2, View.ld_unit_zero (S := S5000x1) hz2, View.ld_unit_zero (S := S64x128) hz2, View.ld_unit_zero (S := S64x1) hz2]

theorem pieceB4 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : ¬cond4_0 i) (x0 : Vec F S5000x128 .f32) (x1 : Vec F S5000x1 .f32) (x2 : Vec F S5000x1 .i32) (xo3 : Vec F S64x128 .f32) (xo4 : Vec F S64x1 .f32) (xo5 : Vec F S64x1 .f32) :
    out4_B_4 c i a1 h1 a2 h2 a3 h3 a4 h4 a5 h5 a6 h6 hc x0 x1 x2 xo3 xo4 xo5 = k4_pay7 x2 xo4 := by
  unfold out4_B_4
  rw [View.read_writes_eq_canon _ _ _ (cover4_B_4 c i a1 h1 a2 h2 a3 h3 a4 h4 a5 h5 a6 h6 hc x0 x1 x2 xo3 xo4 xo5)]
  unfold kernelRun4_B
  dsimp only
  sl_unfold_words
  rw [View.canon_unit_zero (S := S64x1) hz2]
  simp only [View.readAt_eq_ld, h1.read_unread, h2.read_unread, h3.read_unread, h4.read_unread, h5.read_unread, h6.read_unread, View.ld_unit_zero (S := S5000x128) hz2, View.ld_unit_zero (S := S5000x1) hz2, View.ld_unit_zero (S := S64x128) hz2, View.ld_unit_zero (S := S64x1) hz2]

theorem pieceB5 (c : Dev nD) (i : grid4.Coords) (a1 : Memref sig .tc .vmem S5000x128 .f32) (h1 : a1.IsWhole) (a2 : Memref sig .tc .vmem S5000x1 .f32) (h2 : a2.IsWhole) (a3 : Memref sig .tc .vmem S5000x1 .i32) (h3 : a3.IsWhole) (a4 : Memref sig .tc .vmem S64x128 .f32) (h4 : a4.IsWhole) (a5 : Memref sig .tc .vmem S64x1 .f32) (h5 : a5.IsWhole) (a6 : Memref sig .tc .vmem S64x1 .f32) (h6 : a6.IsWhole) (hc : ¬cond4_0 i) (x0 : Vec F S5000x128 .f32) (x1 : Vec F S5000x1 .f32) (x2 : Vec F S5000x1 .i32) (xo3 : Vec F S64x128 .f32) (xo4 : Vec F S64x1 .f32) (xo5 : Vec F S64x1 .f32) :
    out4_B_5 c i a1 h1 a2 h2 a3 h3 a4 h4 a5 h5 a6 h6 hc x0 x1 x2 xo3 xo4 xo5 = k4_pay6 x2 x1 xo5 := by
  unfold out4_B_5
  rw [View.read_writes_eq_canon _ _ _ (cover4_B_5 c i a1 h1 a2 h2 a3 h3 a4 h4 a5 h5 a6 h6 hc x0 x1 x2 xo3 xo4 xo5)]
  unfold kernelRun4_B
  dsimp only
  sl_unfold_words
  rw [View.canon_unit_zero (S := S64x1) hz2]
  simp only [View.readAt_eq_ld, h1.read_unread, h2.read_unread, h3.read_unread, h4.read_unread, h5.read_unread, h6.read_unread, View.ld_unit_zero (S := S5000x128) hz2, View.ld_unit_zero (S := S5000x1) hz2, View.ld_unit_zero (S := S64x128) hz2, View.ld_unit_zero (S := S64x1) hz2]

end Pieces

/-! ## The 100000 nodes as 20 blocks of 5000 rows -/

/-- Row p of block s is node 5000 s + p. -/
def node (s : ℕ) (hs : s < 20) (p : Fin 5000) : Fin 100000 := ⟨5000 * s + p.val, by have := p.isLt; omega⟩

/-- A sum over the nodes is the sum over the blocks of the sums over their rows. -/
theorem sum_nodes (f : Fin 100000 → EReal) :
    ∑ n : Fin 100000, f n = ∑ s : Fin 20, ∑ p : Fin 5000, f (node s.val s.isLt p) := by
  rw [← Fintype.sum_prod_type' (f := fun (s : Fin 20) (p : Fin 5000) => f (node s.val s.isLt p))]
  symm
  refine Fintype.sum_equiv (finProdFinEquiv.trans (finCongr (by norm_num : 20 * 5000 = 100000))) _ _ ?_
  rintro ⟨s, p⟩
  refine congrArg f (Fin.ext ?_)
  show 5000 * s.val + p.val = p.val + 5000 * s.val
  omega

/-- The contribution of block s to entry (g, k): the indicator-weighted sum of its 5000 rows (nothing past the
    twentieth block). -/
def blockSum (C : ℕ) (gi : IVec (⟨2, ![100000, 1]⟩ : Shape) 32) (u : (⟨2, ![100000, C]⟩ : Shape).Idx → EReal)
    (g : Fin 64) (k : Fin C) (s : ℕ) : EReal :=
  if hs : s < 20 then ∑ p : Fin 5000, oh (gi (ix2 (node s hs p) 0)) g.val * u (ix2 (node s hs p) k) else 0

/-- The indicator-weighted sum over all nodes is the sum of the twenty blocks' contributions. -/
theorem ohSum_eq_blocks (C : ℕ) (gi : IVec (⟨2, ![100000, 1]⟩ : Shape) 32) (u : (⟨2, ![100000, C]⟩ : Shape).Idx → EReal)
    (g : Fin 64) (k : Fin C) :
    ohSum C gi u (ix2 g k) = ∑ s ∈ Finset.range 20, blockSum C gi u g k s := by
  show ∑ n : Fin 100000, oh (gi (ix2 n 0)) g.val * u (ix2 n k) = _
  rw [sum_nodes (fun n => oh (gi (ix2 n 0)) g.val * u (ix2 n k)), Finset.sum_range]
  exact Finset.sum_congr rfl fun s _ => by rw [blockSum, dif_pos s.isLt]

end Cert.KernelIdeal.PoolK

end
-- ==== Proof.PoolK.lean ====
/-
  Region 4, the per-graph sum pooling: the three output arrays after the run.

  The blocks (0, 0) of windows 3, 4 and 5 are carried from point to point. After point n each holds, at entry (g, k),
  the sum of the contributions of the blocks 0 .. n of nodes: zeros plus the first block's contribution at point 0,
  the previous contents plus block n + 1's contribution afterwards (induction on n). The twentieth point writes the
  blocks back, and each block is its whole array, so the arrays end holding the indicator-weighted sums over all
  100000 nodes: the embeddings' sums (window 3), the counts (window 4) and the advantages' sums (window 5).
-/
import proofs.«418596_j16673063043609_2_alg».proof.Proof.PoolKPay
import Idealize.ShloMosaic.Lib.Pipeline.Value
import Idealize.ShloMosaic.Lib.ValueIdx
import Idealize.ShloMosaic.PureOps.Ideal.Laws

set_option maxRecDepth 16384

noncomputable section

namespace Cert.KernelIdeal.PoolK

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec (oh ohSum)

/-! ## The region's arrays and blocks, at their literal types -/

variable (V : (c : Dev nD) → (b : Ref sig .tc) → Buf (Elt Ideal) ((c : Thread nD τ).loc b))

/-- The embeddings, the advantages and the graph numbers as the region finds them. -/
abbrev embArr (c : Dev nD) : Vec Ideal S100000x128 .f32 := V c (Pipeline.arrRef spec4 0)
abbrev advArr (c : Dev nD) : Vec Ideal S100000x1 .f32 := V c (Pipeline.arrRef spec4 1)
abbrev gidArr (c : Dev nD) : Vec Ideal S100000x1 .i32 := V c (Pipeline.arrRef spec4 2)
/-- Their blocks of 5000 rows at point t. -/
abbrev embBlk (c : Dev nD) (t : Fin cfg4.N) : Vec Ideal S5000x128 .f32 := iblk4 V c 0 t
abbrev advBlk (c : Dev nD) (t : Fin cfg4.N) : Vec Ideal S5000x1 .f32 := iblk4 V c 1 t
abbrev gidBlk (c : Dev nD) (t : Fin cfg4.N) : Vec Ideal S5000x1 .i32 := iblk4 V c 2 t

theorem tlt (t : Fin cfg4.N) : t.val < 20 := lt_of_lt_of_eq t.isLt (show cfg4.N = 20 from N_4)

/-- Point t reads block (t, 0) of each input. -/
theorem idx4 : ∀ t : Fin cfg4.N, (win4_0.index t 0 = t.val ∧ win4_0.index t 1 = 0)
    ∧ (win4_1.index t 0 = t.val ∧ win4_1.index t 1 = 0) ∧ (win4_2.index t 0 = t.val ∧ win4_2.index t 1 = 0) :=
  (by decide +kernel : ∀ t : Fin grid4.N, (win4_0.index t 0 = t.val ∧ win4_0.index t 1 = 0)
    ∧ (win4_1.index t 0 = t.val ∧ win4_1.index t 1 = 0) ∧ (win4_2.index t 0 = t.val ∧ win4_2.index t 1 = 0))

/-- Row p of the embeddings' block at point t is node 5000 t + p. -/
theorem embBlk_apply (c : Dev nD) (t : Fin cfg4.N) (p : Fin 5000) (k : Fin 128) :
    embBlk V c t (ix2 p k) = embArr V c (ix2 (node t.val (tlt t) p) k) := by
  have hi := (idx4 t).1
  show ((cfg4.win 0).blk t).view.read (Elt Ideal) (V c (Pipeline.arrRef spec4 0)) (ix2 p k) = _
  rw [View.read_apply]
  show embArr V c _ = embArr V c _
  refine congrArg (embArr V c) (funext fun a => Fin.ext ?_)
  match a with
  | ⟨0, _⟩ => show win4_0.index t 0 * 5000 + 1 * p.val = 5000 * t.val + p.val; rw [hi.1]; omega
  | ⟨1, _⟩ => show win4_0.index t 1 * 128 + 1 * k.val = k.val; rw [hi.2]; omega

theorem advBlk_apply (c : Dev nD) (t : Fin cfg4.N) (p : Fin 5000) (k : Fin 1) :
    advBlk V c t (ix2 p k) = advArr V c (ix2 (node t.val (tlt t) p) k) := by
  have hi := (idx4 t).2.1
  show ((cfg4.win 1).blk t).view.read (Elt Ideal) (V c (Pipeline.arrRef spec4 1)) (ix2 p k) = _
  rw [View.read_apply]
  show advArr V c _ = advArr V c _
  refine congrArg (advArr V c) (funext fun a => Fin.ext ?_)
  match a with
  | ⟨0, _⟩ => show win4_1.index t 0 * 5000 + 1 * p.val = 5000 * t.val + p.val; rw [hi.1]; omega
  | ⟨1, _⟩ => show win4_1.index t 1 * 1 + 1 * k.val = k.val; rw [hi.2]; omega

theorem gidBlk_apply (c : Dev nD) (t : Fin cfg4.N) (p : Fin 5000) (k : Fin 1) :
    gidBlk V c t (ix2 p k) = gidArr V c (ix2 (node t.val (tlt t) p) k) := by
  have hi := (idx4 t).2.2
  show ((cfg4.win 2).blk t).view.read (Elt Ideal) (V c (Pipeline.arrRef spec4 2)) (ix2 p k) = _
  rw [View.read_apply]
  show gidArr V c _ = gidArr V c _
  refine congrArg (gidArr V c) (funext fun a => Fin.ext ?_)
  match a with
  | ⟨0, _⟩ => show win4_2.index t 0 * 5000 + 1 * p.val = 5000 * t.val + p.val; rw [hi.1]; omega
  | ⟨1, _⟩ => show win4_2.index t 1 * 1 + 1 * k.val = k.val; rw [hi.2]; omega

/-! ## The carried blocks, point by point -/

theorem t19lt : 19 < cfg4.N := by rw [show cfg4.N = 20 from N_4]; decide
/-- The last point of the grid. -/
abbrev t19 : Fin cfg4.N := ⟨19, t19lt⟩

/-! ### Window 3: the embeddings' sums -/

/-- One point adds its block's contribution to what the carried block held. -/
theorem parts_point (c : Dev nD) (t : Fin cfg4.N) (acc : Vec Ideal S64x128 .f32) (g : Fin 64) (k : Fin 128) :
    k4_pay5 (F := Ideal) (gidBlk V c t) (embBlk V c t) acc (ix2 g k) = acc (ix2 g k) + blockSum 128 (gidArr V c) (embArr V c) g k t.val := by
  refine (parts_step_apply (gidBlk V c t) (embBlk V c t) acc g k).trans ?_
  unfold blockSum
  rw [dif_pos (tlt t)]
  refine congrArg _ (Finset.sum_congr rfl fun p _ => ?_)
  exact congrArg₂ (· * ·) (congrArg (fun w => oh w g.val) (gidBlk_apply V c t p 0)) (embBlk_apply V c t p k)

/-- The first point starts from the zeros it stores. -/
theorem parts_first (c : Dev nD) (h : 0 < cfg4.N) :
    (outsAt4 (F := Ideal) V c 0 h).1 = k4_pay5 (F := Ideal) (gidBlk V c ⟨0, h⟩) (embBlk V c ⟨0, h⟩) (k4_pay1 (F := Ideal)) := by
  rw [outsAt4_A V c ⟨0, h⟩ (Nat.zero_mod 20)]
  dsimp only
  exact pieceA3 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) ((hcond4_0 ⟨0, h⟩).mpr (Nat.zero_mod 20)) (iblk4 V c 0 ⟨0, h⟩) (iblk4 V c 1 ⟨0, h⟩) (iblk4 V c 2 ⟨0, h⟩)

/-- Every later point starts from what the point before left. -/
theorem parts_next (c : Dev nD) (n : ℕ) (h : n + 1 < cfg4.N) :
    (outsAt4 (F := Ideal) V c (n + 1) h).1
      = k4_pay5 (F := Ideal) (gidBlk V c ⟨n + 1, h⟩) (embBlk V c ⟨n + 1, h⟩) (outsAt4 (F := Ideal) V c n (Nat.lt_of_succ_lt h)).1 := by
  have hN : n + 1 < 20 := lt_of_lt_of_eq h (show cfg4.N = 20 from N_4)
  have hB : ¬(⟨n + 1, h⟩ : Fin cfg4.N).val % 20 = 0 := by dsimp only; omega
  rw [outsAt4_B V c ⟨n + 1, h⟩ hB]
  dsimp only
  exact pieceB3 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (fun h' => hB ((hcond4_0 ⟨n + 1, h⟩).mp h')) (iblk4 V c 0 ⟨n + 1, h⟩) (iblk4 V c 1 ⟨n + 1, h⟩) (iblk4 V c 2 ⟨n + 1, h⟩)
    (outsAt4 (F := Ideal) V c n (Nat.lt_of_succ_lt h)).1 (outsAt4 (F := Ideal) V c n (Nat.lt_of_succ_lt h)).2.1
    (outsAt4 (F := Ideal) V c n (Nat.lt_of_succ_lt h)).2.2

/-- After point n the carried block holds the contributions of blocks 0 to n. -/
theorem parts_inv (c : Dev nD) : ∀ (n : ℕ) (h : n < cfg4.N) (g : Fin 64) (k : Fin 128),
    (outsAt4 (F := Ideal) V c n h).1 (ix2 g k) = ∑ s ∈ Finset.range (n + 1), blockSum 128 (gidArr V c) (embArr V c) g k s
  | 0, h, g, k => by
    refine (congrFun (parts_first V c h) (ix2 g k)).trans ?_
    refine (parts_point V c ⟨0, h⟩ (k4_pay1 (F := Ideal)) g k).trans ?_
    rw [Finset.sum_range_succ, Finset.sum_range_zero, zero_add]
    show Ideal.ofBits .f32 0x00000000#32 + _ = _
    rw [Ideal.ofBits_zero_f32, zero_add]
  | n + 1, h, g, k => by
    refine (congrFun (parts_next V c n h) (ix2 g k)).trans ?_
    refine (parts_point V c ⟨n + 1, h⟩ (outsAt4 (F := Ideal) V c n (Nat.lt_of_succ_lt h)).1 g k).trans ?_
    rw [Finset.sum_range_succ _ (n + 1)]
    exact congrArg (· + blockSum 128 (gidArr V c) (embArr V c) g k (n + 1)) (parts_inv c n (Nat.lt_of_succ_lt h) g k)

/-- The sums over all 100000 nodes, as contents of the output array. -/
abbrev partsRes (c : Dev nD) : Buf (Elt Ideal) ((c : Thread nD τ).loc main_v73_0) := ohSum 128 (gidArr V c) (embArr V c)

/-- After the last point the carried block holds them. -/
theorem parts_last (c : Dev nD) (n : ℕ) (h : n < cfg4.N) (hn : n = 19) :
    (outsAt4 (F := Ideal) V c n h).1 = partsRes V c := by
  subst hn
  funext j
  obtain ⟨g, k, rfl⟩ : ∃ (g : Fin 64) (k : Fin 128), j = ix2 g k := ⟨j 0, j 1, eq_ix2 j⟩
  refine (parts_inv V c 19 h g k).trans ?_
  exact (ohSum_eq_blocks 128 (gidArr V c) (embArr V c) g k).symm

/-- The one write-back, at the last point, writes the carried block: block (0, 0) of the array, which is the array. -/
theorem parts_flushed (c : Dev nD) (t : Fin cfg4.N) (hf : (cfg4.win 3).flush t = true) :
    (dat4 (F := Ideal) V c).flushed 3 t = ((cfg4.win 3).blk t).view.read (Elt Ideal) (partsRes V c) := by
  have h19 : t.val = 19 := by have := (flush4_3 t).mp hf; have := tlt t; omega
  obtain rfl : t = t19 := Fin.ext h19
  show (cfg4.win 3).cut (grid4.coords t19) ((dat4 (F := Ideal) V c).after 3 t19) = _
  rw [after4_3, parts_last V c _ _ rfl]
  have hz' : (fun a => win4_3.index t19 a * main_v73_0.ty.shape.size a) = fun _ => 0 := funext fun a => by fin_cases a <;> decide
  exact (Memref.read_access_unit_zero (Elt Ideal) main_v73_0 hz' (fun a => by rw [congrFun hz' a]; simp) (partsRes V c)).symm

/-- Region 4 leaves the embeddings' sums over all 100000 nodes in output array 3. -/
theorem parts (c : Dev nD) :
    (dat4 (F := Ideal) V c).arrAt 3 cfg4.N = Cert.Spec.ohSum 128 (V c (Pipeline.arrRef spec4 2)) (V c (Pipeline.arrRef spec4 0)) :=
  (dat4 (F := Ideal) V c).arrAt_eq_of_cover 3 (partsRes V c) (parts_flushed V c) fun i =>
    ⟨t19, (flush4_3 t19).mpr rfl, by
      show i ∈ ((View.whole main_v73_0).slice (win4_3.rect t19)).set
      rw [View.set_slice_whole, Rect.mem_set_unit]
      intro a
      have h0 : (i 0 : Nat) < 64 := (i 0).isLt
      have h1 : (i 1 : Nat) < 128 := (i 1).isLt
      match a with
      | ⟨0, _⟩ => show win4_3.index t19 0 * win4_3.size 0 ≤ (i 0 : Nat) ∧ (i 0 : Nat) < win4_3.index t19 0 * win4_3.size 0 + win4_3.xsize (grid4.coords t19) 0
                  rw [show win4_3.index t19 0 * win4_3.size 0 = 0 from by decide +kernel, show win4_3.xsize (grid4.coords t19) 0 = 64 from by decide +kernel]; omega
      | ⟨1, _⟩ => show win4_3.index t19 1 * win4_3.size 1 ≤ (i 1 : Nat) ∧ (i 1 : Nat) < win4_3.index t19 1 * win4_3.size 1 + win4_3.xsize (grid4.coords t19) 1
                  rw [show win4_3.index t19 1 * win4_3.size 1 = 0 from by decide +kernel, show win4_3.xsize (grid4.coords t19) 1 = 128 from by decide +kernel]; omega⟩

/-! ### Window 4: the counts -/

/-- One point adds its block's contribution to what the carried block held. -/
theorem cnt_point (c : Dev nD) (t : Fin cfg4.N) (acc : Vec Ideal S64x1 .f32) (g : Fin 64) (k : Fin 1) :
    k4_pay7 (F := Ideal) (gidBlk V c t) acc (ix2 g k) = acc (ix2 g k) + blockSum 1 (gidArr V c) (fun _ => 1) g k t.val := by
  refine (cnt_step_apply (gidBlk V c t) acc g k).trans ?_
  unfold blockSum
  rw [dif_pos (tlt t)]
  refine congrArg _ (Finset.sum_congr rfl fun p _ => ?_)
  exact congrArg (fun w => oh w g.val * 1) (gidBlk_apply V c t p 0)

/-- The first point starts from the zeros it stores. -/
theorem cnt_first (c : Dev nD) (h : 0 < cfg4.N) :
    (outsAt4 (F := Ideal) V c 0 h).2.1 = k4_pay7 (F := Ideal) (gidBlk V c ⟨0, h⟩) (k4_pay2 (F := Ideal)) := by
  rw [outsAt4_A V c ⟨0, h⟩ (Nat.zero_mod 20)]
  dsimp only
  exact pieceA4 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) ((hcond4_0 ⟨0, h⟩).mpr (Nat.zero_mod 20)) (iblk4 V c 0 ⟨0, h⟩) (iblk4 V c 1 ⟨0, h⟩) (iblk4 V c 2 ⟨0, h⟩)

/-- Every later point starts from what the point before left. -/
theorem cnt_next (c : Dev nD) (n : ℕ) (h : n + 1 < cfg4.N) :
    (outsAt4 (F := Ideal) V c (n + 1) h).2.1
      = k4_pay7 (F := Ideal) (gidBlk V c ⟨n + 1, h⟩) (outsAt4 (F := Ideal) V c n (Nat.lt_of_succ_lt h)).2.1 := by
  have hN : n + 1 < 20 := lt_of_lt_of_eq h (show cfg4.N = 20 from N_4)
  have hB : ¬(⟨n + 1, h⟩ : Fin cfg4.N).val % 20 = 0 := by dsimp only; omega
  rw [outsAt4_B V c ⟨n + 1, h⟩ hB]
  dsimp only
  exact pieceB4 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (fun h' => hB ((hcond4_0 ⟨n + 1, h⟩).mp h')) (iblk4 V c 0 ⟨n + 1, h⟩) (iblk4 V c 1 ⟨n + 1, h⟩) (iblk4 V c 2 ⟨n + 1, h⟩)
    (outsAt4 (F := Ideal) V c n (Nat.lt_of_succ_lt h)).1 (outsAt4 (F := Ideal) V c n (Nat.lt_of_succ_lt h)).2.1
    (outsAt4 (F := Ideal) V c n (Nat.lt_of_succ_lt h)).2.2

/-- After point n the carried block holds the contributions of blocks 0 to n. -/
theorem cnt_inv (c : Dev nD) : ∀ (n : ℕ) (h : n < cfg4.N) (g : Fin 64) (k : Fin 1),
    (outsAt4 (F := Ideal) V c n h).2.1 (ix2 g k) = ∑ s ∈ Finset.range (n + 1), blockSum 1 (gidArr V c) (fun _ => 1) g k s
  | 0, h, g, k => by
    refine (congrFun (cnt_first V c h) (ix2 g k)).trans ?_
    refine (cnt_point V c ⟨0, h⟩ (k4_pay2 (F := Ideal)) g k).trans ?_
    rw [Finset.sum_range_succ, Finset.sum_range_zero, zero_add]
    show Ideal.ofBits .f32 0x00000000#32 + _ = _
    rw [Ideal.ofBits_zero_f32, zero_add]
  | n + 1, h, g, k => by
    refine (congrFun (cnt_next V c n h) (ix2 g k)).trans ?_
    refine (cnt_point V c ⟨n + 1, h⟩ (outsAt4 (F := Ideal) V c n (Nat.lt_of_succ_lt h)).2.1 g k).trans ?_
    rw [Finset.sum_range_succ _ (n + 1)]
    exact congrArg (· + blockSum 1 (gidArr V c) (fun _ => 1) g k (n + 1)) (cnt_inv c n (Nat.lt_of_succ_lt h) g k)

/-- The sums over all 100000 nodes, as contents of the output array. -/
abbrev cntRes (c : Dev nD) : Buf (Elt Ideal) ((c : Thread nD τ).loc main_v73_1) := ohSum 1 (gidArr V c) (fun _ => 1)

/-- After the last point the carried block holds them. -/
theorem cnt_last (c : Dev nD) (n : ℕ) (h : n < cfg4.N) (hn : n = 19) :
    (outsAt4 (F := Ideal) V c n h).2.1 = cntRes V c := by
  subst hn
  funext j
  obtain ⟨g, k, rfl⟩ : ∃ (g : Fin 64) (k : Fin 1), j = ix2 g k := ⟨j 0, j 1, eq_ix2 j⟩
  refine (cnt_inv V c 19 h g k).trans ?_
  exact (ohSum_eq_blocks 1 (gidArr V c) (fun _ => 1) g k).symm

/-- The one write-back, at the last point, writes the carried block: block (0, 0) of the array, which is the array. -/
theorem cnt_flushed (c : Dev nD) (t : Fin cfg4.N) (hf : (cfg4.win 4).flush t = true) :
    (dat4 (F := Ideal) V c).flushed 4 t = ((cfg4.win 4).blk t).view.read (Elt Ideal) (cntRes V c) := by
  have h19 : t.val = 19 := by have := (flush4_4 t).mp hf; have := tlt t; omega
  obtain rfl : t = t19 := Fin.ext h19
  show (cfg4.win 4).cut (grid4.coords t19) ((dat4 (F := Ideal) V c).after 4 t19) = _
  rw [after4_4, cnt_last V c _ _ rfl]
  have hz' : (fun a => win4_4.index t19 a * main_v73_1.ty.shape.size a) = fun _ => 0 := funext fun a => by fin_cases a <;> decide
  exact (Memref.read_access_unit_zero (Elt Ideal) main_v73_1 hz' (fun a => by rw [congrFun hz' a]; simp) (cntRes V c)).symm

/-- Region 4 leaves the counts over all 100000 nodes in output array 4. -/
theorem cnt (c : Dev nD) :
    (dat4 (F := Ideal) V c).arrAt 4 cfg4.N = Cert.Spec.ohSum 1 (V c (Pipeline.arrRef spec4 2)) (fun _ => 1) :=
  (dat4 (F := Ideal) V c).arrAt_eq_of_cover 4 (cntRes V c) (cnt_flushed V c) fun i =>
    ⟨t19, (flush4_4 t19).mpr rfl, by
      show i ∈ ((View.whole main_v73_1).slice (win4_4.rect t19)).set
      rw [View.set_slice_whole, Rect.mem_set_unit]
      intro a
      have h0 : (i 0 : Nat) < 64 := (i 0).isLt
      have h1 : (i 1 : Nat) < 1 := (i 1).isLt
      match a with
      | ⟨0, _⟩ => show win4_4.index t19 0 * win4_4.size 0 ≤ (i 0 : Nat) ∧ (i 0 : Nat) < win4_4.index t19 0 * win4_4.size 0 + win4_4.xsize (grid4.coords t19) 0
                  rw [show win4_4.index t19 0 * win4_4.size 0 = 0 from by decide +kernel, show win4_4.xsize (grid4.coords t19) 0 = 64 from by decide +kernel]; omega
      | ⟨1, _⟩ => show win4_4.index t19 1 * win4_4.size 1 ≤ (i 1 : Nat) ∧ (i 1 : Nat) < win4_4.index t19 1 * win4_4.size 1 + win4_4.xsize (grid4.coords t19) 1
                  rw [show win4_4.index t19 1 * win4_4.size 1 = 0 from by decide +kernel, show win4_4.xsize (grid4.coords t19) 1 = 1 from by decide +kernel]; omega⟩

/-! ### Window 5: the advantages' sums -/

/-- One point adds its block's contribution to what the carried block held. -/
theorem adv_point (c : Dev nD) (t : Fin cfg4.N) (acc : Vec Ideal S64x1 .f32) (g : Fin 64) (k : Fin 1) :
    k4_pay6 (F := Ideal) (gidBlk V c t) (advBlk V c t) acc (ix2 g k) = acc (ix2 g k) + blockSum 1 (gidArr V c) (advArr V c) g k t.val := by
  refine (adv_step_apply (gidBlk V c t) (advBlk V c t) acc g k).trans ?_
  unfold blockSum
  rw [dif_pos (tlt t)]
  refine congrArg _ (Finset.sum_congr rfl fun p _ => ?_)
  exact congrArg₂ (· * ·) (congrArg (fun w => oh w g.val) (gidBlk_apply V c t p 0)) (advBlk_apply V c t p k)

/-- The first point starts from the zeros it stores. -/
theorem adv_first (c : Dev nD) (h : 0 < cfg4.N) :
    (outsAt4 (F := Ideal) V c 0 h).2.2 = k4_pay6 (F := Ideal) (gidBlk V c ⟨0, h⟩) (advBlk V c ⟨0, h⟩) (k4_pay3 (F := Ideal)) := by
  rw [outsAt4_A V c ⟨0, h⟩ (Nat.zero_mod 20)]
  dsimp only
  exact pieceA5 (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) ((hcond4_0 ⟨0, h⟩).mpr (Nat.zero_mod 20)) (iblk4 V c 0 ⟨0, h⟩) (iblk4 V c 1 ⟨0, h⟩) (iblk4 V c 2 ⟨0, h⟩)

/-- Every later point starts from what the point before left. -/
theorem adv_next (c : Dev nD) (n : ℕ) (h : n + 1 < cfg4.N) :
    (outsAt4 (F := Ideal) V c (n + 1) h).2.2
      = k4_pay6 (F := Ideal) (gidBlk V c ⟨n + 1, h⟩) (advBlk V c ⟨n + 1, h⟩) (outsAt4 (F := Ideal) V c n (Nat.lt_of_succ_lt h)).2.2 := by
  have hN : n + 1 < 20 := lt_of_lt_of_eq h (show cfg4.N = 20 from N_4)
  have hB : ¬(⟨n + 1, h⟩ : Fin cfg4.N).val % 20 = 0 := by dsimp only; omega
  rw [outsAt4_B V c ⟨n + 1, h⟩ hB]
  dsimp only
  exact pieceB5 (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (fun h' => hB ((hcond4_0 ⟨n + 1, h⟩).mp h')) (iblk4 V c 0 ⟨n + 1, h⟩) (iblk4 V c 1 ⟨n + 1, h⟩) (iblk4 V c 2 ⟨n + 1, h⟩)
    (outsAt4 (F := Ideal) V c n (Nat.lt_of_succ_lt h)).1 (outsAt4 (F := Ideal) V c n (Nat.lt_of_succ_lt h)).2.1
    (outsAt4 (F := Ideal) V c n (Nat.lt_of_succ_lt h)).2.2

/-- After point n the carried block holds the contributions of blocks 0 to n. -/
theorem adv_inv (c : Dev nD) : ∀ (n : ℕ) (h : n < cfg4.N) (g : Fin 64) (k : Fin 1),
    (outsAt4 (F := Ideal) V c n h).2.2 (ix2 g k) = ∑ s ∈ Finset.range (n + 1), blockSum 1 (gidArr V c) (advArr V c) g k s
  | 0, h, g, k => by
    refine (congrFun (adv_first V c h) (ix2 g k)).trans ?_
    refine (adv_point V c ⟨0, h⟩ (k4_pay3 (F := Ideal)) g k).trans ?_
    rw [Finset.sum_range_succ, Finset.sum_range_zero, zero_add]
    show Ideal.ofBits .f32 0x00000000#32 + _ = _
    rw [Ideal.ofBits_zero_f32, zero_add]
  | n + 1, h, g, k => by
    refine (congrFun (adv_next V c n h) (ix2 g k)).trans ?_
    refine (adv_point V c ⟨n + 1, h⟩ (outsAt4 (F := Ideal) V c n (Nat.lt_of_succ_lt h)).2.2 g k).trans ?_
    rw [Finset.sum_range_succ _ (n + 1)]
    exact congrArg (· + blockSum 1 (gidArr V c) (advArr V c) g k (n + 1)) (adv_inv c n (Nat.lt_of_succ_lt h) g k)

/-- The sums over all 100000 nodes, as contents of the output array. -/
abbrev advRes (c : Dev nD) : Buf (Elt Ideal) ((c : Thread nD τ).loc main_v73_2) := ohSum 1 (gidArr V c) (advArr V c)

/-- After the last point the carried block holds them. -/
theorem adv_last (c : Dev nD) (n : ℕ) (h : n < cfg4.N) (hn : n = 19) :
    (outsAt4 (F := Ideal) V c n h).2.2 = advRes V c := by
  subst hn
  funext j
  obtain ⟨g, k, rfl⟩ : ∃ (g : Fin 64) (k : Fin 1), j = ix2 g k := ⟨j 0, j 1, eq_ix2 j⟩
  refine (adv_inv V c 19 h g k).trans ?_
  exact (ohSum_eq_blocks 1 (gidArr V c) (advArr V c) g k).symm

/-- The one write-back, at the last point, writes the carried block: block (0, 0) of the array, which is the array. -/
theorem adv_flushed (c : Dev nD) (t : Fin cfg4.N) (hf : (cfg4.win 5).flush t = true) :
    (dat4 (F := Ideal) V c).flushed 5 t = ((cfg4.win 5).blk t).view.read (Elt Ideal) (advRes V c) := by
  have h19 : t.val = 19 := by have := (flush4_5 t).mp hf; have := tlt t; omega
  obtain rfl : t = t19 := Fin.ext h19
  show (cfg4.win 5).cut (grid4.coords t19) ((dat4 (F := Ideal) V c).after 5 t19) = _
  rw [after4_5, adv_last V c _ _ rfl]
  have hz' : (fun a => win4_5.index t19 a * main_v73_2.ty.shape.size a) = fun _ => 0 := funext fun a => by fin_cases a <;> decide
  exact (Memref.read_access_unit_zero (Elt Ideal) main_v73_2 hz' (fun a => by rw [congrFun hz' a]; simp) (advRes V c)).symm

/-- Region 4 leaves the advantages' sums over all 100000 nodes in output array 5. -/
theorem adv (c : Dev nD) :
    (dat4 (F := Ideal) V c).arrAt 5 cfg4.N = Cert.Spec.ohSum 1 (V c (Pipeline.arrRef spec4 2)) (V c (Pipeline.arrRef spec4 1)) :=
  (dat4 (F := Ideal) V c).arrAt_eq_of_cover 5 (advRes V c) (adv_flushed V c) fun i =>
    ⟨t19, (flush4_5 t19).mpr rfl, by
      show i ∈ ((View.whole main_v73_2).slice (win4_5.rect t19)).set
      rw [View.set_slice_whole, Rect.mem_set_unit]
      intro a
      have h0 : (i 0 : Nat) < 64 := (i 0).isLt
      have h1 : (i 1 : Nat) < 1 := (i 1).isLt
      match a with
      | ⟨0, _⟩ => show win4_5.index t19 0 * win4_5.size 0 ≤ (i 0 : Nat) ∧ (i 0 : Nat) < win4_5.index t19 0 * win4_5.size 0 + win4_5.xsize (grid4.coords t19) 0
                  rw [show win4_5.index t19 0 * win4_5.size 0 = 0 from by decide +kernel, show win4_5.xsize (grid4.coords t19) 0 = 64 from by decide +kernel]; omega
      | ⟨1, _⟩ => show win4_5.index t19 1 * win4_5.size 1 ≤ (i 1 : Nat) ∧ (i 1 : Nat) < win4_5.index t19 1 * win4_5.size 1 + win4_5.xsize (grid4.coords t19) 1
                  rw [show win4_5.index t19 1 * win4_5.size 1 = 0 from by decide +kernel, show win4_5.xsize (grid4.coords t19) 1 = 1 from by decide +kernel]; omega⟩

end Cert.KernelIdeal.PoolK

end
-- ==== Proof.PoolRef.lean ====
/-
  The reference's three accumulating scatters as indicator-weighted sums.  Each scatter starts from the zero
  array and adds update `(n, k)` at row `gi (n, 0)` read as a signed integer, column `k`, when that row is one
  of the 64 rows, and drops it otherwise.  So entry `(g, k)` of the result is the sum over the nodes `n` of
  `[gi n = g] · u (n, k)`, which is `ohSum`.
-/
import proofs.«418596_j16673063043609_2_alg».proof.Proof.Spec
import Idealize.ShloMosaic.Lib.ValueIdx
import Idealize.ShloMosaic.Lib.IdealHost
import Idealize.ShloMosaic.PureOps.Ideal.Laws

noncomputable section

namespace Cert.PoolRef

open Cert.ReferenceIdeal Cert.ReferenceIdeal.Gen Cert.Spec Idealize.ShloMosaic Idealize.ShloMosaic.ValueIdx

/-! ## Words and graph numbers -/

/-- A 32-bit word read as a signed integer is the number `g < 64` exactly when it is the word of `g`. -/
theorem toInt_eq_iff (w : BitVec 32) (g : ℕ) (hg : g < 64) : w.toInt = (g : ℤ) ↔ w = BitVec.ofNat 32 g := by
  rw [← BitVec.toNat_inj, BitVec.toNat_ofNat, BitVec.toInt_eq_toNat_cond]
  have := w.isLt
  split <;> omega

/-- The indicator as a conditional on the signed reading of the word. -/
theorem oh_eq (w : BitVec 32) (g : ℕ) (hg : g < 64) : oh w g = if w.toInt = (g : ℤ) then 1 else 0 := by
  unfold oh
  by_cases h : w = BitVec.ofNat 32 g
  · rw [if_pos h, if_pos ((toInt_eq_iff w g hg).mpr h)]
  · rw [if_neg h, if_neg (fun h' => h ((toInt_eq_iff w g hg).mp h'))]

/-! ## Where an update lands, for any scatter -/

/-- An update lands at `i` exactly when on every axis its start plus its window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      cases h
      intro a
      have := hh a
      show _ = (((d.start j idx a + (d.window j a : ℤ)).toNat : ℕ) : ℤ)
      omega
    · cases h
  · intro h
    have hh : ∀ a, 0 ≤ d.start j idx a + (d.window j a : ℤ) ∧ d.start j idx a + (d.window j a : ℤ) < s.size a := by
      intro a
      rw [h a]
      exact ⟨by omega, by exact_mod_cast (i a).isLt⟩
    rw [dif_pos hh]
    congr 1
    funext a
    apply Fin.ext
    show (d.start j idx a + (d.window j a : ℤ)).toNat = (i a).val
    rw [h a]
    omega

/-! ## The scatter into rows of width 128 -/

/-- On the row axis the start is the graph number of the update's node, read signed. -/
theorem parts_start0 (n : Fin 100000) (k : Fin 128) (idx : IVec S100000x1 32) :
    scatter_S64x128_S100000x1_S100000x128_1_0_0_1.start (ix2 n k) idx (0 : Fin 2) = (idx (ix2 n 0)).toInt := by
  unfold ScatterDims.start
  rw [dif_pos (show (0 : Fin S64x128.rank) ∈ scatter_S64x128_S100000x1_S100000x128_1_0_0_1.scatterDimsToOperandDims from List.mem_singleton.mpr rfl)]
  congr 2
  funext b
  refine Fin.ext ?_
  match b with
  | ⟨0, _⟩ => rfl
  | ⟨1, _⟩ => rfl

/-- On the column axis the start is zero. -/
theorem parts_start1 (n : Fin 100000) (k : Fin 128) (idx : IVec S100000x1 32) :
    scatter_S64x128_S100000x1_S100000x128_1_0_0_1.start (ix2 n k) idx (1 : Fin 2) = 0 := by
  unfold ScatterDims.start
  rw [dif_neg (by decide)]

/-- The row axis is inserted: its window coordinate is zero. -/
theorem parts_window0 (n : Fin 100000) (k : Fin 128) :
    scatter_S64x128_S100000x1_S100000x128_1_0_0_1.window (ix2 n k) (0 : Fin 2) = 0 := by
  unfold ScatterDims.window
  rw [dif_neg (by decide)]

/-- The column axis carries the update's column. -/
theorem parts_window1 (n : Fin 100000) (k : Fin 128) :
    scatter_S64x128_S100000x1_S100000x128_1_0_0_1.window (ix2 n k) (1 : Fin 2) = k.val := by
  unfold ScatterDims.window
  rw [dif_pos (by decide)]
  rfl

/-- Update `(n, k)` lands at `(g, c)` exactly when node `n`'s graph number is `g` and `k = c`. -/
theorem parts_lands_iff (n : Fin 100000) (k : Fin 128) (idx : IVec S100000x1 32) (g : Fin 64) (c : Fin 128) :
    scatter_S64x128_S100000x1_S100000x128_1_0_0_1.resultIdx? (ix2 n k) idx = some (ix2 g c)
      ↔ (idx (ix2 n 0)).toInt = (g.val : ℤ) ∧ k = c := by
  rw [resultIdx?_eq_some_iff]
  constructor
  · intro h
    have h0 := h (0 : Fin 2)
    have h1 := h (1 : Fin 2)
    rw [parts_start0, parts_window0] at h0
    rw [parts_start1, parts_window1] at h1
    have h0' : (idx (ix2 n 0)).toInt + ((0 : ℕ) : ℤ) = (g.val : ℤ) := h0
    have h1' : (0 : ℤ) + (k.val : ℤ) = (c.val : ℤ) := h1
    exact ⟨by omega, Fin.ext (by omega)⟩
  · rintro ⟨h0, rfl⟩ a
    match a with
    | ⟨0, _⟩ =>
      refine (congrArg₂ (fun (x : ℤ) (y : ℕ) => x + (y : ℤ)) (parts_start0 n k idx) (parts_window0 n k)).trans ?_
      show (idx (ix2 n 0)).toInt + ((0 : ℕ) : ℤ) = (g.val : ℤ)
      omega
    | ⟨1, _⟩ =>
      refine (congrArg₂ (fun (x : ℤ) (y : ℕ) => x + (y : ℤ)) (parts_start1 n k idx) (parts_window1 n k)).trans ?_
      show (0 : ℤ) + (k.val : ℤ) = (k.val : ℤ)
      omega

/-- Row `g` of the per-graph sum of `emb`: the sum over the nodes of the indicator times the node's row. -/
theorem poolParts_eq (gi : IVec S100000x1 32) (emb : FVec Ideal S100000x128 .f32) : poolParts gi emb = ohSum 128 gi emb := by
  funext i
  obtain ⟨g, c, rfl⟩ : ∃ (g : Fin 64) (c : Fin 128), i = ix2 g c := ⟨i 0, i 1, eq_ix2 i⟩
  unfold poolParts Host.scatterAdd
  rw [Ideal.hostScatterAdd_def]
  unfold Ideal.hostScatterAdd
  rw [broadcastInDim_scalar_apply, constant_apply, Ideal.ofBits_zero_f32, zero_add]
  rw [Finset.sum_filter, sum_idx2]
  show _ = ∑ n : Fin 100000, oh (gi (ix2 n 0)) g.val * emb (ix2 n c)
  refine Finset.sum_congr rfl fun n _ => ?_
  simp only [parts_lands_iff]
  rw [oh_eq _ _ g.isLt]
  by_cases hg : (gi (ix2 n 0)).toInt = (g.val : ℤ)
  · simp only [hg, true_and, if_true, one_mul]
    rw [Finset.sum_ite_eq' Finset.univ c, if_pos (Finset.mem_univ c)]
  · simp only [hg, false_and, if_false, zero_mul, Finset.sum_const_zero]

/-! ## The scatter into a column of width one -/

/-- On the row axis the start is the graph number of the update's node, read signed. -/
theorem adv_start0 (n : Fin 100000) (k : Fin 1) (idx : IVec S100000x1 32) :
    scatter_S64x1_S100000x1_S100000x1_1_0_0_1.start (ix2 n k) idx (0 : Fin 2) = (idx (ix2 n 0)).toInt := by
  unfold ScatterDims.start
  rw [dif_pos (show (0 : Fin S64x1.rank) ∈ scatter_S64x1_S100000x1_S100000x1_1_0_0_1.scatterDimsToOperandDims from List.mem_singleton.mpr rfl)]
  congr 2
  funext b
  refine Fin.ext ?_
  match b with
  | ⟨0, _⟩ => rfl
  | ⟨1, _⟩ => rfl

/-- On the column axis the start is zero. -/
theorem adv_start1 (n : Fin 100000) (k : Fin 1) (idx : IVec S100000x1 32) :
    scatter_S64x1_S100000x1_S100000x1_1_0_0_1.start (ix2 n k) idx (1 : Fin 2) = 0 := by
  unfold ScatterDims.start
  rw [dif_neg (by decide)]

/-- The row axis is inserted: its window coordinate is zero. -/
theorem adv_window0 (n : Fin 100000) (k : Fin 1) :
    scatter_S64x1_S100000x1_S100000x1_1_0_0_1.window (ix2 n k) (0 : Fin 2) = 0 := by
  unfold ScatterDims.window
  rw [dif_neg (by decide)]

/-- The column axis carries the update's column. -/
theorem adv_window1 (n : Fin 100000) (k : Fin 1) :
    scatter_S64x1_S100000x1_S100000x1_1_0_0_1.window (ix2 n k) (1 : Fin 2) = k.val := by
  unfold ScatterDims.window
  rw [dif_pos (by decide)]
  rfl

/-- Update `(n, k)` lands at `(g, c)` exactly when node `n`'s graph number is `g` and `k = c`. -/
theorem adv_lands_iff (n : Fin 100000) (k : Fin 1) (idx : IVec S100000x1 32) (g : Fin 64) (c : Fin 1) :
    scatter_S64x1_S100000x1_S100000x1_1_0_0_1.resultIdx? (ix2 n k) idx = some (ix2 g c)
      ↔ (idx (ix2 n 0)).toInt = (g.val : ℤ) ∧ k = c := by
  rw [resultIdx?_eq_some_iff]
  constructor
  · intro h
    have h0 := h (0 : Fin 2)
    have h1 := h (1 : Fin 2)
    rw [adv_start0, adv_window0] at h0
    rw [adv_start1, adv_window1] at h1
    have h0' : (idx (ix2 n 0)).toInt + ((0 : ℕ) : ℤ) = (g.val : ℤ) := h0
    have h1' : (0 : ℤ) + (k.val : ℤ) = (c.val : ℤ) := h1
    exact ⟨by omega, Fin.ext (by omega)⟩
  · rintro ⟨h0, rfl⟩ a
    match a with
    | ⟨0, _⟩ =>
      refine (congrArg₂ (fun (x : ℤ) (y : ℕ) => x + (y : ℤ)) (adv_start0 n k idx) (adv_window0 n k)).trans ?_
      show (idx (ix2 n 0)).toInt + ((0 : ℕ) : ℤ) = (g.val : ℤ)
      omega
    | ⟨1, _⟩ =>
      refine (congrArg₂ (fun (x : ℤ) (y : ℕ) => x + (y : ℤ)) (adv_start1 n k idx) (adv_window1 n k)).trans ?_
      show (0 : ℤ) + (k.val : ℤ) = (k.val : ℤ)
      omega

/-- Entry `g` of the per-graph sum of the column `adv`: the sum over the nodes of the indicator times the node's entry. -/
theorem poolAdv_eq (gi : IVec S100000x1 32) (adv : FVec Ideal S100000x1 .f32) : poolAdv gi adv = ohSum 1 gi adv := by
  funext i
  obtain ⟨g, c, rfl⟩ : ∃ (g : Fin 64) (c : Fin 1), i = ix2 g c := ⟨i 0, i 1, eq_ix2 i⟩
  unfold poolAdv Host.scatterAdd
  rw [Ideal.hostScatterAdd_def]
  unfold Ideal.hostScatterAdd
  rw [broadcastInDim_scalar_apply, constant_apply, Ideal.ofBits_zero_f32, zero_add]
  rw [Finset.sum_filter, sum_idx2]
  show _ = ∑ n : Fin 100000, oh (gi (ix2 n 0)) g.val * adv (ix2 n c)
  refine Finset.sum_congr rfl fun n _ => ?_
  simp only [adv_lands_iff]
  rw [oh_eq _ _ g.isLt]
  by_cases hg : (gi (ix2 n 0)).toInt = (g.val : ℤ)
  · simp only [hg, true_and, if_true, one_mul]
    rw [Finset.sum_ite_eq' Finset.univ c, if_pos (Finset.mem_univ c)]
  · simp only [hg, false_and, if_false, zero_mul, Finset.sum_const_zero]

/-! ## The scatter of ones into a vector of 64 counts -/

/-- A one-axis index of extent 100000 is its coordinate: a sum over such indices is the sum over the nodes. -/
def idxEquiv1 : (⟨1, ![100000]⟩ : Shape).Idx ≃ Fin 100000 where
  toFun i := i 0
  invFun a := ix1 a
  left_inv i := (eq_ix1 i).symm
  right_inv _ := rfl

theorem sum_idx1 (f : (⟨1, ![100000]⟩ : Shape).Idx → EReal) : ∑ i, f i = ∑ a : Fin 100000, f (ix1 a) := by
  rw [← Equiv.sum_comp idxEquiv1.symm f]
  rfl

/-- On the one operand axis the start is the graph number of the update's node, read signed. -/
theorem cnt_start0 (n : Fin 100000) (idx : IVec S100000x1 32) :
    scatter_S64_S100000x1_S100000_n_0_0_1.start (ix1 n) idx (0 : Fin 1) = (idx (ix2 n 0)).toInt := by
  unfold ScatterDims.start
  rw [dif_pos (show (0 : Fin S64.rank) ∈ scatter_S64_S100000x1_S100000_n_0_0_1.scatterDimsToOperandDims from List.mem_singleton.mpr rfl)]
  congr 2
  funext b
  refine Fin.ext ?_
  match b with
  | ⟨0, _⟩ => rfl
  | ⟨1, _⟩ => rfl

/-- That axis is inserted: its window coordinate is zero. -/
theorem cnt_window0 (n : Fin 100000) :
    scatter_S64_S100000x1_S100000_n_0_0_1.window (ix1 n) (0 : Fin 1) = 0 := by
  unfold ScatterDims.window
  rw [dif_neg (by decide)]

/-- Update `n` lands at `g` exactly when node `n`'s graph number is `g`. -/
theorem cnt_lands_iff (n : Fin 100000) (idx : IVec S100000x1 32) (g : Fin 64) :
    scatter_S64_S100000x1_S100000_n_0_0_1.resultIdx? (ix1 n) idx = some (ix1 g) ↔ (idx (ix2 n 0)).toInt = (g.val : ℤ) := by
  rw [resultIdx?_eq_some_iff]
  constructor
  · intro h
    have h0 := h (0 : Fin 1)
    rw [cnt_start0, cnt_window0] at h0
    have h0' : (idx (ix2 n 0)).toInt + ((0 : ℕ) : ℤ) = (g.val : ℤ) := h0
    omega
  · intro h0 a
    match a with
    | ⟨0, _⟩ =>
      refine (congrArg₂ (fun (x : ℤ) (y : ℕ) => x + (y : ℤ)) (cnt_start0 n idx) (cnt_window0 n)).trans ?_
      show (idx (ix2 n 0)).toInt + ((0 : ℕ) : ℤ) = (g.val : ℤ)
      omega

/-- The vector of counts written as a column reads the vector at the row. -/
theorem cnt_column (x : S64.Idx → EReal) (g : Fin 64) (c : Fin 1) :
    broadcastInDim S64x1 ![0] bcast_S64_S64x1_0 x (ix2 g c) = x (ix1 g) := by
  unfold broadcastInDim
  refine congrArg x (funext fun a => ?_)
  match a with
  | ⟨0, _⟩ => rfl

/-- Entry `g` of the counts as a column: the sum over the nodes of the indicator (times one). -/
theorem poolCnt_eq (gi : IVec S100000x1 32) :
    broadcastInDim S64x1 ![0] bcast_S64_S64x1_0 (poolCnt gi) = ohSum 1 gi (fun _ => 1) := by
  funext i
  obtain ⟨g, c, rfl⟩ : ∃ (g : Fin 64) (c : Fin 1), i = ix2 g c := ⟨i 0, i 1, eq_ix2 i⟩
  rw [cnt_column]
  unfold poolCnt Host.scatterAdd
  rw [Ideal.hostScatterAdd_def]
  unfold Ideal.hostScatterAdd
  rw [broadcastInDim_scalar_apply, constant_apply, Ideal.ofBits_zero_f32, zero_add]
  rw [Finset.sum_filter, sum_idx1]
  show _ = ∑ n : Fin 100000, oh (gi (ix2 n 0)) g.val * 1
  refine Finset.sum_congr rfl fun n _ => ?_
  rw [broadcastInDim_scalar_apply, constant_apply, Ideal.ofBits_one_f32, oh_eq _ _ g.isLt, mul_one]
  simp only [cnt_lands_iff]

end Cert.PoolRef

end
-- ==== Proof.Final.lean ====
/-
  Region 5, the last combination. Each point of its 20-point grid holds 5000 rows of the graph-number column and
  of the advantage column and the whole 64x1 arrays `value` and `mean`. The body spreads the graph numbers over
  64 lanes, compares them with the lane number to get the 5000x64 indicator block (one where row `p`'s number is the
  lane `g`, else zero), multiplies that block with `value` and with `mean` (a sum over the 64 lanes each), and
  stores `tanh (value-product + (adv - mean-product))`.

  Here: the product at an index as a sum over `Fin 64`; the indicator block at an index; the body's result at a
  row; each window's block as rows of its array; what a point writes back as a block of the whole-array function
  `Cert.Spec.finalIdx`; the 20 blocks cover the 100000 rows; so the output array ends holding that function.
-/
import proofs.«418596_j16673063043609_2_alg».proof.Proof.Gen.KernelIdeal.Frame
import proofs.«418596_j16673063043609_2_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The contraction of the 64 lanes, read at an index -/

theorem lhs_lane_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_lane_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_lane_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_lane_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A 5000x64 by 64x1 product into the zero accumulator: entry `(p, 0)` is the sum over the 64 lanes `g` of
    `l (p, g) * r (g, 0)`. -/
theorem lanes_sum (l : FVec Ideal S5000x64 .f32) (r : FVec Ideal S64x1 .f32) (p : Fin 5000) :
    matmul dot_S5000x64_S64x1_S5000x1_1_0_0_1_n_n (some .fp32) l r (constant S5000x1 .f32 0x00000000#32) (ix2 p (0 : Fin 1))
      = ∑ g : Fin 64, l (ix2 p g) * r (ix2 g (0 : Fin 1)) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p (0 : Fin 1)) ((ValueIdx.contrEquiv1 dot_S5000x64_S64x1_S5000x1_1_0_0_1_n_n 64 rfl rfl).symm k) = ix2 p k := funext fun a => Fin.ext (by
    match a with
    | ⟨0, _⟩ => exact lhs_lane_0 _ _
    | ⟨1, _⟩ => exact (lhs_lane_1 _ _).trans hk)
  have er : dot_S5000x64_S64x1_S5000x1_1_0_0_1_n_n.rhsIdx (ix2 p (0 : Fin 1)) ((ValueIdx.contrEquiv1 dot_S5000x64_S64x1_S5000x1_1_0_0_1_n_n 64 rfl rfl).symm k) = ix2 k (0 : Fin 1) := funext fun a => Fin.ext (by
    match a with
    | ⟨0, _⟩ => exact (rhs_lane_0 _ _).trans hk
    | ⟨1, _⟩ => exact rhs_lane_1 _ _)
  rw [el, er]

/-! ## The indicator of the graph number, read at an index -/

/-- A one-bit word widened to 32 bits and read as a signed integer is one when the bit is set, else zero. -/
theorem widened_bit (b : BitVec 1) :
    (FloatOps.sitofp (F := Ideal) .f32 (b.setWidth 32) : EReal) = if b = 1#1 then 1 else 0 := by
  rcases BitVec.eq_zero_or_eq_one b with h | h <;> subst h
  · show (((((0#1 : BitVec 1).setWidth 32).toInt : ℤ) : ℝ) : EReal) = _
    rw [if_neg (by decide), show ((0#1 : BitVec 1).setWidth 32).toInt = 0 from by decide]
    simp
  · show (((((1#1 : BitVec 1).setWidth 32).toInt : ℤ) : ℝ) : EReal) = _
    rw [if_pos rfl, show ((1#1 : BitVec 1).setWidth 32).toInt = 1 from by decide]
    simp

/-- The column of graph numbers spread over 64 lanes and compared with the lane number: entry `(p, g)` is one
    when row `p`'s word is `g`, else zero. -/
theorem indicator_apply (v0 : IVec S5000x1 32) (p : Fin 5000) (g : Fin 64) :
    (sitofp .f32 (extui 32 (cmpi .eq (broadcastTo S5000x64 v0 broadcasts_S5000x1_S5000x64)
        (iota .tc S5000x64 32 [1] iota_S5000x64_d1_w32)) natLt_1_32) : FVec Ideal S5000x64 .f32) (ix2 p g)
      = Cert.Spec.oh (v0 (ix2 p (0 : Fin 1))) g.val := by
  rw [sitofp_apply, extui_apply, widened_bit]
  unfold Cert.Spec.oh
  refine if_congr ?_ rfl rfl
  show IntOp.cmpi .eq _ _ = 1#1 ↔ _
  rw [StableHlo.Predicate.cmpi_eq_iff, iota_single_apply,
    broadcastTo_apply v0 broadcasts_S5000x1_S5000x64 (ix2 p g) (ix2 p (0 : Fin 1)) (fun a => by
      match a with
      | ⟨0, _⟩ => show p.val = if (5000 : Nat) = 1 then 0 else p.val; rw [if_neg (by decide)]
      | ⟨1, _⟩ => show 0 = if (1 : Nat) = 1 then 0 else g.val; rw [if_pos rfl])]

/-! ## The payload at an index -/

/-- A lookup as a product: the indicator block times a 64x1 array, at row `p`, is the indicator-weighted sum of
    the array's 64 entries. -/
theorem lookup_sum (v0 : IVec S5000x1 32) (r : FVec Ideal S64x1 .f32) (p : Fin 5000) :
    matmul dot_S5000x64_S64x1_S5000x1_1_0_0_1_n_n (some .fp32)
        (sitofp .f32 (extui 32 (cmpi .eq (broadcastTo S5000x64 v0 broadcasts_S5000x1_S5000x64)
          (iota .tc S5000x64 32 [1] iota_S5000x64_d1_w32)) natLt_1_32) : FVec Ideal S5000x64 .f32)
        r (constant S5000x1 .f32 0x00000000#32) (ix2 p (0 : Fin 1))
      = ∑ g : Fin 64, Cert.Spec.oh (v0 (ix2 p (0 : Fin 1))) g.val * r (ix2 g (0 : Fin 1)) := by
  rw [lanes_sum]
  exact Finset.sum_congr rfl fun g _ => by rw [indicator_apply]

/-- Row `p` of the body's result: `tanh` of the value of row `p`'s graph, plus the advantage less the mean of
    that graph, each lookup a sum over the 64 graphs weighted by the indicator. -/
theorem pay_apply (v0 : IVec S5000x1 32) (v7 v9 : FVec Ideal S64x1 .f32) (v13 : FVec Ideal S5000x1 .f32) (p : Fin 5000) :
    k5_pay1 (F := Ideal) v0 v7 v9 v13 (ix2 p (0 : Fin 1))
      = Ideal.tanh ((∑ g : Fin 64, Cert.Spec.oh (v0 (ix2 p (0 : Fin 1))) g.val * v7 (ix2 g (0 : Fin 1)))
        + (v13 (ix2 p (0 : Fin 1)) - ∑ g : Fin 64, Cert.Spec.oh (v0 (ix2 p (0 : Fin 1))) g.val * v9 (ix2 g (0 : Fin 1)))) := by
  unfold k5_pay1
  dsimp only
  simp only [shapeCast_self]
  rw [show ∀ (x : FVec Ideal S5000x1 .f32) (i : S5000x1.Idx), tanh x i = Ideal.tanh (x i) from fun _ _ => rfl,
    addf_apply, subf_apply, lookup_sum, lookup_sum]

/-! ## The blocks of the five windows -/

theorem hz : (![0, 0] : Fin 2 → Nat) = fun _ => 0 := funext fun a => by fin_cases a <;> rfl

/-- The printed index maps over the grid: at point `t` the three column windows sit at block row `t`, and the
    two 64x1 windows at their one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The whole-array result: entry `n` is `tanh (value[g n] + (adv n - mean[g n]))` with the lookups as
    indicator-weighted sums, over the arrays the region finds. -/
abbrev G (c : Dev nD) : S100000x1.Idx → EReal :=
  Cert.Spec.finalIdx (V c (Pipeline.arrRef spec5 0)) (V c (Pipeline.arrRef spec5 2)) (V c (Pipeline.arrRef spec5 3)) (V c (Pipeline.arrRef spec5 1))

/-- One point's result against the whole-array function: if row `p` of the blocks `x0`, `x1` is row `i` of the
    columns `gcol`, `adv` and the blocks `x2`, `x3` are the arrays `value`, `mean`, the body's result at row `p`
    is the whole-array result at row `i`. -/
theorem point_eq (gcol : IVec S100000x1 32) (value mean : FVec Ideal S64x1 .f32) (adv : FVec Ideal S100000x1 .f32)
    (x0 : IVec S5000x1 32) (x1 : FVec Ideal S5000x1 .f32) (x2 x3 : FVec Ideal S64x1 .f32)
    (p : Fin 5000) (i : S100000x1.Idx)
    (h0 : x0 (ix2 p (0 : Fin 1)) = gcol (ix2 (i 0) (0 : Fin 1)))
    (h1 : x1 (ix2 p (0 : Fin 1)) = adv i)
    (h2 : ∀ g : Fin 64, x2 (ix2 g (0 : Fin 1)) = value (ix2 g (0 : Fin 1)))
    (h3 : ∀ g : Fin 64, x3 (ix2 g (0 : Fin 1)) = mean (ix2 g (0 : Fin 1))) :
    k5_pay1 (F := Ideal) x0 x2 x3 x1 (ix2 p (0 : Fin 1)) = Cert.Spec.finalIdx gcol value mean adv i := by
  rw [pay_apply]
  unfold Cert.Spec.finalIdx
  rw [h0, h1]
  simp only [h2, h3]

/-! ## From the blocks to the array -/

/-- Row `p` of the graph-number block at point `t` is the column's entry in the row under row `p` of the
    output's block. -/
theorem gcol_block (c : Dev nD) (t : Fin cfg5.N) (p : Fin 5000) :
    (iblk5 V c 0 t : IVec S5000x1 32) (ix2 p (0 : Fin 1))
      = (V c (Pipeline.arrRef spec5 0) : IVec S100000x1 32)
          (ix2 ((((cfg5.win 4).blk t).view.emb (ix2 p (0 : Fin 1)) : S100000x1.Idx) 0) (0 : Fin 1)) := by
  obtain ⟨a0, a1, -, -, -, -, -, -, o0, -⟩ := idx_facts t
  show V c (Pipeline.arrRef spec5 0) (((cfg5.win 0).blk t).view.emb (ix2 p (0 : Fin 1))) = _
  refine congrArg _ (funext fun a => Fin.ext ?_)
  match a with
  | ⟨0, _⟩ => show win5_0.index t (0 : Fin 2) * 5000 + 1 * p.val = win5_4.index t (0 : Fin 2) * 5000 + 1 * p.val; rw [a0, o0]
  | ⟨1, _⟩ => show win5_0.index t (1 : Fin 2) * 1 + 1 * 0 = 0; rw [a1]

/-- Row `p` of the advantage block at point `t` is the column's entry under row `p` of the output's block. -/
theorem adv_block (c : Dev nD) (t : Fin cfg5.N) (p : Fin 5000) :
    (iblk5 V c 1 t : FVec Ideal S5000x1 .f32) (ix2 p (0 : Fin 1))
      = (V c (Pipeline.arrRef spec5 1) : FVec Ideal S100000x1 .f32) (((cfg5.win 4).blk t).view.emb (ix2 p (0 : Fin 1))) := by
  obtain ⟨-, -, b0, b1, -, -, -, -, o0, o1⟩ := idx_facts t
  show V c (Pipeline.arrRef spec5 1) (((cfg5.win 1).blk t).view.emb (ix2 p (0 : Fin 1))) = _
  refine congrArg _ (funext fun a => Fin.ext ?_)
  match a with
  | ⟨0, _⟩ => show win5_1.index t (0 : Fin 2) * 5000 + 1 * p.val = win5_4.index t (0 : Fin 2) * 5000 + 1 * p.val; rw [b0, o0]
  | ⟨1, _⟩ => show win5_1.index t (1 : Fin 2) * 1 + 1 * 0 = win5_4.index t (1 : Fin 2) * 1 + 1 * 0; rw [b1, o1]

/-- The value window's one block is the whole 64x1 array, at every point. -/
theorem value_block (c : Dev nD) (t : Fin cfg5.N) (g : Fin 64) :
    (iblk5 V c 2 t : FVec Ideal S64x1 .f32) (ix2 g (0 : Fin 1))
      = (V c (Pipeline.arrRef spec5 2) : FVec Ideal S64x1 .f32) (ix2 g (0 : Fin 1)) := by
  obtain ⟨-, -, -, -, c0, c1, -, -, -, -⟩ := idx_facts t
  show V c (Pipeline.arrRef spec5 2) (((cfg5.win 2).blk t).view.emb (ix2 g (0 : Fin 1))) = _
  refine congrArg _ (funext fun a => Fin.ext ?_)
  match a with
  | ⟨0, _⟩ => show win5_2.index t (0 : Fin 2) * 64 + 1 * g.val = g.val; rw [c0]; omega
  | ⟨1, _⟩ => show win5_2.index t (1 : Fin 2) * 1 + 1 * 0 = 0; rw [c1]

/-- The mean window's one block is the whole 64x1 array, at every point. -/
theorem mean_block (c : Dev nD) (t : Fin cfg5.N) (g : Fin 64) :
    (iblk5 V c 3 t : FVec Ideal S64x1 .f32) (ix2 g (0 : Fin 1))
      = (V c (Pipeline.arrRef spec5 3) : FVec Ideal S64x1 .f32) (ix2 g (0 : Fin 1)) := by
  obtain ⟨-, -, -, -, -, -, d0, d1, -, -⟩ := idx_facts t
  show V c (Pipeline.arrRef spec5 3) (((cfg5.win 3).blk t).view.emb (ix2 g (0 : Fin 1))) = _
  refine congrArg _ (funext fun a => Fin.ext ?_)
  match a with
  | ⟨0, _⟩ => show win5_3.index t (0 : Fin 2) * 64 + 1 * g.val = g.val; rw [d0]; omega
  | ⟨1, _⟩ => show win5_3.index t (1 : Fin 2) * 1 + 1 * 0 = 0; rw [d1]

/-- What point `t` writes back is block `t` of the whole-array result: rows `5000 t … 5000 t + 4999`. -/
theorem flushed_eq (c : Dev nD) (t : Fin cfg5.N) :
    (dat5 (F := Ideal) V c).flushed 4 t = ((cfg5.win 4).blk t).view.read (Elt Ideal) (G V c) := by
  show (cfg5.win 4).cut (grid5.coords t) ((dat5 (F := Ideal) V c).after 4 t) = _
  rw [after5_4]
  unfold out5_4
  rw [View.canon_unit_zero hz]
  simp only [View.ld_unit_zero (S := S5000x1) hz, View.ld_unit_zero (S := S64x1) hz]
  funext j
  obtain ⟨p, q, rfl⟩ : ∃ (p : Fin 5000) (q : Fin 1), j = ix2 p q := ⟨j 0, j 1, eq_ix2 j⟩
  obtain rfl : q = 0 := Subsingleton.elim _ _
  show k5_pay1 (F := Ideal) (iblk5 V c 0 t) (iblk5 V c 2 t) (iblk5 V c 3 t) (iblk5 V c 1 t) (ix2 p (0 : Fin 1))
    = G V c (((cfg5.win 4).blk t).view.emb (ix2 p (0 : Fin 1)))
  exact point_eq (V c (Pipeline.arrRef spec5 0)) (V c (Pipeline.arrRef spec5 2)) (V c (Pipeline.arrRef spec5 3))
    (V c (Pipeline.arrRef spec5 1)) (iblk5 V c 0 t) (iblk5 V c 1 t) (iblk5 V c 2 t) (iblk5 V c 3 t) p
    (((cfg5.win 4).blk t).view.emb (ix2 p (0 : Fin 1))) (gcol_block V c t p) (adv_block V c t p)
    (value_block V c t) (mean_block V c t)
/-- An index of the column is in point `t`'s block iff each coordinate is in the block's range on its axis. -/
theorem mem_blk (t : Fin cfg5.N) (i : S100000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v82).slice (win5_4.rect t)).set ↔ _
  rw [View.set_slice_whole, Rect.mem_set_unit]
  exact Iff.rfl

/-- The 20 blocks of 5000 rows cover the column: row `n` is in the block of point `n / 5000`. -/
theorem cover (i : S100000x1.Idx) :
    ∃ t : Fin cfg5.N, (cfg5.win 4).flush t = true ∧ i ∈ ((cfg5.win 4).blk t).view.set := by
  have hi0 : (i 0).val < 100000 := (i 0).isLt
  have hi1 : (i 1).val < 1 := (i 1).isLt
  have hN : cfg5.N = 20 := N_5
  refine ⟨⟨(i 0).val / 5000, by rw [hN]; omega⟩, flush5_4 _, ?_⟩
  rw [mem_blk]
  obtain ⟨-, -, -, -, -, -, -, -, o0, o1⟩ := idx_facts ⟨(i 0).val / 5000, by rw [hN]; omega⟩
  intro a
  match a with
  | ⟨0, _⟩ =>
    show win5_4.index _ (0 : Fin 2) * 5000 ≤ (i 0).val ∧ (i 0).val < win5_4.index _ (0 : Fin 2) * 5000 + 5000
    rw [o0]
    show (i 0).val / 5000 * 5000 ≤ (i 0).val ∧ (i 0).val < (i 0).val / 5000 * 5000 + 5000
    omega
  | ⟨1, _⟩ =>
    show win5_4.index _ (1 : Fin 2) * 1 ≤ (i 1).val ∧ (i 1).val < win5_4.index _ (1 : Fin 2) * 1 + 1
    rw [o1]
    omega

/-- Region 5 leaves in its output array the last combination, entry by entry, with each per-graph lookup an
    indicator-weighted sum over the 64 graphs. -/
theorem final (c : Dev nD) :
    (dat5 (F := Ideal) V c).arrAt 4 cfg5.N =
      Cert.Spec.finalIdx (V c (Pipeline.arrRef spec5 0)) (V c (Pipeline.arrRef spec5 2)) (V c (Pipeline.arrRef spec5 3)) (V c (Pipeline.arrRef spec5 1)) :=
  (dat5 (F := Ideal) V c).arrAt_eq_of_cover 4 (G V c) (fun t _ => flushed_eq V c t) cover

end Cert.KernelIdeal.Final

end
-- ==== Proof.GatherRef.lean ====
/-
  The reference's last combination with graph numbers in range, entry by entry.

  With 0 ≤ g < 64 the "count from the end" normalisation leaves g unchanged (the test g < 0 fails, so the
  selection takes g itself), and a lookup table[g] of a 64-entry column reads the entry at position g: the start
  index read as a signed integer is g, and clamping it into [0, 63] changes nothing. On the other side, the sum
  over the 64 graphs of (indicator that the word is graph k) · table[k] has one nonzero term, the one at k = g,
  which is 1 · table[g]. So both forms are tanh (value[g] + (adv - mean[g])).
-/
import proofs.«418596_j16673063043609_2_alg».proof.Proof.Spec
import Idealize.ShloMosaic.Lib.ValueIdx
import Idealize.ShloMosaic.Lib.Affine

noncomputable section

namespace Cert.GatherRef

open Cert.ReferenceIdeal Cert.ReferenceIdeal.Gen Cert.Spec Idealize.ShloMosaic Idealize.ShloMosaic.ValueIdx

/-! ## Words in range -/

/-- A word whose signed reading is nonnegative has that reading equal to its unsigned one. -/
theorem toInt_toNat_of_nonneg (w : BitVec 32) (h0 : 0 ≤ w.toInt) : w.toInt.toNat = w.toNat := by
  have hlt := w.isLt
  have e := BitVec.toInt_eq_toNat_cond w
  by_cases hc : 2 * w.toNat < 2 ^ 32
  · rw [if_pos hc] at e; omega
  · rw [if_neg hc] at e; omega

/-- A nonnegative word is the word of the number `g < 64` exactly when its signed reading is `g`. -/
theorem eq_ofNat_iff (w : BitVec 32) (h0 : 0 ≤ w.toInt) (g : ℕ) (hg : g < 64) :
    w = BitVec.ofNat 32 g ↔ w.toInt.toNat = g := by
  rw [toInt_toNat_of_nonneg w h0]
  constructor
  · intro e
    have := congrArg BitVec.toNat e
    rw [BitVec.toNat_ofNat] at this
    omega
  · intro e
    apply BitVec.eq_of_toNat_eq
    rw [BitVec.toNat_ofNat]
    omega

/-- The test "g < 0" fails on a nonnegative word. -/
theorem slt_zero_of_nonneg (w : BitVec 32) (h : 0 ≤ w.toInt) : IntOp.cmpi .slt w 0#32 = 0#1 := by
  apply eq_zero_of_ne_one
  intro h1
  have a := IntOp.cmpi_slt.1 h1
  have e0 : (0#32 : BitVec 32).toInt = 0 := by decide
  omega

/-! ## A vector laid as a column, and the normalised indices, at a row -/

/-- A vector as a [100000 × 1] column reads, at row `n`, the vector at `n`. -/
theorem col_apply {α : Type} (v : S100000.Idx → α) (n : Fin 100000) :
    broadcastInDim S100000x1 ![0] bcast_S100000_S100000x1_0 v (ix2 n 0) = v (ix1 n) := by
  unfold broadcastInDim
  congr 1
  funext a
  obtain rfl : a = 0 := Subsingleton.elim _ _
  apply Fin.ext
  split
  · next h1 => change (100000 : ℕ) = 1 at h1; omega
  · rfl

/-- The normalised index of node `n` is its graph number when that is nonnegative. -/
theorem normIdx_apply (gi : IVec S100000 32) (n : Fin 100000) (h : 0 ≤ (gi (ix1 n)).toInt) :
    normIdx gi (ix2 n 0) = gi (ix1 n) := by
  unfold normIdx
  rw [col_apply, select_apply]
  have hc : cmpi .slt gi (broadcastInDim S100000 ![] bcast_S_S100000 (constantI S_ 32 0#32)) (ix1 n) = 0#1 :=
    slt_zero_of_nonneg _ h
  rw [hc, select_zero]

/-! ## The lookup in a 64-entry column -/

/-- Entry `(n, 0)` of the lookup reads the column at the start index of row `n` when that lies in [0, 64). -/
theorem gather_apply {α : Type} (x : S64x1.Idx → α) (idx : IVec S100000x1 32) (n : Fin 100000) (w : BitVec 32)
    (hw : idx (ix2 n 0) = w) (h0 : 0 ≤ w.toInt) (h64 : w.toInt < 64) :
    Host.gather gather_S64x1_S100000x1_S100000x1_1_0_n_n_0_1_11 x idx (ix2 n 0)
      = x (ix2 (⟨w.toInt.toNat, by omega⟩ : Fin 64) 0) := by
  subst hw
  unfold Host.gather
  congr 1
  funext a
  refine Fin.ext ?_
  match a with
  | ⟨0, h⟩ =>
    show gather_S64x1_S100000x1_S100000x1_1_0_n_n_0_1_11.start (ix2 n 0) idx 0
        + gather_S64x1_S100000x1_S100000x1_1_0_n_n_0_1_11.batchCoord (ix2 n 0) 0
        + gather_S64x1_S100000x1_S100000x1_1_0_n_n_0_1_11.offCoord (ix2 n 0) 0 = (idx (ix2 n 0)).toInt.toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x1_S100000x1_S100000x1_1_0_n_n_0_1_11.startIndexMap from
      List.mem_singleton.mpr rfl)]
    have hsi : gather_S64x1_S100000x1_S100000x1_1_0_n_n_0_1_11.siIdx (ix2 n 0)
        ⟨List.idxOf (0 : Fin 2) gather_S64x1_S100000x1_S100000x1_1_0_n_n_0_1_11.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat (64 - 1) = (idx (ix2 n 0)).toInt.toNat
    omega
  | ⟨1, h⟩ =>
    have hl := (gather_S64x1_S100000x1_S100000x1_1_0_n_n_0_1_11.operandIdx (ix2 n 0) idx ⟨1, h⟩).isLt
    have e1 : S64x1.size ⟨1, h⟩ = 1 := rfl
    show (gather_S64x1_S100000x1_S100000x1_1_0_n_n_0_1_11.operandIdx (ix2 n 0) idx ⟨1, h⟩).val = 0
    omega

/-! ## The indicator-weighted sum over the 64 graphs -/

/-- `∑ k, [w is graph k] · x k = x g` for the one graph `g` the word names. -/
theorem sum_oh (w : BitVec 32) (h0 : 0 ≤ w.toInt) (h64 : w.toInt < 64) (x : (⟨2, ![64, 1]⟩ : Shape).Idx → EReal) :
    ∑ g : Fin 64, oh w g.val * x (ix2 g 0) = x (ix2 (⟨w.toInt.toNat, by omega⟩ : Fin 64) 0) := by
  rw [Finset.sum_eq_single (⟨w.toInt.toNat, by omega⟩ : Fin 64)]
  · have e : oh w w.toInt.toNat = 1 := by
      unfold oh
      exact if_pos ((eq_ofNat_iff w h0 _ (by omega)).2 rfl)
    show oh w w.toInt.toNat * _ = _
    rw [e, one_mul]
  · intro g _ hg
    have e : oh w g.val = 0 := by
      unfold oh
      exact if_neg (fun e => hg (Fin.ext ((eq_ofNat_iff w h0 _ g.isLt).1 e).symm))
    rw [e, zero_mul]
  · intro h; exact absurd (Finset.mem_univ _) h

/-! ## The two forms agree -/

theorem finalOut_eq (gi : IVec S100000 32) (hgi : ∀ n : Fin 100000, 0 ≤ (gi (ix1 n)).toInt ∧ (gi (ix1 n)).toInt < 64)
    (value mean : FVec Ideal S64x1 .f32) (adv : FVec Ideal S100000x1 .f32) :
    finalOut gi value mean adv = finalIdx (broadcastInDim S100000x1 ![0] bcast_S100000_S100000x1_0 gi) value mean adv := by
  funext j
  obtain ⟨n, q, rfl⟩ : ∃ (n : Fin 100000) (q : Fin 1), j = ix2 n q := ⟨j 0, j 1, eq_ix2 j⟩
  obtain rfl : q = 0 := Subsingleton.elim _ _
  obtain ⟨h0, h64⟩ := hgi n
  have hn : normIdx gi (ix2 n 0) = gi (ix1 n) := normIdx_apply gi n h0
  have hc : broadcastInDim S100000x1 ![0] bcast_S100000_S100000x1_0 gi (ix2 n 0) = gi (ix1 n) := col_apply gi n
  have gv := gather_apply value (normIdx gi) n (gi (ix1 n)) hn h0 h64
  have gm := gather_apply mean (normIdx gi) n (gi (ix1 n)) hn h0 h64
  have sv := sum_oh (gi (ix1 n)) h0 h64 value
  have sm := sum_oh (gi (ix1 n)) h0 h64 mean
  calc finalOut gi value mean adv (ix2 n 0)
      = Ideal.tanh (Host.gather gather_S64x1_S100000x1_S100000x1_1_0_n_n_0_1_11 value (normIdx gi) (ix2 n 0)
          + (adv (ix2 n 0) - Host.gather gather_S64x1_S100000x1_S100000x1_1_0_n_n_0_1_11 mean (normIdx gi) (ix2 n 0))) := rfl
    _ = Ideal.tanh ((∑ g : Fin 64, oh (gi (ix1 n)) g.val * value (ix2 g 0))
          + (adv (ix2 n 0) - ∑ g : Fin 64, oh (gi (ix1 n)) g.val * mean (ix2 g 0))) := by rw [gv, gm, sv, sm]
    _ = Ideal.tanh ((∑ g : Fin 64, oh (broadcastInDim S100000x1 ![0] bcast_S100000_S100000x1_0 gi (ix2 n 0)) g.val * value (ix2 g 0))
          + (adv (ix2 n 0) - ∑ g : Fin 64, oh (broadcastInDim S100000x1 ![0] bcast_S100000_S100000x1_0 gi (ix2 n 0)) g.val * mean (ix2 g 0))) := by
        rw [hc]
    _ = finalIdx (broadcastInDim S100000x1 ![0] bcast_S100000_S100000x1_0 gi) value mean adv (ix2 n 0) := rfl

end Cert.GatherRef

end
-- ==== Proof.PreRange.lean ====
/-
  The last two conjuncts of the precondition, read back at a node.

  The precondition is a conjunction of "every entry satisfies p" statements, each an and-reduction of a
  word-by-word comparison, joined by the one-bit "and". Its last two conjuncts compare the graph numbers with
  the constants 0 (signed, greater or equal) and 64 (signed, less). A conjunction that is 1 has both halves 1;
  an and-reduction over every axis that is 1 had a 1 at every entry; and a signed comparison word that is 1 says
  the order of the two words read as signed integers. So every graph number g satisfies 0 ≤ g < 64.
-/
import proofs.«418596_j16673063043609_2_alg».proof.Defs
import proofs.«418596_j16673063043609_2_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Idealize.SL.Sem
open Cert.Pre_finite_inputs

/-- The shape with no axes has exactly one index. -/
instance scalarIdxSubsingleton : Subsingleton S_.Idx := ⟨fun a b => funext fun d => d.elim0⟩

/-- A word that is signed-at-least 0 and signed-below 64 is, read as an integer, in [0, 64). -/
theorem word_range (w : BitVec 32) (h0 : IntOp.cmpi .sge w 0#32 = 1#1) (h64 : IntOp.cmpi .slt w 64#32 = 1#1) :
    0 ≤ w.toInt ∧ w.toInt < 64 := by
  have a := IntOp.cmpi_sge.1 h0
  have b := IntOp.cmpi_slt.1 h64
  have e0 : (0#32 : BitVec 32).toInt = 0 := by decide
  have e64 : (64#32 : BitVec 32).toInt = 64 := by decide
  rw [e0] at a
  rw [e64] at b
  exact ⟨a, b⟩

/-- The tail of the conjunction: if it is 1 then "every graph number ≥ 0" and "every graph number < 64" are 1,
    hence both comparisons are 1 at node `n`. -/
theorem part4_range {F : FTy → Type} [FloatOps F] (gi : IVec S100000 32) (a16 : FVec F S1 .f32) (v63 v67 : IVec S_ 1)
    (h : fn_part4 (F := F) gi a16 v63 v67 ix0 = 1#1) (n : Fin 100000) :
    0 ≤ (gi (ix1 n)).toInt ∧ (gi (ix1 n)).toInt < 64 := by
  dsimp only [fn_part4] at h
  -- the outermost "and": (everything before ∧ all (g ≥ 0)) ∧ all (g < 64)
  obtain ⟨h1, hlt⟩ := IntOp.andi_eq_one.1 h
  obtain ⟨_, hge⟩ := IntOp.andi_eq_one.1 h1
  have hge' := Host.reduce_andi_all _ _ _ _ _ hge (ix1 n)
  have hlt' := Host.reduce_andi_all _ _ _ _ _ hlt (ix1 n)
  exact word_range (gi (ix1 n)) hge' hlt'

/-- The whole conjunction is its earlier conjuncts followed by that tail. -/
theorem fn_range {F : FTy → Type} [FloatOps F] (a0 : FVec F S100000x32 .f32) (a1 : IVec S2x1600000 32) (gi : IVec S100000 32)
    (a3 : FVec F S32x128 .f32) (a4 : FVec F S128 .f32) (a5 : FVec F S32x128 .f32) (a6 : FVec F S128x128 .f32)
    (a7 : FVec F S128 .f32) (a8 : FVec F S128x128 .f32) (a9 : FVec F S128x128 .f32) (a10 : FVec F S128 .f32)
    (a11 : FVec F S128x128 .f32) (a12 : FVec F S128x1 .f32) (a13 : FVec F S1 .f32) (a14 : FVec F S128x1 .f32)
    (a15 : FVec F S128x1 .f32) (a16 : FVec F S1 .f32)
    (h : fn (F := F) a0 a1 gi a3 a4 a5 a6 a7 a8 a9 a10 a11 a12 a13 a14 a15 a16 = fun _ => 1#1) (n : Fin 100000) :
    0 ≤ (gi (ix1 n)).toInt ∧ (gi (ix1 n)).toInt < 64 := by
  have e := congrFun h ix0
  dsimp only [fn, fn_part1, fn_part2, fn_part3] at e
  exact part4_range gi a16 _ _ e n

/-- Under the precondition every graph number of the launch memory is in [0, 64). -/
theorem gi_range (m : (ℓ : Loc Cert.KernelIdeal.nD Cert.KernelIdeal.τ Cert.KernelIdeal.sig) → Buf (Elt Ideal) ℓ)
    (h : Cert.Pre_KernelIdeal m) (c : Dev Cert.KernelIdeal.nD) (n : Fin 100000) :
    0 ≤ ((m ((c.tc : Thread Cert.KernelIdeal.nD Cert.KernelIdeal.τ).loc Cert.KernelIdeal.main_arg2) : IVec Cert.KernelIdeal.S100000 32) (ix1 n)).toInt
    ∧ ((m ((c.tc : Thread Cert.KernelIdeal.nD Cert.KernelIdeal.τ).loc Cert.KernelIdeal.main_arg2) : IVec Cert.KernelIdeal.S100000 32) (ix1 n)).toInt < 64 :=
  fn_range (F := Ideal) _ _ _ _ _ _ _ _ _ _ _ _ _ _ _ _ _ (h c) n

end Cert.PreRange

end
-- ==== Proof.KChain.lean ====
/-
  The idealized kernel program's buffers at the boundaries of its run, one boundary after the other, as the
  reference's stages of the argument arrays, over the extended reals. A pallas_call's output array is the dense
  function of its input arrays: a layer's `agg · W_l + b_l + h · W_r` with its activation, the per-graph sums, the
  last combination; the stretches of host operations between the calls are the reference's own chains applied to
  equal arrays. The two programs take the maximum of the per-graph counts with one on different layouts (a column
  against a vector laid out as a column afterwards): equal entry by entry. The last call looks the per-graph arrays
  up by indicator-weighted sums over the 64 graphs, the reference by gathers at the graph numbers: equal because
  every graph number lies in [0, 64), which the precondition says.
-/
import proofs.«418596_j16673063043609_2_alg».proof.Proof.KStage
import proofs.«418596_j16673063043609_2_alg».proof.Proof.Sage0
import proofs.«418596_j16673063043609_2_alg».proof.Proof.Sage1
import proofs.«418596_j16673063043609_2_alg».proof.Proof.Sage2
import proofs.«418596_j16673063043609_2_alg».proof.Proof.Sage3
import proofs.«418596_j16673063043609_2_alg».proof.Proof.PoolK
import proofs.«418596_j16673063043609_2_alg».proof.Proof.PoolRef
import proofs.«418596_j16673063043609_2_alg».proof.Proof.Final
import proofs.«418596_j16673063043609_2_alg».proof.Proof.GatherRef
import proofs.«418596_j16673063043609_2_alg».proof.Proof.PreRange

set_option maxRecDepth 16384

noncomputable section

namespace Cert.KernelIdeal.KChain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Layer 0 -/

set_option maxHeartbeats 8000000 in
/-- The first layer's output: `max (agg · W_l + b_l + x · W_r) 0`. -/
theorem W4_v30 (c : Dev nD) : W4 m ρ c (Proc.devRef .tc main_v30)
    = Cert.ReferenceIdeal.ReadP.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ?_
  rw [Cert.KernelIdeal.Sage0.final (V3 m ρ) c, Cert.Stages.spec_relu128, Cert.Stages.spec_sage32]
  rw [in0_0, in0_1, in0_2, in0_3, in0_4, W3_v28, W3_arg0, W3_arg3, W3_v29, W3_arg5, Cert.Stages.v34_eq, Cert.Stages.v27_eq]

/-! ## Layer 1 -/

/-- The aggregated first-layer features. -/
theorem W5_v42 (c : Dev nD) : W5 m ρ c (Proc.devRef .tc main_v42)
    = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (stage_agg1 m ρ c _ _ _ _ (W4_v30 m ρ c) (W4_v1 m ρ c) (W4_v3 m ρ c) (W4_v16 m ρ c)).trans (Cert.Stages.v47_eq ..).symm

/-- The second bias as a row. -/
theorem W5_v43 (c : Dev nD) : W5 m ρ c (Proc.devRef .tc main_v43)
    = Cert.ReferenceIdeal.ReadP.val_main_v49 (F := Ideal) (m ((c : Thread nD τ).loc main_arg7)) :=
  stage_row1 m ρ c _ (W4_arg7 m ρ c)

set_option maxHeartbeats 8000000 in
/-- The second layer's output. -/
theorem W6_v44 (c : Dev nD) : W6 m ρ c (Proc.devRef .tc main_v44)
    = Cert.ReferenceIdeal.ReadP.val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ?_
  rw [Cert.KernelIdeal.Sage1.final (V5 m ρ) c, Cert.Stages.spec_relu128, Cert.Stages.spec_sage128]
  rw [in1_0, in1_1, in1_2, in1_3, in1_4, W5_v42, keep5_v30 m ρ c _ (W4_v30 m ρ c), W5_arg6, W5_v43, W5_arg8, Cert.Stages.v54_eq]

/-! ## Layer 2 -/

/-- The aggregated second-layer features. -/
theorem W7_v56 (c : Dev nD) : W7 m ρ c (Proc.devRef .tc main_v56)
    = Cert.ReferenceIdeal.ReadP.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (stage_agg2 m ρ c _ _ _ _ (W6_v44 m ρ c) (W6_v1 m ρ c) (W6_v3 m ρ c) (W6_v16 m ρ c)).trans (Cert.Stages.v67_eq ..).symm

/-- The third bias as a row. -/
theorem W7_v57 (c : Dev nD) : W7 m ρ c (Proc.devRef .tc main_v57)
    = Cert.ReferenceIdeal.ReadP.val_main_v69 (F := Ideal) (m ((c : Thread nD τ).loc main_arg10)) :=
  stage_row2 m ρ c _ (W6_arg10 m ρ c)

set_option maxHeartbeats 8000000 in
/-- The embeddings: the third layer's output, without activation. -/
theorem W8_v58 (c : Dev nD) : W8 m ρ c (Proc.devRef .tc main_v58)
    = Cert.ReferenceIdeal.ReadP.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ?_
  rw [Cert.KernelIdeal.Sage2.final (V7 m ρ) c, Cert.Stages.spec_sage128]
  rw [in2_0, in2_1, in2_2, in2_3, in2_4, W7_v56, keep7_v44 m ρ c _ (W6_v44 m ρ c), W7_arg9, W7_v57, W7_arg11, Cert.Stages.v73_eq]

/-! ## The advantage head -/

/-- The aggregated embeddings. -/
theorem W9_v70 (c : Dev nD) : W9 m ρ c (Proc.devRef .tc main_v70)
    = Cert.ReferenceIdeal.ReadP.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (stage_agg3 m ρ c _ _ _ _ (W8_v58 m ρ c) (W8_v1 m ρ c) (W8_v3 m ρ c) (W8_v16 m ρ c)).trans (Cert.Stages.v86_eq ..).symm

/-- The head's bias as a 1×1 array. -/
theorem W9_v71 (c : Dev nD) : W9 m ρ c (Proc.devRef .tc main_v71)
    = Cert.ReferenceIdeal.ReadP.val_main_v88 (F := Ideal) (m ((c : Thread nD τ).loc main_arg13)) :=
  stage_row3 m ρ c _ (W8_arg13 m ρ c)

theorem W9_v58 (c : Dev nD) : W9 m ρ c (Proc.devRef .tc main_v58)
    = Cert.ReferenceIdeal.ReadP.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  keep9_v58 m ρ c _ (W8_v58 m ρ c)

set_option maxHeartbeats 8000000 in
/-- The advantages: `2 · tanh` of the head's linear part. -/
theorem W10_v72 (c : Dev nD) : W10 m ρ c (Proc.devRef .tc main_v72)
    = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 5).trans ?_
  rw [Cert.KernelIdeal.Sage3.final (V9 m ρ) c, Cert.Stages.spec_tanh2, Cert.Stages.spec_sage1]
  rw [in3_0, in3_1, in3_2, in3_3, in3_4, W9_v70, W9_v58, W9_arg12, W9_v71, W9_arg14, Cert.Stages.v95_eq]

/-- The embeddings are an input array of the head's call: unchanged by it. -/
theorem W10_v58 (c : Dev nD) : W10 m ρ c (Proc.devRef .tc main_v58)
    = Cert.ReferenceIdeal.ReadP.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((W10_arr m ρ c 1).trans (((dat3 (V9 m ρ) c).arrAt_in 1 rfl _).trans (A_eq3 (V9 m ρ) c 1))).trans (W9_v58 m ρ c)

/-! ## The per-graph sums -/

set_option maxHeartbeats 8000000 in
/-- The per-graph sums of the embeddings. -/
theorem W11_v73_0 (c : Dev nD) : W11 m ρ c (Proc.devRef .tc main_v73_0)
    = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W11_arr m ρ c 3).trans ?_
  rw [Cert.KernelIdeal.PoolK.parts (V10 m ρ) c]
  rw [in4_2, in4_0, W10_v4, W10_v58, ← Cert.PoolRef.poolParts_eq, Cert.Stages.spec_poolParts, Cert.Stages.v98_eq]

set_option maxHeartbeats 8000000 in
/-- The per-graph node counts, as a column. -/
theorem W11_v73_1 (c : Dev nD) : W11 m ρ c (Proc.devRef .tc main_v73_1)
    = broadcastInDim Cert.ReferenceIdeal.S64x1 ![0] Cert.ReferenceIdeal.Gen.bcast_S64_S64x1_0 (Cert.ReferenceIdeal.ReadP.val_main_v107 (F := Ideal) (m ((c : Thread nD τ).loc main_arg2))) := by
  refine (W11_arr m ρ c 4).trans ?_
  rw [Cert.KernelIdeal.PoolK.cnt (V10 m ρ) c]
  rw [in4_2, W10_v4, ← Cert.PoolRef.poolCnt_eq, Cert.Stages.spec_poolCnt, Cert.Stages.v107_eq]

set_option maxHeartbeats 8000000 in
/-- The per-graph sums of the advantages. -/
theorem W11_v73_2 (c : Dev nD) : W11 m ρ c (Proc.devRef .tc main_v73_2)
    = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W11_arr m ρ c 5).trans ?_
  rw [Cert.KernelIdeal.PoolK.adv (V10 m ρ) c]
  rw [in4_2, in4_1, W10_v4, W10_v72, ← Cert.PoolRef.poolAdv_eq, Cert.Stages.spec_poolAdv, Cert.Stages.v110_eq]

/-- The advantages are an input array of the pooling call: unchanged by it. -/
theorem W11_v72 (c : Dev nD) : W11 m ρ c (Proc.devRef .tc main_v72)
    = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  ((W11_arr m ρ c 1).trans (((dat4 (V10 m ρ) c).arrAt_in 1 rfl _).trans (A_eq4 (V10 m ρ) c 1))).trans (W10_v72 m ρ c)

/-! ## The value head and the per-graph means -/

/-- The per-graph value: `tanh (sums · W_v + b_v)`. -/
theorem W12_v78 (c : Dev nD) : W12 m ρ c (Proc.devRef .tc main_v78)
    = Cert.ReferenceIdeal.ReadP.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) :=
  (stage_value m ρ c _ _ _ (W11_v73_0 m ρ c) (W11_arg15 m ρ c) (W11_arg16 m ρ c)).trans (Cert.Stages.v103_eq ..).symm

set_option maxHeartbeats 8000000 in
/-- The per-graph mean advantage: the sum over the count, the count at least one. -/
theorem W12_v81 (c : Dev nD) : W12 m ρ c (Proc.devRef .tc main_v81)
    = Cert.ReferenceIdeal.ReadP.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (stage_mean m ρ c _ _ (W11_v73_2 m ρ c) (W11_v73_1 m ρ c)).trans ?_
  rw [Cert.Stages.v114_eq, Cert.Bridge.max_col64 _ _ Cert.ReferenceIdeal.Gen.bcast_S64_S64x1_0 Cert.ReferenceIdeal.Gen.bcast_S_S64x1 Cert.ReferenceIdeal.Gen.bcast_S_S64]
  rfl

theorem W12_v72 (c : Dev nD) : W12 m ρ c (Proc.devRef .tc main_v72)
    = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  keep12_v72 m ρ c _ (W11_v72 m ρ c)

/-! ## The last combination -/

set_option maxHeartbeats 8000000 in
/-- The last call's output column: `tanh (value[g n] + (adv n - mean[g n]))`, the lookups at the graph numbers
    being gathers because every graph number lies in [0, 64). -/
theorem W13_v82 (hpre : Cert.Pre_KernelIdeal m) (c : Dev nD) : W13 m ρ c (Proc.devRef .tc main_v82)
    = Cert.ReferenceIdeal.ReadP.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W13_arr m ρ c 4).trans ?_
  rw [Cert.KernelIdeal.Final.final (V12 m ρ) c]
  rw [in5_0, in5_2, in5_3, in5_1, W12_v4, W12_v78, W12_v81, W12_v72]
  refine (Cert.GatherRef.finalOut_eq (m ((c : Thread nD τ).loc main_arg2)) (Cert.PreRange.gi_range m hpre c) _ _ _).symm.trans ?_
  rw [Cert.Stages.spec_finalOut, Cert.Stages.v131_eq]

/-- The result: the last column as a vector. -/
theorem kernel_value (hpre : Cert.Pre_KernelIdeal m) (c : Dev nD) : W14 m ρ c (Proc.devRef .tc main_v83)
    = Cert.ReferenceIdeal.ReadP.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  stage_out m ρ c _ (W13_v82 m ρ hpre c)

end Cert.KernelIdeal.KChain

end
-- ==== Proof.lean ====
/-
  The certificate of the graph network's kernel against its reference, over the extended reals.

  The network: three layers `h ↦ act (agg h · W_l + b_l + h · W_r)` — `agg h` the mean of `h` over a node's incoming
  edges (gather along the sources, accumulate at the targets, scale by the reciprocal in-degree), `act` the
  positive part for the first two layers and nothing for the third —, an advantage head of the same form with
  `2 · tanh`, the per-graph sums of the embeddings and of the advantages with the per-graph node counts, a value
  `tanh (sums · W_v + b_v)` per graph, the mean advantage per graph (sum over count, the count at least one), and
  `tanh (value[g n] + (adv n - mean[g n]))` per node, `g n` the node's graph number.

  The kernel program computes each dense part `agg · W_l + b_l + h · W_r` (with its activation) in a pallas_call over
  blocks of 5000 nodes, the per-graph sums by products with a 0/1 indicator matrix accumulated over the blocks, and
  the last lookups by indicator-weighted sums over the 64 graphs; everything between the calls is the reference's
  own chain of host operations. Over the extended reals a product with the indicator of `g n = g` summed over the
  nodes is the sum over the nodes of graph `g` (`0 · x = 0` and `1 · x = x` for every extended real; sums may be
  regrouped freely), so the accumulated products are the reference's accumulating scatters; and an
  indicator-weighted sum over the graphs is the lookup at `g n` provided `0 ≤ g n < 64`, which the precondition
  states (outside that range the reference's lookup wraps or clamps while the indicator sum is zero).

  Proof/KRun.lean: the kernel program's run with the result buffer named. Proof/KStart.lean, KKeep.lean, KChain.lean:
  that buffer's contents, boundary by boundary, as the reference's stages of the arguments. Proof/Sage0–3.lean,
  PoolK.lean, Final.lean: each call's output array as a function of its input arrays. Proof/PoolRef.lean,
  GatherRef.lean: the reference's scatters and gathers in indicator form. Proof/PreRange.lean: the range of the
  graph numbers out of the precondition. Proof/RefRun.lean, RefRead.lean: the reference's run and its stages.
-/
import proofs.«418596_j16673063043609_2_alg».proof.Defs
import proofs.«418596_j16673063043609_2_alg».proof.Proof.Gen.Kernel
import proofs.«418596_j16673063043609_2_alg».proof.Proof.Gen.Kernel.Frame
import proofs.«418596_j16673063043609_2_alg».proof.Proof.Gen.KernelIdeal
import proofs.«418596_j16673063043609_2_alg».proof.Proof.Gen.KernelIdeal.Frame
import proofs.«418596_j16673063043609_2_alg».proof.Proof.Gen.ReferenceIdeal
import proofs.«418596_j16673063043609_2_alg».proof.Proof.Gen.Pre_finite_inputs
import proofs.«418596_j16673063043609_2_alg».proof.Proof.KRun
import proofs.«418596_j16673063043609_2_alg».proof.Proof.KChain
import proofs.«418596_j16673063043609_2_alg».proof.Proof.RefRead
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end at the reference's last stage of the (agreeing) argument arrays. -/
theorem algebraic : Cert.algebraic_KernelIdeal_ReferenceIdeal := by
  intro m ρ m' ρ' hpre hagree
  refine ⟨fun c => Cert.ReferenceIdeal.ReadP.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.KChain.kernel_value m ρ hpre c), (h c).2⟩)
      (Cert.KernelIdeal.KRun.run_out m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16⟩ := hagree c
    rw [Cert.ReferenceIdeal.ReadP.val_main_v132_eq, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
